-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32768x256 : Shape := ⟨3, ![4, 32768, 256]⟩
abbrev S8x1x32 : Shape := ⟨3, ![8, 1, 32]⟩
abbrev S_ : Shape := ⟨0, ![]⟩

class Facts : Prop where
  bcast_S_S4x32768x256 : S_.BroadcastsInDim S4x32768x256 (![] : Fin 0 → Fin S4x32768x256.rank)
  reducesTo_S4x32768x256_S_d0_1_2 : S4x32768x256.ReducesTo [0, 1, 2] S_
  h_S_ : 0 < S_.numel
  bcast_S_S8x1x32 : S_.BroadcastsInDim S8x1x32 (![] : Fin 0 → Fin S8x1x32.rank)
  reducesTo_S8x1x32_S_d0_1_2 : S8x1x32.ReducesTo [0, 1, 2] S_

variable [Facts]

def fn_part1 {F : FTy → Type} [FloatOps F] (main_arg4 : FVec F S8x1x32 .f32) (main_v13 : IVec S_ 1) (main_v16 : IVec S8x1x32 1) : IVec S_ 1 :=
  let main_c_5 : IVec S_ 1 := constantI S_ 1 1#1
  let main_v17 : IVec S_ 1 := (fun x v => Host.reduce IntOp.andi x v reducesTo_S8x1x32_S_d0_1_2 h_S_) main_v16 main_c_5
  let main_v18 : IVec S_ 1 := andi main_v13 main_v17
  let main_v19 : FVec F S8x1x32 .f32 := Host.absf main_arg4
  let main_cst_6 : FVec F S_ .f32 := constant S_ .f32 0x7F800000#32
  let main_v20 : FVec F S8x1x32 .f32 := broadcastInDim S8x1x32 ![] bcast_S_S8x1x32 main_cst_6
  let main_v21 : IVec S8x1x32 1 := cmpf .olt main_v19 main_v20
  let main_c_7 : IVec S_ 1 := constantI S_ 1 1#1
  let main_v22 : IVec S_ 1 := (fun x v => Host.reduce IntOp.andi x v reducesTo_S8x1x32_S_d0_1_2 h_S_) main_v21 main_c_7
  let main_v23 : IVec S_ 1 := andi main_v18 main_v22
  main_v23

def fn {F : FTy → Type} [FloatOps F] (main_arg0 : FVec F S4x32768x256 .f32) (main_arg1 : FVec F S8x1x32 .f32) (main_arg2 : FVec F S8x1x32 .f32) (main_arg3 : FVec F S8x1x32 .f32) (main_arg4 : FVec F S8x1x32 .f32) : IVec S_ 1 :=
  let main_v0 : FVec F S4x32768x256 .f32 := Host.absf main_arg0
  let main_cst : FVec F S_ .f32 := constant S_ .f32 0x7F800000#32
  let main_v1 : FVec F S4x32768x256 .f32 := broadcastInDim S4x32768x256 ![] bcast_S_S4x32768x256 main_cst
  let main_v2 : IVec S4x32768x256 1 := cmpf .olt main_v0 main_v1
  let main_c : IVec S_ 1 := constantI S_ 1 1#1
  let main_v3 : IVec S_ 1 := (fun x v => Host.reduce IntOp.andi x v reducesTo_S4x32768x256_S_d0_1_2 h_S_) main_v2 main_c
  let main_v4 : FVec F S8x1x32 .f32 := Host.absf main_arg1
  let main_cst_0 : FVec F S_ .f32 := constant S_ .f32 0x7F800000#32
  let main_v5 : FVec F S8x1x32 .f32 := broadcastInDim S8x1x32 ![] bcast_S_S8x1x32 main_cst_0
  let main_v6 : IVec S8x1x32 1 := cmpf .olt main_v4 main_v5
  let main_c_1 : IVec S_ 1 := constantI S_ 1 1#1
  let main_v7 : IVec S_ 1 := (fun x v => Host.reduce IntOp.andi x v reducesTo_S8x1x32_S_d0_1_2 h_S_) main_v6 main_c_1
  let main_v8 : IVec S_ 1 := andi main_v3 main_v7
  let main_v9 : FVec F S8x1x32 .f32 := Host.absf main_arg2
  let main_cst_2 : FVec F S_ .f32 := constant S_ .f32 0x7F800000#32
  let main_v10 : FVec F S8x1x32 .f32 := broadcastInDim S8x1x32 ![] bcast_S_S8x1x32 main_cst_2
  let main_v11 : IVec S8x1x32 1 := cmpf .olt main_v9 main_v10
  let main_c_3 : IVec S_ 1 := constantI S_ 1 1#1
  let main_v12 : IVec S_ 1 := (fun x v => Host.reduce IntOp.andi x v reducesTo_S8x1x32_S_d0_1_2 h_S_) main_v11 main_c_3
  let main_v13 : IVec S_ 1 := andi main_v8 main_v12
  let main_v14 : FVec F S8x1x32 .f32 := Host.absf main_arg3
  let main_cst_4 : FVec F S_ .f32 := constant S_ .f32 0x7F800000#32
  let main_v15 : FVec F S8x1x32 .f32 := broadcastInDim S8x1x32 ![] bcast_S_S8x1x32 main_cst_4
  let main_v16 : IVec S8x1x32 1 := cmpf .olt main_v14 main_v15
  fn_part1 (F := F) main_arg4 main_v13 main_v16
-- ==== Kernel.lean ====
abbrev S4x32768x256 : Shape := ⟨3, ![4, 32768, 256]⟩
abbrev S8x1x32 : Shape := ⟨3, ![8, 1, 32]⟩
abbrev S1x256 : Shape := ⟨2, ![1, 256]⟩
abbrev S4x8x32x32 : Shape := ⟨4, ![4, 8, 32, 32]⟩
abbrev S1x4096x256 : Shape := ⟨3, ![1, 4096, 256]⟩
abbrev S1x8x32x32 : Shape := ⟨4, ![1, 8, 32, 32]⟩
abbrev S8x32x32 : Shape := ⟨3, ![8, 32, 32]⟩
abbrev S4096x256 : Shape := ⟨2, ![4096, 256]⟩
abbrev S256 : Shape := ⟨1, ![256]⟩
abbrev S4096x32 : Shape := ⟨2, ![4096, 32]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S32x32 : Shape := ⟨2, ![32, 32]⟩
abbrev S1x32x32 : Shape := ⟨3, ![1, 32, 32]⟩
abbrev S1x1x32x32 : Shape := ⟨4, ![1, 1, 32, 32]⟩

abbrev nBuf : Space → Nat
  | .hbm => 11
  | .vmem => 15
  | .smem => 0
  | _ => 0

abbrev bufTy : (tb : Table) → Fin (tcTables nBuf tb) → BufTy
  | .hbm, ⟨0, _⟩ => ⟨S4x32768x256, .f32⟩
  | .hbm, ⟨1, _⟩ => ⟨S8x1x32, .f32⟩
  | .hbm, ⟨2, _⟩ => ⟨S8x1x32, .f32⟩
  | .hbm, ⟨3, _⟩ => ⟨S8x1x32, .f32⟩
  | .hbm, ⟨4, _⟩ => ⟨S8x1x32, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S4x8x32x32, .f32⟩
  | .hbm, ⟨10, _⟩ => ⟨S4x32768x256, .f32⟩
  | .local _ .vmem, ⟨0, _⟩ => ⟨S1x4096x256, .f32⟩
  | .local _ .vmem, ⟨1, _⟩ => ⟨S1x4096x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x8x32x32, .f32⟩
  | .local _ .vmem, ⟨7, _⟩ => ⟨S1x8x32x32, .f32⟩
  | .local _ .vmem, ⟨8, _⟩ => ⟨S8x32x32, .f32⟩
  | .local _ .vmem, ⟨9, _⟩ => ⟨S1x4096x256, .f32⟩
  | .local _ .vmem, ⟨10, _⟩ => ⟨S1x4096x256, .f32⟩
  | .local _ .vmem, ⟨11, _⟩ => ⟨S1x8x32x32, .f32⟩
  | .local _ .vmem, ⟨12, _⟩ => ⟨S1x8x32x32, .f32⟩
  | .local _ .vmem, ⟨13, _⟩ => ⟨S1x4096x256, .f32⟩
  | .local _ .vmem, ⟨14, _⟩ => ⟨S1x4096x256, .f32⟩
  | _, _ => ⟨S4x32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v349 : BitVec 1 := Scalar.cmpi .eq arg1 c7_i32
  let v350 : BitVec 32 := Scalar.extui v349
  let c0_i32_99 : BitVec 32 := 0#32
  let v351 : BitVec 1 := Scalar.cmpi .ne v350 c0_i32_99
  v351

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S8x1x32_S1x256 : S8x1x32.ShapeCasts S1x256
  inb_S8x32x32_S8x32x32_0_0_0 : ∀ a, (![0, 0, 0] : Fin 3 → Nat) a + S8x32x32.size a ≤ S8x32x32.size a
  h_S8x32x32 : 0 < S8x32x32.numel
  shapeCasts_S8x32x32_S8x32x32 : S8x32x32.ShapeCasts S8x32x32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x256_S1x256_0_0 : ∀ a, (![0, 0] : Fin 2 → Nat) a + S1x256.size a ≤ S1x256.size a
  h_S1x256 : 0 < S1x256.numel
  shapeCasts_S1x256_S256 : S1x256.ShapeCasts S256
  slices_S4096x256_o0_0_S4096x32 : S4096x256.Slices ![0, 0] S4096x32
  slices_S256_o0_S32 : S256.Slices ![0] S32
  reduces_S4096x32_S4096 : S4096x32.Reduces [1] S4096
  shapeCasts_S4096_S4096x1 : S4096.ShapeCasts S4096x1
  broadcasts_S4096x1_S4096x32 : S4096x1.Broadcasts S4096x32
  shapeCasts_S32_S1x32 : S32.ShapeCasts S1x32
  broadcasts_S1x32_S4096x32 : S1x32.Broadcasts S4096x32
  bitsLt_bf16_f32 : FTy.bits .bf16 < FTy.bits .f32
  inb_S8x32x32_S1x32x32_0_0_0 : ∀ a, (![0, 0, 0] : Fin 3 → Nat) a + S1x32x32.size a ≤ S8x32x32.size a
  h_S1x32x32 : 0 < S1x32x32.numel
  shapeCasts_S1x32x32_S32x32 : S1x32x32.ShapeCasts S32x32
  shapeCasts_S32x32_S1x32x32 : S32x32.ShapeCasts S1x32x32
  slices_S4096x256_o0_32_S4096x32 : S4096x256.Slices ![0, 32] S4096x32
  slices_S256_o32_S32 : S256.Slices ![32] S32
  inb_S8x32x32_S1x32x32_1_0_0 : ∀ a, (![1, 0, 0] : Fin 3 → Nat) a + S1x32x32.size a ≤ S8x32x32.size a
  slices_S4096x256_o0_64_S4096x32 : S4096x256.Slices ![0, 64] S4096x32
  slices_S256_o64_S32 : S256.Slices ![64] S32
  inb_S8x32x32_S1x32x32_2_0_0 : ∀ a, (![2, 0, 0] : Fin 3 → Nat) a + S1x32x32.size a ≤ S8x32x32.size a
  slices_S4096x256_o0_96_S4096x32 : S4096x256.Slices ![0, 96] S4096x32
  slices_S256_o96_S32 : S256.Slices ![96] S32
  inb_S8x32x32_S1x32x32_3_0_0 : ∀ a, (![3, 0, 0] : Fin 3 → Nat) a + S1x32x32.size a ≤ S8x32x32.size a
  slices_S4096x256_o0_128_S4096x32 : S4096x256.Slices ![0, 128] S4096x32
  slices_S256_o128_S32 : S256.Slices ![128] S32
  inb_S8x32x32_S1x32x32_4_0_0 : ∀ a, (![4, 0, 0] : Fin 3 → Nat) a + S1x32x32.size a ≤ S8x32x32.size a
  slices_S4096x256_o0_160_S4096x32 : S4096x256.Slices ![0, 160] S4096x32
  slices_S256_o160_S32 : S256.Slices ![160] S32
  inb_S8x32x32_S1x32x32_5_0_0 : ∀ a, (![5, 0, 0] : Fin 3 → Nat) a + S1x32x32.size a ≤ S8x32x32.size a
  slices_S4096x256_o0_192_S4096x32 : S4096x256.Slices ![0, 192] S4096x32
  slices_S256_o192_S32 : S256.Slices ![192] S32
  inb_S8x32x32_S1x32x32_6_0_0 : ∀ a, (![6, 0, 0] : Fin 3 → Nat) a + S1x32x32.size a ≤ S8x32x32.size a
  slices_S4096x256_o0_224_S4096x32 : S4096x256.Slices ![0, 224] S4096x32
  slices_S256_o224_S32 : S256.Slices ![224] S32
  inb_S8x32x32_S1x32x32_7_0_0 : ∀ a, (![7, 0, 0] : Fin 3 → Nat) a + S1x32x32.size a ≤ S8x32x32.size a
  inb_S1x8x32x32_S1x8x32x32_0_0_0_0 : ∀ a, (![0, 0, 0, 0] : Fin 4 → Nat) a + S1x8x32x32.size a ≤ S1x8x32x32.size a
  h_S1x8x32x32 : 0 < S1x8x32x32.numel
  shapeCasts_S1x8x32x32_S8x32x32 : S1x8x32x32.ShapeCasts S8x32x32
  shapeCasts_S8x32x32_S1x8x32x32 : S8x32x32.ShapeCasts S1x8x32x32
  inb_S1x8x32x32_S1x1x32x32_0_0_0_0 : ∀ a, (![0, 0, 0, 0] : Fin 4 → Nat) a + S1x1x32x32.size a ≤ S1x8x32x32.size a
  h_S1x1x32x32 : 0 < S1x1x32x32.numel
  shapeCasts_S1x1x32x32_S32x32 : S1x1x32x32.ShapeCasts S32x32
  inb_S1x8x32x32_S1x1x32x32_0_1_0_0 : ∀ a, (![0, 1, 0, 0] : Fin 4 → Nat) a + S1x1x32x32.size a ≤ S1x8x32x32.size a
  inb_S1x8x32x32_S1x1x32x32_0_2_0_0 : ∀ a, (![0, 2, 0, 0] : Fin 4 → Nat) a + S1x1x32x32.size a ≤ S1x8x32x32.size a
  inb_S1x8x32x32_S1x1x32x32_0_3_0_0 : ∀ a, (![0, 3, 0, 0] : Fin 4 → Nat) a + S1x1x32x32.size a ≤ S1x8x32x32.size a
  inb_S1x8x32x32_S1x1x32x32_0_4_0_0 : ∀ a, (![0, 4, 0, 0] : Fin 4 → Nat) a + S1x1x32x32.size a ≤ S1x8x32x32.size a
  inb_S1x8x32x32_S1x1x32x32_0_5_0_0 : ∀ a, (![0, 5, 0, 0] : Fin 4 → Nat) a + S1x1x32x32.size a ≤ S1x8x32x32.size a
  inb_S1x8x32x32_S1x1x32x32_0_6_0_0 : ∀ a, (![0, 6, 0, 0] : Fin 4 → Nat) a + S1x1x32x32.size a ≤ S1x8x32x32.size a
  inb_S1x8x32x32_S1x1x32x32_0_7_0_0 : ∀ a, (![0, 7, 0, 0] : Fin 4 → Nat) a + S1x1x32x32.size a ≤ S1x8x32x32.size a
  concatenates_S4096x32_S4096x32_S4096x32_S4096x32_S4096x32_S4096x32_S4096x32_S4096x32_S4096x256_d1 : Shape.Concatenates [S4096x32, S4096x32, S4096x32, S4096x32, S4096x32, S4096x32, S4096x32, S4096x32] S4096x256 1
  shapeCasts_S4096x256_S1x4096x256 : S4096x256.ShapeCasts S1x4096x256
  dot_S4096x32_S4096x32_S32x32_0_0_1_1_n_n_wf : DotDims.WF S4096x32 S4096x32 S32x32 [0] [0] [1] [1] [] []
  dot_S4096x32_S32x32_S4096x32_1_0_0_1_n_n_wf : DotDims.WF S4096x32 S32x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x32768x256.size a
  hwx0_0 : ∀ i : grid0.Coords, EltTy.bits .f32 = 32 ∨ (Rect.block (s := S4x32768x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x32x32.size a ≤ S4x8x32x32.size a
  hwx0_5 : ∀ i : grid0.Coords, EltTy.bits .f32 = 32 ∨ (Rect.block (s := S4x8x32x32) S1x8x32x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x256.size a ≤ S4x32768x256.size a
  hwx1_0 : ∀ i : grid1.Coords, EltTy.bits .f32 = 32 ∨ (Rect.block (s := S4x32768x256) S1x4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x32x32.size a ≤ S4x8x32x32.size a
  hwx1_1 : ∀ i : grid1.Coords, EltTy.bits .f32 = 32 ∨ (Rect.block (s := S4x8x32x32) S1x8x32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S4x32768x256.size a
  hwx1_2 : ∀ i : grid1.Coords, EltTy.bits .f32 = 32 ∨ (Rect.block (s := S4x32768x256) S1x4096x256.size (cc1_transform_2 i) (hinb1_2 i)).WholeWords (EltTy.packing .f32)

variable [Facts₀]

def dot_S4096x32_S4096x32_S32x32_0_0_1_1_n_n : DotDims S4096x32 S4096x32 S32x32 where
  lhsContracting := [0]
  rhsContracting := [0]
  lhsNonContracting := [1]
  rhsNonContracting := [1]
  lhsBatch := []
  rhsBatch := []
  wf := dot_S4096x32_S4096x32_S32x32_0_0_1_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x8x32x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1x4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x8x32x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x32768x256 : Shape := ⟨3, ![4, 32768, 256]⟩
abbrev S8x1x32 : Shape := ⟨3, ![8, 1, 32]⟩
abbrev S4x32768x8x32 : Shape := ⟨4, ![4, 32768, 8, 32]⟩
abbrev S4x8x32768x32 : Shape := ⟨4, ![4, 8, 32768, 32]⟩
abbrev S_ : Shape := ⟨0, ![]⟩
abbrev S4x8x32768 : Shape := ⟨3, ![4, 8, 32768]⟩
abbrev S4x8x32768x1 : Shape := ⟨4, ![4, 8, 32768, 1]⟩
abbrev S1x8x1x32 : Shape := ⟨4, ![1, 8, 1, 32]⟩
abbrev S4x8x32x32 : Shape := ⟨4, ![4, 8, 32, 32]⟩

abbrev nBuf : Space → Nat
  | .hbm => 103
  | .vmem => 0
  | .smem => 0
  | _ => 0

abbrev bufTy : (tb : Table) → Fin (tcTables nBuf tb) → BufTy
  | .hbm, ⟨0, _⟩ => ⟨S4x32768x256, .f32⟩
  | .hbm, ⟨1, _⟩ => ⟨S8x1x32, .f32⟩
  | .hbm, ⟨2, _⟩ => ⟨S8x1x32, .f32⟩
  | .hbm, ⟨3, _⟩ => ⟨S8x1x32, .f32⟩
  | .hbm, ⟨4, _⟩ => ⟨S8x1x32, .f32⟩
  | .hbm, ⟨5, _⟩ => ⟨S4x32768x8x32, .f32⟩
  | .hbm, ⟨6, _⟩ => ⟨S4x8x32768x32, .f32⟩
  | .hbm, ⟨7, _⟩ => ⟨S_, .f32⟩
  | .hbm, ⟨8, _⟩ => ⟨S4x8x32768, .f32⟩
  | .hbm, ⟨9, _⟩ => ⟨S4x8x32768x1, .f32⟩
  | .hbm, ⟨10, _⟩ => ⟨S_, .f32⟩
  | .hbm, ⟨11, _⟩ => ⟨S4x8x32768x1, .f32⟩
  | .hbm, ⟨12, _⟩ => ⟨S4x8x32768x1, .f32⟩
  | .hbm, ⟨13, _⟩ => ⟨S_, .i32⟩
  | .hbm, ⟨14, _⟩ => ⟨S_, .f32⟩
  | .hbm, ⟨15, _⟩ => ⟨S4x8x32768, .f32⟩
  | .hbm, ⟨16, _⟩ => ⟨S4x8x32768x1, .f32⟩
  | .hbm, ⟨17, _⟩ => ⟨S_, .f32⟩
  | .hbm, ⟨18, _⟩ => ⟨S4x8x32768x1, .f32⟩
  | .hbm, ⟨19, _⟩ => ⟨S4x8x32768x1, .f32⟩
  | .hbm, ⟨20, _⟩ => ⟨S4x8x32768x32, .f32⟩
  | .hbm, ⟨21, _⟩ => ⟨S4x8x32768x32, .f32⟩
  | .hbm, ⟨22, _⟩ => ⟨S4x8x32768x32, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x8x32768, .f32⟩
  | .hbm, ⟨28, _⟩ => ⟨S4x8x32768x1, .f32⟩
  | .hbm, ⟨29, _⟩ => ⟨S4x8x32768x1, .f32⟩
  | .hbm, ⟨30, _⟩ => ⟨S4x8x32768x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S4x8x32768x1, .f32⟩
  | .hbm, ⟨36, _⟩ => ⟨S4x8x32768x1, .f32⟩
  | .hbm, ⟨37, _⟩ => ⟨S4x8x32768x1, .f32⟩
  | .hbm, ⟨38, _⟩ => ⟨S4x8x32768x32, .f32⟩
  | .hbm, ⟨39, _⟩ => ⟨S4x8x32768x32, .f32⟩
  | .hbm, ⟨40, _⟩ => ⟨S_, .f32⟩
  | .hbm, ⟨41, _⟩ => ⟨S4x8x32768x1, .f32⟩
  | .hbm, ⟨42, _⟩ => ⟨S4x8x32768x1, .f32⟩
  | .hbm, ⟨43, _⟩ => ⟨S4x8x32768x32, .f32⟩
  | .hbm, ⟨44, _⟩ => ⟨S4x8x32768x32, .f32⟩
  | .hbm, ⟨45, _⟩ => ⟨S1x8x1x32, .f32⟩
  | .hbm, ⟨46, _⟩ => ⟨S4x8x32768x32, .f32⟩
  | .hbm, ⟨47, _⟩ => ⟨S4x8x32768x32, .f32⟩
  | .hbm, ⟨48, _⟩ => ⟨S1x8x1x32, .f32⟩
  | .hbm, ⟨49, _⟩ => ⟨S4x8x32768x32, .f32⟩
  | .hbm, ⟨50, _⟩ => ⟨S4x8x32768x32, .f32⟩
  | .hbm, ⟨51, _⟩ => ⟨S_, .f32⟩
  | .hbm, ⟨52, _⟩ => ⟨S4x8x32768, .f32⟩
  | .hbm, ⟨53, _⟩ => ⟨S4x8x32768x1, .f32⟩
  | .hbm, ⟨54, _⟩ => ⟨S_, .f32⟩
  | .hbm, ⟨55, _⟩ => ⟨S4x8x32768x1, .f32⟩
  | .hbm, ⟨56, _⟩ => ⟨S4x8x32768x1, .f32⟩
  | .hbm, ⟨57, _⟩ => ⟨S_, .i32⟩
  | .hbm, ⟨58, _⟩ => ⟨S_, .f32⟩
  | .hbm, ⟨59, _⟩ => ⟨S4x8x32768, .f32⟩
  | .hbm, ⟨60, _⟩ => ⟨S4x8x32768x1, .f32⟩
  | .hbm, ⟨61, _⟩ => ⟨S_, .f32⟩
  | .hbm, ⟨62, _⟩ => ⟨S4x8x32768x1, .f32⟩
  | .hbm, ⟨63, _⟩ => ⟨S4x8x32768x1, .f32⟩
  | .hbm, ⟨64, _⟩ => ⟨S4x8x32768x32, .f32⟩
  | .hbm, ⟨65, _⟩ => ⟨S4x8x32768x32, .f32⟩
  | .hbm, ⟨66, _⟩ => ⟨S4x8x32768x32, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S4x8x32768, .f32⟩
  | .hbm, ⟨72, _⟩ => ⟨S4x8x32768x1, .f32⟩
  | .hbm, ⟨73, _⟩ => ⟨S4x8x32768x1, .f32⟩
  | .hbm, ⟨74, _⟩ => ⟨S4x8x32768x1, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S4x8x32768x1, .f32⟩
  | .hbm, ⟨80, _⟩ => ⟨S4x8x32768x1, .f32⟩
  | .hbm, ⟨81, _⟩ => ⟨S4x8x32768x1, .f32⟩
  | .hbm, ⟨82, _⟩ => ⟨S4x8x32768x32, .f32⟩
  | .hbm, ⟨83, _⟩ => ⟨S4x8x32768x32, .f32⟩
  | .hbm, ⟨84, _⟩ => ⟨S_, .f32⟩
  | .hbm, ⟨85, _⟩ => ⟨S4x8x32768x1, .f32⟩
  | .hbm, ⟨86, _⟩ => ⟨S4x8x32768x1, .f32⟩
  | .hbm, ⟨87, _⟩ => ⟨S4x8x32768x32, .f32⟩
  | .hbm, ⟨88, _⟩ => ⟨S4x8x32768x32, .f32⟩
  | .hbm, ⟨89, _⟩ => ⟨S1x8x1x32, .f32⟩
  | .hbm, ⟨90, _⟩ => ⟨S4x8x32768x32, .f32⟩
  | .hbm, ⟨91, _⟩ => ⟨S4x8x32768x32, .f32⟩
  | .hbm, ⟨92, _⟩ => ⟨S1x8x1x32, .f32⟩
  | .hbm, ⟨93, _⟩ => ⟨S4x8x32768x32, .f32⟩
  | .hbm, ⟨94, _⟩ => ⟨S4x8x32768x32, .f32⟩
  | .hbm, ⟨95, _⟩ => ⟨S4x8x32x32, .f32⟩
  | .hbm, ⟨96, _⟩ => ⟨S_, .f32⟩
  | .hbm, ⟨97, _⟩ => ⟨S4x8x32x32, .f32⟩
  | .hbm, ⟨98, _⟩ => ⟨S4x8x32x32, .f32⟩
  | .hbm, ⟨99, _⟩ => ⟨S4x8x32768x32, .f32⟩
  | .hbm, ⟨100, _⟩ => ⟨S4x32768x8x32, .f32⟩
  | .hbm, ⟨101, _⟩ => ⟨S4x32768x256, .f32⟩
  | .hbm, ⟨102, _⟩ => ⟨S4x32768x256, .f32⟩
  | _, _ => ⟨S4x32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_cst_0 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_cst_1 : Ref sig .tc := ⟨.hbm, 24, rfl⟩
abbrev main_call0_call0_v8 : Ref sig .tc := ⟨.hbm, 25, rfl⟩
abbrev main_call0_call0_cst_2 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_v12 : Ref sig .tc := ⟨.hbm, 30, rfl⟩
abbrev main_call0_call0_cst_3 : Ref sig .tc := ⟨.hbm, 31, rfl⟩
abbrev main_call0_call0_v13 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_v0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩
abbrev main_cst_3 : Ref sig .tc := ⟨.hbm, 54, rfl⟩
abbrev main_v21 : Ref sig .tc := ⟨.hbm, 55, rfl⟩
abbrev main_v22 : Ref sig .tc := ⟨.hbm, 56, rfl⟩
abbrev main_c_4 : Ref sig .tc := ⟨.hbm, 57, rfl⟩
abbrev main_call1_call0_cst : Ref sig .tc := ⟨.hbm, 58, rfl⟩
abbrev main_call1_call0_v0 : Ref sig .tc := ⟨.hbm, 59, rfl⟩
abbrev main_call1_call0_v1 : Ref sig .tc := ⟨.hbm, 60, rfl⟩
abbrev main_call1_call0_cst_0 : Ref sig .tc := ⟨.hbm, 61, rfl⟩
abbrev main_call1_call0_v2 : Ref sig .tc := ⟨.hbm, 62, rfl⟩
abbrev main_call1_call0_v3 : Ref sig .tc := ⟨.hbm, 63, rfl⟩
abbrev main_call1_call0_v4 : Ref sig .tc := ⟨.hbm, 64, rfl⟩
abbrev main_call1_call0_v5 : Ref sig .tc := ⟨.hbm, 65, rfl⟩
abbrev main_call1_call0_v6 : Ref sig .tc := ⟨.hbm, 66, rfl⟩
abbrev main_call1_call0_v7 : Ref sig .tc := ⟨.hbm, 67, rfl⟩
abbrev main_call1_call0_cst_1 : Ref sig .tc := ⟨.hbm, 68, rfl⟩
abbrev main_call1_call0_v8 : Ref sig .tc := ⟨.hbm, 69, rfl⟩
abbrev main_call1_call0_cst_2 : Ref sig .tc := ⟨.hbm, 70, rfl⟩
abbrev main_call1_call0_v9 : Ref sig .tc := ⟨.hbm, 71, rfl⟩
abbrev main_call1_call0_v10 : Ref sig .tc := ⟨.hbm, 72, rfl⟩
abbrev main_call1_call0_v11 : Ref sig .tc := ⟨.hbm, 73, rfl⟩
abbrev main_call1_call0_v12 : Ref sig .tc := ⟨.hbm, 74, rfl⟩
abbrev main_call1_call0_cst_3 : Ref sig .tc := ⟨.hbm, 75, rfl⟩
abbrev main_call1_call0_v13 : Ref sig .tc := ⟨.hbm, 76, rfl⟩
abbrev main_call1_call0_cst_4 : Ref sig .tc := ⟨.hbm, 77, rfl⟩
abbrev main_call1_call0_call0_v0 : Ref sig .tc := ⟨.hbm, 78, rfl⟩
abbrev main_call1_call0_call0_v1 : Ref sig .tc := ⟨.hbm, 79, rfl⟩
abbrev main_call1_v0 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_cst_5 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_cst_6 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩

abbrev nD : Nat := 1
abbrev τ : Topo := Topo.v7x

variable {F : FTy → Type} [FloatOps F]

class Facts₀ : Prop where
  shapeCasts_S4x32768x256_S4x32768x8x32 : S4x32768x256.ShapeCasts S4x32768x8x32
  transposes_S4x32768x8x32_S4x8x32768x32_0_2_1_3 : S4x32768x8x32.Transposes [0, 2, 1, 3] S4x8x32768x32
  reducesTo_S4x8x32768x32_S4x8x32768_d3 : S4x8x32768x32.ReducesTo [3] S4x8x32768
  h_S_ : 0 < S_.numel
  bcast_S4x8x32768_S4x8x32768x1_0_1_2 : S4x8x32768.BroadcastsInDim S4x8x32768x1 (![0, 1, 2] : Fin 3 → Fin S4x8x32768x1.rank)
  bcast_S_S4x8x32768x1 : S_.BroadcastsInDim S4x8x32768x1 (![] : Fin 0 → Fin S4x8x32768x1.rank)
  bcast_S4x8x32768x1_S4x8x32768x32_0_1_2_3 : S4x8x32768x1.BroadcastsInDim S4x8x32768x32 (![0, 1, 2, 3] : Fin 4 → Fin S4x8x32768x32.rank)
  bcast_S8x1x32_S1x8x1x32_1_2_3 : S8x1x32.BroadcastsInDim S1x8x1x32 (![1, 2, 3] : Fin 3 → Fin S1x8x1x32.rank)
  bcast_S1x8x1x32_S4x8x32768x32_0_1_2_3 : S1x8x1x32.BroadcastsInDim S4x8x32768x32 (![0, 1, 2, 3] : Fin 4 → Fin S4x8x32768x32.rank)
  bcast_S_S4x8x32x32 : S_.BroadcastsInDim S4x8x32x32 (![] : Fin 0 → Fin S4x8x32x32.rank)
  transposes_S4x8x32768x32_S4x32768x8x32_0_2_1_3 : S4x8x32768x32.Transposes [0, 2, 1, 3] S4x32768x8x32
  shapeCasts_S4x32768x8x32_S4x32768x256 : S4x32768x8x32.ShapeCasts S4x32768x256
  dot_S4x8x32768x32_S4x8x32768x32_S4x8x32x32_2_2_3_3_01_01_wf : DotDims.WF S4x8x32768x32 S4x8x32768x32 S4x8x32x32 [2] [2] [3] [3] [0, 1] [0, 1]
  dot_S4x8x32768x32_S4x8x32x32_S4x8x32768x32_3_2_2_3_01_01_wf : DotDims.WF S4x8x32768x32 S4x8x32x32 S4x8x32768x32 [3] [2] [2] [3] [0, 1] [0, 1]

variable [Facts₀]

def dot_S4x8x32768x32_S4x8x32768x32_S4x8x32x32_2_2_3_3_01_01 : DotDims S4x8x32768x32 S4x8x32768x32 S4x8x32x32 where
  lhsContracting := [2]
  rhsContracting := [2]
  lhsNonContracting := [3]
  rhsNonContracting := [3]
  lhsBatch := [0, 1]
  rhsBatch := [0, 1]
  wf := dot_S4x8x32768x32_S4x8x32768x32_S4x8x32x32_2_2_3_3_01_01_wf
def dot_S4x8x32768x32_S4x8x32x32_S4x8x32768x32_3_2_2_3_01_01 : DotDims S4x8x32768x32 S4x8x32x32 S4x8x32768x32 where
  lhsContracting := [3]
  rhsContracting := [2]
  lhsNonContracting := [2]
  rhsNonContracting := [3]
  lhsBatch := [0, 1]
  rhsBatch := [0, 1]
  wf := dot_S4x8x32768x32_S4x8x32x32_S4x8x32768x32_3_2_2_3_01_01_wf

class Facts : Prop extends Facts₀ where

variable [Facts]
-- ==== Proof.KB.R0Runs.lean ====
/-
  The first kernel (the key–value kernel) on its 4 × 8 grid (batch b, token block n; point t = 8 b + n): what
  the three runs of its body are stated over. The body branches twice on the token-block coordinate: n = 0 (the
  carried [8, 32, 32] accumulator is zeroed first) and n = 7 (the accumulator, scaled by 2⁻¹⁵, is stored over the
  output block). Both are closed forms in the point, decided over the 32 points; the output window is written back
  exactly at the points n = 7 and is idle elsewhere.
-/
import proofs.«133594_j5471788335757_1_alg».proof.Proof.Gen.Kernel.Launch
import proofs.«133594_j5471788335757_1_alg».proof.Proof.Gen.Kernel.Skeleton
import proofs.«133594_j5471788335757_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions -/

/-- The body's first branch: the token-block coordinate is 0. -/
abbrev cond0_0 (i : grid0.Coords) : Prop := (Scalar.cmpi .ne (Scalar.extui (Scalar.cmpi .eq (BitVec.ofNat 32 (i 1).val) 0#32)) 0#32) = 1#1
/-- It holds at the points t ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The body's second branch: the token-block coordinate is 7. -/
abbrev cond0_1 (i : grid0.Coords) : Prop := k0_cond2 i = 1#1
/-- It holds at the points t ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The five input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the points n = 7 the output window is idle: the body stores nothing into it. -/
theorem idleAt0_5 : ∀ t : Fin cfg0.N, ¬cond0_1 (grid0.coords t) → cfg0.idle 5 (grid0.coords t) = true := by decide +kernel
/-- Off the points n = 7 the output block is not written back. -/
theorem noFlush0_5 : ∀ t : Fin cfg0.N, ¬cond0_1 (grid0.coords t) → (cfg0.win 5).flush t = false := by decide +kernel
/-- At the points n = 7 the output window is live: the body stores the whole block. -/
theorem liveAt0_5 : ∀ t : Fin cfg0.N, cond0_1 (grid0.coords t) → cfg0.idle 5 (grid0.coords t) = false := by decide +kernel

/-! ## The memrefs the body is called on -/

/-- One buffer of the output window, through which its contents are stated. -/
abbrev VO0_5 : View sig .tc .vmem S1x8x32x32 .f32 := (Memref.whole cc0_stg5_0 : Memref sig .tc .vmem S1x8x32x32 .f32).view
/-- Each window's current memref at point t, and its wholeness. -/
abbrev ms0_0 (t : Fin cfg0.N) : Memref sig .tc .vmem S1x4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x32x32 .f32 := win0_5.stage (cfg0.slots t 5)
abbrev hs0_5 (t : Fin cfg0.N) : (ms0_5 t).IsWhole := hstage0_5 ((cfg0.slots t 5).cast nbuf0_5)
/-- The carried accumulator: a whole buffer of the kernel's own. -/
abbrev scM0_0 : Memref sig .tc .vmem S8x32x32 .f32 := Memref.whole cc0_scratch0
/-- The accumulator as a view: what it holds is stated through it. -/
abbrev VS0_0 : View sig .tc .vmem S8x32x32 .f32 := scM0_0.view

/-- The invariant carried between points: the accumulator owned at some contents, the second kernel's six
    buffers each at some contents, and the random-number register. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

end Cert.Kernel.Hand

end
-- ==== Proof.KB.R0RunA.lean ====
/-
  The key–value kernel's body at a point with token block n = 0 (the first block of a batch). The body first
  stores the zero block over the whole carried accumulator — so whatever the accumulator held on entry is
  irrelevant —, then for each head h = 0..7 loads slice h of the accumulator, adds the head's [32, 32] contraction of
  the 4096 rows, and stores the sum back over slice h. Nothing is stored into the output window's buffer: it is
  handed back as it was found. The pieces the accumulator ends with (last store first) are the witness.
-/
import proofs.«133594_j5471788335757_1_alg».proof.Proof.KB.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in the case n = 0: the accumulator's final pieces, with the proof that from the five inputs at their contents, the output buffer at any contents xi5 and the accumulator at anything, the body runs to the continuation holding the inputs and the output buffer as they were and the accumulator with those pieces written. -/
noncomputable def kernelRun0_A (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : cond0_0 i) (hc1 : ¬cond0_1 i)
    (x0 : Vec F S1x4096x256 .f32) (x1 x2 x3 x4 : Vec F S1x256 .f32) :
    { LS0 : List (View.Piece (Elt F) S8x32x32 .f32) //
      ∀ (xi5 : Vec F S1x8x32x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KB.R0RunB.lean ====
/-
  The key–value kernel's body at a point with token block 0 < n < 7 (a middle block). The accumulator arrives
  holding what the point before left; for each head h = 0..7 the body loads slice h, adds the head's [32, 32]
  contraction of the 4096 rows, and stores the sum back over slice h. Nothing is stored into the output window's
  buffer: it is handed back as it was found. The pieces the accumulator ends with are the witness.
-/
import proofs.«133594_j5471788335757_1_alg».proof.Proof.KB.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in the case 0 < n < 7: as in the first case, the accumulator arriving at the contents xs0 the point before left. -/
noncomputable def kernelRun0_B (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : ¬cond0_1 i)
    (x0 : Vec F S1x4096x256 .f32) (x1 x2 x3 x4 : Vec F S1x256 .f32) (xs0 : Vec F S8x32x32 .f32) :
    { LS0 : List (View.Piece (Elt F) S8x32x32 .f32) //
      ∀ (xi5 : Vec F S1x8x32x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KB.R0RunC.lean ====
/-
  The key–value kernel's body at a point with token block n = 7 (the last block of a batch). The accumulator
  arrives holding what the point before left; the eight heads are accumulated as at every point, and then the whole
  accumulator is loaded, scaled by 2⁻¹⁵ and stored over the whole output block. (The body also loads the output
  block before storing; the loaded value is unused, so the buffer may arrive at any contents.) The pieces of the
  output buffer and of the accumulator are the witnesses.
-/
import proofs.«133594_j5471788335757_1_alg».proof.Proof.KB.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's run in the case n = 7: the output buffer's and the accumulator's final pieces, with the proof that from the five inputs at their contents, the output buffer at anything and the accumulator at xs0, the body runs to the continuation holding the inputs as they were and both buffers with their pieces written. -/
noncomputable def kernelRun0_C (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : cond0_1 i)
    (x0 : Vec F S1x4096x256 .f32) (x1 x2 x3 x4 : Vec F S1x256 .f32) (xs0 : Vec F S8x32x32 .f32) :
    Σ' (L5 : List (View.Piece (Elt F) S1x8x32x32 .f32)), { LS0 : List (View.Piece (Elt F) S8x32x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KB.R0Dat.lean ====
/-
  The key–value kernel on its 4 × 8 grid: the proof data of its pipeline at given entry contents V, and what
  each point leaves. Point t = 8 b + n works on token block n of batch b. The [8, 32, 32] accumulator is carried
  from point to point: a point with n = 0 starts it from the zero block, every point adds its 4096 tokens' outer
  products head by head, and a point with n = 7 stores the accumulator scaled by 2⁻¹⁵ over the output block. So the
  accumulator after point t is a function of the blocks at t when n = 0, and of the blocks at t and the accumulator
  after t − 1 otherwise: a recursion on the point. The output window is written only at n = 7 and left as found
  elsewhere. The five inputs are left in place by the body: their buffers hold their blocks at every point.
-/
import proofs.«133594_j5471788335757_1_alg».proof.Proof.KB.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each case leaves -/

/-- The pieces a point with n = 0 leaves in the accumulator cover it: the zero block is stored over all of it. -/
theorem scover0_A_0 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : cond0_0 i) (hc1 : ¬cond0_1 i) (x0 : Vec F S1x4096x256 .f32) (x1 x2 x3 x4 : Vec F S1x256 .f32) (y : S8x32x32.Idx) :
    ∃ pc ∈ (kernelRun0_A c i arg2 harg2 arg3 harg3 arg4 harg4 arg5 harg5 arg6 harg6 arg7 harg7 arg8 harg8 hc0 hc1 x0 x1 x2 x3 x4).1, y ∈ pc.1.set :=
  View.cover_of_tiledL (kernelRun0_A c i arg2 harg2 arg3 harg3 arg4 harg4 arg5 harg5 arg6 harg6 arg7 harg7 arg8 harg8 hc0 hc1 x0 x1 x2 x3 x4).1 S8x32x32.size (by sl_kernel_rfl) y

/-- What a point with n = 0 leaves in the accumulator: its pieces read back. -/
def sout0_A_0 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : cond0_0 i) (hc1 : ¬cond0_1 i) (x0 : Vec F S1x4096x256 .f32) (x1 x2 x3 x4 : Vec F S1x256 .f32) : Vec F S8x32x32 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).1)

/-- The pieces a point with 0 < n < 7 leaves in the accumulator cover it: one [1, 32, 32] store per head. -/
theorem scover0_B_0 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : ¬cond0_1 i) (x0 : Vec F S1x4096x256 .f32) (x1 x2 x3 x4 : Vec F S1x256 .f32) (xs0 : Vec F S8x32x32 .f32) (y : S8x32x32.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S1x32x32.size (by sl_kernel_rfl) y

/-- What a point with 0 < n < 7 leaves in the accumulator. -/
def sout0_B_0 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : ¬cond0_1 i) (x0 : Vec F S1x4096x256 .f32) (x1 x2 x3 x4 : Vec F S1x256 .f32) (xs0 : Vec F S8x32x32 .f32) : Vec F S8x32x32 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).1)

/-- The pieces a point with n = 7 leaves in the output buffer cover the block. -/
theorem cover0_C_5 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : cond0_1 i) (x0 : Vec F S1x4096x256 .f32) (x1 x2 x3 x4 : Vec F S1x256 .f32) (xs0 : Vec F S8x32x32 .f32) (y : S1x8x32x32.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1x8x32x32.size (by sl_kernel_rfl) y

/-- What a point with n = 7 leaves in the output buffer: the scaled accumulator. -/
def out0_C_5 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : cond0_1 i) (x0 : Vec F S1x4096x256 .f32) (x1 x2 x3 x4 : Vec F S1x256 .f32) (xs0 : Vec F S8x32x32 .f32) : Vec F S1x8x32x32 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- The pieces a point with n = 7 leaves in the accumulator cover it. -/
theorem scover0_C_0 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : cond0_1 i) (x0 : Vec F S1x4096x256 .f32) (x1 x2 x3 x4 : Vec F S1x256 .f32) (xs0 : Vec F S8x32x32 .f32) (y : S8x32x32.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S1x32x32.size (by sl_kernel_rfl) y

/-- What a point with n = 7 leaves in the accumulator. -/
def sout0_C_0 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : cond0_1 i) (x0 : Vec F S1x4096x256 .f32) (x1 x2 x3 x4 : Vec F S1x256 .f32) (xs0 : Vec F S8x32x32 .f32) : Vec F S8x32x32 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-! ## Point by point -/

/-- (Output buffer, accumulator) after point n. The accumulator: at n ≡ 0 (mod 8) from the point's blocks alone,
    else from the point's blocks over what point n − 1 left. The output component is the scaled accumulator at
    n ≡ 7 (mod 8); elsewhere the window is idle and the component is a placeholder nothing reads. -/
def outsAt0 (c : Dev nD) : (n : ℕ) → n < cfg0.N → Vec F S1x8x32x32 .f32 × Vec F S8x32x32 .f32
  | 0, hn => ((VO0_5.read (Elt F) (VO0_5.writes (Elt F) VO0_5.junk [])), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => absurd ((hcond0_1 ⟨0, hn⟩).mp h) (by simp)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      ((VO0_5.read (Elt F) (VO0_5.writes (Elt F) VO0_5.junk [])), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => absurd ((hcond0_1 ⟨n + 1, hn⟩).mp h) (by simp only; omega)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else if h1 : (n + 1) % 8 = 7 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
    else
      ((VO0_5.read (Elt F) (VO0_5.writes (Elt F) VO0_5.junk [])), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- At a point with n = 0. -/
theorem outsAt0_A (c : Dev nD) (t : Fin cfg0.N) (h0 : t.val % 8 = 0) :
    outsAt0 V c t.val t.isLt = ((VO0_5.read (Elt F) (VO0_5.writes (Elt F) VO0_5.junk [])), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- At a point with 0 < n < 7: over what the point before left. -/
theorem outsAt0_B (c : Dev nD) (t : Fin cfg0.N) (h0 : ¬t.val % 8 = 0) (h1 : ¬t.val % 8 = 7) :
    outsAt0 V c t.val t.isLt = ((VO0_5.read (Elt F) (VO0_5.writes (Elt F) VO0_5.junk [])), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point with n = 7: over what the point before left. -/
theorem outsAt0_C (c : Dev nD) (t : Fin cfg0.N) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact absurd h1 (by simp)
  | succ n => exact (dif_neg (by simp only at h1; omega)).trans ((dif_pos h1).trans rfl)

/-! ## The invariant -/

/-- The core's scoped buffers this region does not touch (the second kernel's six), each at some contents. -/
def restSc0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's class invariant with the accumulator and the untouched buffers told apart. -/
theorem PhiA0_rest (c : Dev nD) :
    (Pipeline.ΦA spec0 c : sProp 𝕄)
      = iprop(iprop((∃ d, owns (c : Thread nD τ) scM0_0 fullShare d) ∗ restSc0 (F := F) c) ∗ (∃ r, prngReg c r)) :=
  PhiA0_eq c

/-- The invariant before position n: before the first point the class's (the accumulator at anything); afterwards
    the accumulator at what point n − 1 left, the untouched buffers and the generator register at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restSc0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restSc0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restSc0 (F := F) c) ∗ (∃ r, prngReg c r)) := by
  cases n with
  | zero => exact absurd rfl hz
  | succ n => rfl

/-! ## The proof data -/

/-- The pipeline's proof data on core c: the arrays as the region finds them; after the body at point t each
    input's buffer at its block, the output's at the first component of outsAt0; the invariant PhiS; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-! ## The inputs' buffers hold their blocks -/

/-- Input window 0's current buffer holds its block at every point, fetched there or not: the body leaves the block
    in place, and where the window is not fetched its block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1's current buffer holds its block at every point, fetched there or not: the body leaves the block
    in place, and where the window is not fetched its block index has not moved. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2's current buffer holds its block at every point, fetched there or not: the body leaves the block
    in place, and where the window is not fetched its block index has not moved. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3's current buffer holds its block at every point, fetched there or not: the body leaves the block
    in place, and where the window is not fetched its block index has not moved. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- Input window 4's current buffer holds its block at every point, fetched there or not: the body leaves the block
    in place, and where the window is not fetched its block index has not moved. -/
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

end Cert.Kernel.Hand

end
-- ==== Proof.KB.R0Body.lean ====
/-
  The key–value kernel's body obligation at the proof data of its pipeline. At a point the five input buffers hold
  their blocks; which of the three runs applies is read off the point (n = 0, 0 < n < 7, n = 7). The invariant hands
  the body the accumulator — at anything where n = 0 (its first store overwrites it), else at what the point before
  left — and takes it back at this point's contents, which the run's pieces determine because they cover it. The
  output buffer is handed back as found where n < 7 and at the scaled accumulator where n = 7.
-/
import proofs.«133594_j5471788335757_1_alg».proof.Proof.KB.R0Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  by_cases h0 : t.val % 8 = 0
  · -- n = 0: the accumulator arrives at anything
    have hc0 : cond0_0 (grid0.coords t) := (hcond0_0 t).mpr h0
    have hc1 : ¬cond0_1 (grid0.coords t) := fun h => absurd ((hcond0_1 t).mp h) (by omega)
    rw [Dat.leavesExact_idle (dat0 V c) 5 t (idleAt0_5 t hc1) (noFlush0_5 t hc1)]
    rw [outsAt0_A V c t h0]
    unfold sout0_A_0; (try dsimp only)
    by_cases hz : t.val = 0
    · rw [PhiS_castSucc V c t, PhiS_zero V c _ _ hz, PhiA0_rest]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ hc0 hc1 (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ hc0 hc1 (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond0_0 (grid0.coords t) := fun h => h0 ((hcond0_0 t).mp h)
    by_cases h1 : t.val % 8 = 7
    · -- n = 7: the output buffer arrives at anything and leaves at the scaled accumulator
      have hc1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hc1], after0_5]
      rw [outsAt0_C V c t h1]
      unfold out0_C_5 sout0_C_0; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ hc0 hc1 (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · -- 0 < n < 7
      have hc1 : ¬cond0_1 (grid0.coords t) := fun h => h1 ((hcond0_1 t).mp h)
      rw [Dat.leavesExact_idle (dat0 V c) 5 t (idleAt0_5 t hc1) (noFlush0_5 t hc1)]
      rw [outsAt0_B V c t h0 h1]
      unfold sout0_B_0; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ hc0 hc1 (iblk0 V c 0 t) (iblk0 V c 1 t) (iblk0 V c 2 t) (iblk0 V c 3 t) (iblk0 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_rest]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.KB.Pieces.lean ====
/-
  The values the two kernel bodies store, each as ONE function of what the body loaded before the store.

  Region 0, head h: what is stored into slice h of the [8, 32, 32] accumulator, from the x block `v3`, the four
  [1, 256] rows `v5 v7 v9 v11` (k-weight, k-bias, v-weight, v-bias) and the slice `s` as it was loaded;
  the zero block stored at the first token block; the scaled accumulator stored into the output block at the last.
  Region 1: the one block stored, from the x block `v0` and the eight [1, 1, 32, 32] slices of the key–value block.
-/
import proofs.«133594_j5471788335757_1_alg».proof.Proof.Gen.Kernel.Skeleton

noncomputable section

namespace Cert.Kernel.Hand

open Idealize.ShloMosaic Cert.Kernel Cert.Kernel.Gen

variable {F : FTy → Type} [FloatOps F]

/-- Head 0's new accumulator slice. -/
def head0 (v3 : Vec F S1x4096x256 .f32) (v5 v7 v9 v11 : Vec F S1x256 .f32) (s : Vec F S1x32x32 .f32) : FVec F S1x32x32 .f32 :=
  k0_pay13 (k0_pay8 v9) (k0_pay9 v11) (k0_pay10 v3) (k0_pay11 v3 v5) (k0_pay12 v7) s
/-- Head 1's. -/
def head1 (v3 : Vec F S1x4096x256 .f32) (v5 v7 v9 v11 : Vec F S1x256 .f32) (s : Vec F S1x32x32 .f32) : FVec F S1x32x32 .f32 :=
  k0_pay18 (k0_pay14 (k0_pay7 v11)) (k0_pay16 (k0_pay3 v3) (k0_pay4 v5) (k0_pay5 v7)) (k0_pay17 (k0_pay3 v3) (k0_pay6 v9)) s
/-- Head 2's. -/
def head2 (v3 : Vec F S1x4096x256 .f32) (v5 v7 v9 v11 : Vec F S1x256 .f32) (s : Vec F S1x32x32 .f32) : FVec F S1x32x32 .f32 :=
  k0_pay22 (k0_pay20 (k0_pay3 v3) (k0_pay4 v5) (k0_pay5 v7)) (k0_pay21 (k0_pay3 v3) (k0_pay6 v9) (k0_pay7 v11)) (constant S32x32 .f32 0x00000000#32) s
/-- Head 3's. -/
def head3 (v3 : Vec F S1x4096x256 .f32) (v5 v7 v9 v11 : Vec F S1x256 .f32) (s : Vec F S1x32x32 .f32) : FVec F S1x32x32 .f32 :=
  k0_pay24 (k0_pay23 (k0_pay3 v3) (k0_pay4 v5) (k0_pay5 v7) (k0_pay6 v9) (k0_pay7 v11)) s
/-- Head 4's. -/
def head4 (v3 : Vec F S1x4096x256 .f32) (v5 v7 v9 v11 : Vec F S1x256 .f32) (s : Vec F S1x32x32 .f32) : FVec F S1x32x32 .f32 :=
  k0_pay26 (k0_pay25 (k0_pay3 v3) (k0_pay4 v5) (k0_pay5 v7) (k0_pay6 v9) (k0_pay7 v11) s)
/-- Head 5's. -/
def head5 (v3 : Vec F S1x4096x256 .f32) (v5 v7 v9 v11 : Vec F S1x256 .f32) (s : Vec F S1x32x32 .f32) : FVec F S1x32x32 .f32 :=
  k0_pay27 (k0_pay3 v3) (k0_pay4 v5) (k0_pay5 v7) (k0_pay6 v9) (k0_pay7 v11) s
/-- Head 6's. -/
def head6 (v3 : Vec F S1x4096x256 .f32) (v5 v7 v9 v11 : Vec F S1x256 .f32) (s : Vec F S1x32x32 .f32) : FVec F S1x32x32 .f32 :=
  k0_pay29 (k0_pay4 v5) (k0_pay5 v7) (k0_pay6 v9) (k0_pay7 v11) (k0_pay28 (k0_pay3 v3)) s
/-- Head 7's. -/
def head7 (v3 : Vec F S1x4096x256 .f32) (v5 v7 v9 v11 : Vec F S1x256 .f32) (s : Vec F S1x32x32 .f32) : FVec F S1x32x32 .f32 :=
  k0_pay35 (k0_pay30 (k0_pay3 v3)) (k0_pay31 (k0_pay4 v5)) (k0_pay32 (k0_pay5 v7)) (k0_pay33 (k0_pay6 v9)) (k0_pay34 (k0_pay7 v11)) s

/-- The zero accumulator stored at a batch's first token block. -/
def resetPay : FVec F S8x32x32 .f32 := k0_pay2 (F := F)
/-- The output block stored at a batch's last token block, from the whole accumulator. -/
def finalPay (sc : Vec F S8x32x32 .f32) : FVec F S1x8x32x32 .f32 := k0_pay1 sc

/-- Region 1's one stored block, from the x block and the eight slices of the key–value block. -/
def outPay (v0 : Vec F S1x4096x256 .f32) (k0 k1 k2 k3 k4 k5 k6 k7 : Vec F S1x1x32x32 .f32) : FVec F S1x4096x256 .f32 :=
  k1_pay1 (k1_pay2 v0) (k1_pay3 v0 k0) (k1_pay4 v0 k1) (k1_pay5 v0 k2) (k1_pay6 v0 k3) (k1_pay7 v0) k4 k5 k6 k7

end Cert.Kernel.Hand

end
-- ==== Proof.KB.R1.lean ====
/-
  The second kernel (the output kernel) at a point of its 4 × 8 grid, at ANY contents V of the buffers when it
  is entered. Its three windows are the x block [1, 4096, 256], the key–value block [1, 8, 32, 32] and the output
  block [1, 4096, 256]. The body reads the x block whole and the eight [1, 1, 32, 32] head slices of the key–value
  block, and writes the output block ONCE and whole: per head h the 32 channels x_h + x_h · kv_h, the eight results
  side by side. So after the body the two input windows hold their blocks unchanged and the output window holds
  that one stored block, a function of the two input blocks only.
-/
import proofs.«133594_j5471788335757_1_alg».proof.Proof.Gen.Kernel.Launch
import proofs.«133594_j5471788335757_1_alg».proof.Proof.Gen.Kernel.Skeleton
import proofs.«133594_j5471788335757_1_alg».proof.Proof.Gen.Kernel.Points
import proofs.«133594_j5471788335757_1_alg».proof.Proof.KB.Pieces
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the kernel is entered
variable (V : (c : Dev nD) → (b : Ref sig .tc) → Buf (Elt F) ((c : Thread nD τ).loc b))

/-! ## The windows' blocks -/

/-- Window w's block at grid point t, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's buffer holds the x block of the point at every point (it is brought in at every point; the
    body leaves it as it was). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key–value window's buffer holds the key–value block of the point's batch at every point: it is brought in
    only when the batch changes (every eighth point), and in between its block index does not move and the body
    leaves it as it was. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [1, 4096, 256] block: what is read of x and what is written of the output. -/
abbrev rWhole : Rect S1x4096x256 := Rect.unit (s := S1x4096x256) ![0, 0, 0] S1x4096x256.size inb_S1x4096x256_S1x4096x256_0_0_0
/-- Head h's [1, 1, 32, 32] slice of the key–value block. -/
abbrev r_h0 : Rect S1x8x32x32 := Rect.unit (s := S1x8x32x32) ![0, 0, 0, 0] S1x1x32x32.size inb_S1x8x32x32_S1x1x32x32_0_0_0_0
abbrev r_h1 : Rect S1x8x32x32 := Rect.unit (s := S1x8x32x32) ![0, 1, 0, 0] S1x1x32x32.size inb_S1x8x32x32_S1x1x32x32_0_1_0_0
abbrev r_h2 : Rect S1x8x32x32 := Rect.unit (s := S1x8x32x32) ![0, 2, 0, 0] S1x1x32x32.size inb_S1x8x32x32_S1x1x32x32_0_2_0_0
abbrev r_h3 : Rect S1x8x32x32 := Rect.unit (s := S1x8x32x32) ![0, 3, 0, 0] S1x1x32x32.size inb_S1x8x32x32_S1x1x32x32_0_3_0_0
abbrev r_h4 : Rect S1x8x32x32 := Rect.unit (s := S1x8x32x32) ![0, 4, 0, 0] S1x1x32x32.size inb_S1x8x32x32_S1x1x32x32_0_4_0_0
abbrev r_h5 : Rect S1x8x32x32 := Rect.unit (s := S1x8x32x32) ![0, 5, 0, 0] S1x1x32x32.size inb_S1x8x32x32_S1x1x32x32_0_5_0_0
abbrev r_h6 : Rect S1x8x32x32 := Rect.unit (s := S1x8x32x32) ![0, 6, 0, 0] S1x1x32x32.size inb_S1x8x32x32_S1x1x32x32_0_6_0_0
abbrev r_h7 : Rect S1x8x32x32 := Rect.unit (s := S1x8x32x32) ![0, 7, 0, 0] S1x1x32x32.size inb_S1x8x32x32_S1x1x32x32_0_7_0_0

/-! ## What the body leaves in the output window -/

/-- The output window's buffer after the body, from the two input blocks: the one whole-block store, whose value is
    the stored block of the x block and the eight head slices of the key–value block. -/
def out1_2 (x0 : Vec F S1x4096x256 .f32) (x1 : Vec F S1x8x32x32 .f32) : Vec F S1x4096x256 .f32 :=
  View.canon [⟨rWhole, outPay (View.ld x0 rWhole) (View.ld x1 r_h0) (View.ld x1 r_h1) (View.ld x1 r_h2) (View.ld x1 r_h3)
    (View.ld x1 r_h4) (View.ld x1 r_h5) (View.ld x1 r_h6) (View.ld x1 r_h7)⟩]

/-- The one store covers the buffer: its rectangle is the whole block. -/
theorem cover1_2 (p0 : Vec F S1x4096x256 .f32) (y : S1x4096x256.Idx) :
    ∃ pc ∈ ([⟨rWhole, p0⟩] : List (View.Piece (Elt F) S1x4096x256 .f32)), y ∈ pc.1.set :=
  ⟨_, List.mem_singleton_self _, View.mem_set_unit_zero (by funext a; fin_cases a <;> rfl) inb_S1x4096x256_S1x4096x256_0_0_0 y⟩

/-! ## The body's triple -/

set_option maxHeartbeats 4000000 in
/-- The body on whole buffers, the two inputs' at read contents x0, x1 and the output's at anything, runs to the
    continuation with the inputs' as they were and the output's at out1_2 x0 x1. -/
theorem sound_kernel1 (c : Dev nD) (E : Set ℕ) (i : grid1.Coords) (arg2 : Memref sig .tc .vmem S1x4096x256 .f32) (harg2 : arg2.IsWhole)
    (arg3 : Memref sig .tc .vmem S1x8x32x32 .f32) (harg3 : arg3.IsWhole) (arg4 : Memref sig .tc .vmem S1x4096x256 .f32) (harg4 : arg4.IsWhole)
    (x0 : Vec F S1x4096x256 .f32) (x1 : Vec F S1x8x32x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  simp only [k1_part1_eq_skeleton]; unfold k1_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-! ## The proof data -/

/-- The proof data on core c: the arrays as the kernel finds them; after the body at point t each input's buffer at
    its block and the output's at out1_2 of the two input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
/-
  The run of @main as a whole. @main is: four reshapes of the weight and bias arrays into [1, 256] rows; the
  key–value kernel over the grid (4, 8); the output kernel over the same grid — nothing between the two kernels.

  Four boundaries, hence four valuations of a core's unscoped buffers: `W0` (launch), `W1` (after the reshapes),
  `W2` (after the key–value kernel: its windows' arrays at what the write-backs leave, all else as before),
  `W3` (after the output kernel, likewise). The two kernels' proof data are taken at their entry contents, `W1` and
  `W2`. The first kernel's invariant is not constant along the grid (the accumulator carried from point to point
  lives in it): it is reached from the class invariant at the first point and gives it back at the last, and these
  two entailments are composed into the region's entry and exit. The run then gives, for every final state, each
  unscoped buffer's contents by name (`run_all`), and from it the five argument arrays unchanged (`frame`).
-/
import proofs.«133594_j5471788335757_1_alg».proof.Proof.KB.R0Body
import proofs.«133594_j5471788335757_1_alg».proof.Proof.KB.R1
import proofs.«133594_j5471788335757_1_alg».proof.Proof.Gen.Kernel.Regions
import Idealize.ShloMosaic.Lib.Pipeline.RegionsLoop
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of @main: four host reshapes, then the two kernel regions

## What each core's unscoped buffers hold at the four boundaries -/

variable (m : (ℓ : Loc nD τ sig) → Buf (Elt F) ℓ)

/-- Core `c`'s buffers at launch. -/
abbrev W0 : Dev nD → Valuation τ sig (Elt F) := fun c b => m (c, b)
/-- After the four reshapes (the first region's entry): the weight and bias rows now sit in `main_v0 … main_v3`. -/
abbrev W1 : Dev nD → Valuation τ sig (Elt F) := fun c => StableHlo.after hostOps0 (W0 m c)
/-- The same, read at the core's own references: what the first region's proof data are stated at. -/
abbrev V1 : (c : Dev nD) → (b : Ref sig .tc) → Buf (Elt F) ((c : Thread nD τ).loc b) := fun c b => W1 m c b
/-- At the first region's exit: each of its six windows' arrays at what its write-backs leave (an input as it was
    entered, the key–value array with every batch's block written), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The first region's exit contents read at the core's own references: the second region's entry (no host
    operation stands between the two regions). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: each of its three windows' arrays at what its write-backs leave, every other
    buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The last boundary read at the core's own references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The five arguments end as launched

`main_arg0` is an input window's array of both regions, so each region's fold leaves it as entered; the other four
are no window's array of either region. The reshapes write `main_v0 … main_v3` only. -/

/-- No reshape writes a buffer other than `main_v0 … main_v3`. -/
theorem W1_of (c : Dev nD) (r : Ref sig .tc) (h : r ∉ hostOps0_W) : W1 m c (Proc.devRef .tc r) = m ((c : Thread nD τ).loc r) :=
  V1_of m c r h

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)
theorem W3_main_arg1 (c : Dev nD) : W3 m c (Proc.devRef .tc main_arg1) = m ((c : Thread nD τ).loc main_arg1) :=
  (W3_of_ne m c main_arg1 (by decide)).trans <| (W2_of_ne m c main_arg1 (by decide)).trans <| W1_of m c main_arg1 (by decide)
theorem W3_main_arg2 (c : Dev nD) : W3 m c (Proc.devRef .tc main_arg2) = m ((c : Thread nD τ).loc main_arg2) :=
  (W3_of_ne m c main_arg2 (by decide)).trans <| (W2_of_ne m c main_arg2 (by decide)).trans <| W1_of m c main_arg2 (by decide)
theorem W3_main_arg3 (c : Dev nD) : W3 m c (Proc.devRef .tc main_arg3) = m ((c : Thread nD τ).loc main_arg3) :=
  (W3_of_ne m c main_arg3 (by decide)).trans <| (W2_of_ne m c main_arg3 (by decide)).trans <| W1_of m c main_arg3 (by decide)
theorem W3_main_arg4 (c : Dev nD) : W3 m c (Proc.devRef .tc main_arg4) = m ((c : Thread nD τ).loc main_arg4) :=
  (W3_of_ne m c main_arg4 (by decide)).trans <| (W2_of_ne m c main_arg4 (by decide)).trans <| W1_of m c main_arg4 (by decide)

/-! ## The proof data of both pipelines and the thread state -/

/-- Both pipelines' proof data, each at its region's entry contents: a literal match, so that the pinned configuration
    at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the core
    owes, which is nothing. -/
abbrev R (c : Dev nD) : sProp 𝕄 := iprop((∃ r, prngReg c r) ∗ ∃ W, owes (c : Thread nD τ) (0 : CellTallies nD τ sig Unit) W)
/-- A line of host operations as a segment over every unscoped buffer, from the contents `W`; it leaves them at
    `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W3 m c) ∗ ∃ r, prngReg c r)

/-! ## The two regions as segments -/

set_option backward.isDefEq.respectTransparency.types false in
/-- The first region over the thread state: entered from every unscoped buffer at `W1`, left at `W2`. Its six arrays
    are split out of the unscoped buffers and put back at their exit contents; the generator register enters the class
    invariant, from which the body's own invariant at the first point follows, and at the last point the body's
    invariant gives the class invariant back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2` (what the first region left),
    left at `W3`. Its invariant is the class invariant at every point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (A_eq1 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the reshapes from the launch contents, then the two regions back to back. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of the segments. -/
theorem main_run (c : Dev nD) : main (F := F) c = Pipeline.Seg.run (segs m) := (main_chain c).trans (by chain_rfl)

set_option backward.isDefEq.respectTransparency.types false in
/-- THE RUN. From any memory with zero counters, every weakly fair execution of @main on the cores terminates,
    nothing faulting, and in every final state each core's unscoped buffers hold the last boundary's contents `W3`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: every argument array ends holding what it was launched with. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  OrdCont.mono (θ_run defs (onTc (τ := τ) (main (F := F))) ⟨m, fun _ => 0, ρ⟩) (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.Kernel.Hand

end
-- ==== Proof.K.R0Runs.lean ====
/-
  The first kernel (the key–value kernel) on its 4 × 8 grid (batch b, token block n; point t = 8 b + n): what
  the three runs of its body are stated over. The body branches twice on the token-block coordinate: n = 0 (the
  carried [8, 32, 32] accumulator is zeroed first) and n = 7 (the accumulator, scaled by 2⁻¹⁵, is stored over the
  output block). Both are closed forms in the point, decided over the 32 points; the output window is written back
  exactly at the points n = 7 and is idle elsewhere.
-/
import proofs.«133594_j5471788335757_1_alg».proof.Proof.Gen.KernelIdeal.Launch
import proofs.«133594_j5471788335757_1_alg».proof.Proof.Gen.KernelIdeal.Skeleton
import proofs.«133594_j5471788335757_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions -/

/-- The body's first branch: the token-block coordinate is 0. -/
abbrev cond0_0 (i : grid0.Coords) : Prop := (Scalar.cmpi .ne (Scalar.extui (Scalar.cmpi .eq (BitVec.ofNat 32 (i 1).val) 0#32)) 0#32) = 1#1
/-- It holds at the points t ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The body's second branch: the token-block coordinate is 7. -/
abbrev cond0_1 (i : grid0.Coords) : Prop := k0_cond2 i = 1#1
/-- It holds at the points t ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The five input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the points n = 7 the output window is idle: the body stores nothing into it. -/
theorem idleAt0_5 : ∀ t : Fin cfg0.N, ¬cond0_1 (grid0.coords t) → cfg0.idle 5 (grid0.coords t) = true := by decide +kernel
/-- Off the points n = 7 the output block is not written back. -/
theorem noFlush0_5 : ∀ t : Fin cfg0.N, ¬cond0_1 (grid0.coords t) → (cfg0.win 5).flush t = false := by decide +kernel
/-- At the points n = 7 the output window is live: the body stores the whole block. -/
theorem liveAt0_5 : ∀ t : Fin cfg0.N, cond0_1 (grid0.coords t) → cfg0.idle 5 (grid0.coords t) = false := by decide +kernel

/-! ## The memrefs the body is called on -/

/-- One buffer of the output window, through which its contents are stated. -/
abbrev VO0_5 : View sig .tc .vmem S1x8x32x32 .f32 := (Memref.whole cc0_stg5_0 : Memref sig .tc .vmem S1x8x32x32 .f32).view
/-- Each window's current memref at point t, and its wholeness. -/
abbrev ms0_0 (t : Fin cfg0.N) : Memref sig .tc .vmem S1x4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x32x32 .f32 := win0_5.stage (cfg0.slots t 5)
abbrev hs0_5 (t : Fin cfg0.N) : (ms0_5 t).IsWhole := hstage0_5 ((cfg0.slots t 5).cast nbuf0_5)
/-- The carried accumulator: a whole buffer of the kernel's own. -/
abbrev scM0_0 : Memref sig .tc .vmem S8x32x32 .f32 := Memref.whole cc0_scratch0
/-- The accumulator as a view: what it holds is stated through it. -/
abbrev VS0_0 : View sig .tc .vmem S8x32x32 .f32 := scM0_0.view

/-- The invariant carried between points: the accumulator owned at some contents, the second kernel's six
    buffers each at some contents, and the random-number register. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

end Cert.KernelIdeal.Hand

end
-- ==== Proof.K.R0RunA.lean ====
/-
  The key–value kernel's body at a point with token block n = 0 (the first block of a batch). The body first
  stores the zero block over the whole carried accumulator — so whatever the accumulator held on entry is
  irrelevant —, then for each head h = 0..7 loads slice h of the accumulator, adds the head's [32, 32] contraction of
  the 4096 rows, and stores the sum back over slice h. Nothing is stored into the output window's buffer: it is
  handed back as it was found. The pieces the accumulator ends with (last store first) are the witness.
-/
import proofs.«133594_j5471788335757_1_alg».proof.Proof.K.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in the case n = 0: the accumulator's final pieces, with the proof that from the five inputs at their contents, the output buffer at any contents xi5 and the accumulator at anything, the body runs to the continuation holding the inputs and the output buffer as they were and the accumulator with those pieces written. -/
noncomputable def kernelRun0_A (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : cond0_0 i) (hc1 : ¬cond0_1 i)
    (x0 : Vec F S1x4096x256 .f32) (x1 x2 x3 x4 : Vec F S1x256 .f32) :
    { LS0 : List (View.Piece (Elt F) S8x32x32 .f32) //
      ∀ (xi5 : Vec F S1x8x32x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.K.R0RunB.lean ====
/-
  The key–value kernel's body at a point with token block 0 < n < 7 (a middle block). The accumulator arrives
  holding what the point before left; for each head h = 0..7 the body loads slice h, adds the head's [32, 32]
  contraction of the 4096 rows, and stores the sum back over slice h. Nothing is stored into the output window's
  buffer: it is handed back as it was found. The pieces the accumulator ends with are the witness.
-/
import proofs.«133594_j5471788335757_1_alg».proof.Proof.K.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in the case 0 < n < 7: as in the first case, the accumulator arriving at the contents xs0 the point before left. -/
noncomputable def kernelRun0_B (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : ¬cond0_1 i)
    (x0 : Vec F S1x4096x256 .f32) (x1 x2 x3 x4 : Vec F S1x256 .f32) (xs0 : Vec F S8x32x32 .f32) :
    { LS0 : List (View.Piece (Elt F) S8x32x32 .f32) //
      ∀ (xi5 : Vec F S1x8x32x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.K.R0RunC.lean ====
/-
  The key–value kernel's body at a point with token block n = 7 (the last block of a batch). The accumulator
  arrives holding what the point before left; the eight heads are accumulated as at every point, and then the whole
  accumulator is loaded, scaled by 2⁻¹⁵ and stored over the whole output block. (The body also loads the output
  block before storing; the loaded value is unused, so the buffer may arrive at any contents.) The pieces of the
  output buffer and of the accumulator are the witnesses.
-/
import proofs.«133594_j5471788335757_1_alg».proof.Proof.K.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run in the case n = 7: the output buffer's and the accumulator's final pieces, with the proof that from the five inputs at their contents, the output buffer at anything and the accumulator at xs0, the body runs to the continuation holding the inputs as they were and both buffers with their pieces written. -/
noncomputable def kernelRun0_C (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : cond0_1 i)
    (x0 : Vec F S1x4096x256 .f32) (x1 x2 x3 x4 : Vec F S1x256 .f32) (xs0 : Vec F S8x32x32 .f32) :
    Σ' (L5 : List (View.Piece (Elt F) S1x8x32x32 .f32)), { LS0 : List (View.Piece (Elt F) S8x32x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.K.R0Dat.lean ====
/-
  The key–value kernel on its 4 × 8 grid: the proof data of its pipeline at given entry contents V, and what
  each point leaves. Point t = 8 b + n works on token block n of batch b. The [8, 32, 32] accumulator is carried
  from point to point: a point with n = 0 starts it from the zero block, every point adds its 4096 tokens' outer
  products head by head, and a point with n = 7 stores the accumulator scaled by 2⁻¹⁵ over the output block. So the
  accumulator after point t is a function of the blocks at t when n = 0, and of the blocks at t and the accumulator
  after t − 1 otherwise: a recursion on the point. The output window is written only at n = 7 and left as found
  elsewhere. The five inputs are left in place by the body: their buffers hold their blocks at every point.
-/
import proofs.«133594_j5471788335757_1_alg».proof.Proof.K.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What each case leaves -/

/-- The pieces a point with n = 0 leaves in the accumulator cover it: the zero block is stored over all of it. -/
theorem scover0_A_0 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : cond0_0 i) (hc1 : ¬cond0_1 i) (x0 : Vec F S1x4096x256 .f32) (x1 x2 x3 x4 : Vec F S1x256 .f32) (y : S8x32x32.Idx) :
    ∃ pc ∈ (kernelRun0_A c i arg2 harg2 arg3 harg3 arg4 harg4 arg5 harg5 arg6 harg6 arg7 harg7 arg8 harg8 hc0 hc1 x0 x1 x2 x3 x4).1, y ∈ pc.1.set :=
  View.cover_of_tiledL (kernelRun0_A c i arg2 harg2 arg3 harg3 arg4 harg4 arg5 harg5 arg6 harg6 arg7 harg7 arg8 harg8 hc0 hc1 x0 x1 x2 x3 x4).1 S8x32x32.size (by sl_kernel_rfl) y

/-- What a point with n = 0 leaves in the accumulator: its pieces read back. -/
def sout0_A_0 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : cond0_0 i) (hc1 : ¬cond0_1 i) (x0 : Vec F S1x4096x256 .f32) (x1 x2 x3 x4 : Vec F S1x256 .f32) : Vec F S8x32x32 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).1)

/-- The pieces a point with 0 < n < 7 leaves in the accumulator cover it: one [1, 32, 32] store per head. -/
theorem scover0_B_0 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : ¬cond0_1 i) (x0 : Vec F S1x4096x256 .f32) (x1 x2 x3 x4 : Vec F S1x256 .f32) (xs0 : Vec F S8x32x32 .f32) (y : S8x32x32.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S1x32x32.size (by sl_kernel_rfl) y

/-- What a point with 0 < n < 7 leaves in the accumulator. -/
def sout0_B_0 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : ¬cond0_1 i) (x0 : Vec F S1x4096x256 .f32) (x1 x2 x3 x4 : Vec F S1x256 .f32) (xs0 : Vec F S8x32x32 .f32) : Vec F S8x32x32 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).1)

/-- The pieces a point with n = 7 leaves in the output buffer cover the block. -/
theorem cover0_C_5 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : cond0_1 i) (x0 : Vec F S1x4096x256 .f32) (x1 x2 x3 x4 : Vec F S1x256 .f32) (xs0 : Vec F S8x32x32 .f32) (y : S1x8x32x32.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1x8x32x32.size (by sl_kernel_rfl) y

/-- What a point with n = 7 leaves in the output buffer: the scaled accumulator. -/
def out0_C_5 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : cond0_1 i) (x0 : Vec F S1x4096x256 .f32) (x1 x2 x3 x4 : Vec F S1x256 .f32) (xs0 : Vec F S8x32x32 .f32) : Vec F S1x8x32x32 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- The pieces a point with n = 7 leaves in the accumulator cover it. -/
theorem scover0_C_0 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : cond0_1 i) (x0 : Vec F S1x4096x256 .f32) (x1 x2 x3 x4 : Vec F S1x256 .f32) (xs0 : Vec F S8x32x32 .f32) (y : S8x32x32.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S1x32x32.size (by sl_kernel_rfl) y

/-- What a point with n = 7 leaves in the accumulator. -/
def sout0_C_0 (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : cond0_1 i) (x0 : Vec F S1x4096x256 .f32) (x1 x2 x3 x4 : Vec F S1x256 .f32) (xs0 : Vec F S8x32x32 .f32) : Vec F S8x32x32 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-! ## Point by point -/

/-- (Output buffer, accumulator) after point n. The accumulator: at n ≡ 0 (mod 8) from the point's blocks alone,
    else from the point's blocks over what point n − 1 left. The output component is the scaled accumulator at
    n ≡ 7 (mod 8); elsewhere the window is idle and the component is a placeholder nothing reads. -/
def outsAt0 (c : Dev nD) : (n : ℕ) → n < cfg0.N → Vec F S1x8x32x32 .f32 × Vec F S8x32x32 .f32
  | 0, hn => ((VO0_5.read (Elt F) (VO0_5.writes (Elt F) VO0_5.junk [])), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => absurd ((hcond0_1 ⟨0, hn⟩).mp h) (by simp)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      ((VO0_5.read (Elt F) (VO0_5.writes (Elt F) VO0_5.junk [])), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => absurd ((hcond0_1 ⟨n + 1, hn⟩).mp h) (by simp only; omega)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else if h1 : (n + 1) % 8 = 7 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
    else
      ((VO0_5.read (Elt F) (VO0_5.writes (Elt F) VO0_5.junk [])), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- At a point with n = 0. -/
theorem outsAt0_A (c : Dev nD) (t : Fin cfg0.N) (h0 : t.val % 8 = 0) :
    outsAt0 V c t.val t.isLt = ((VO0_5.read (Elt F) (VO0_5.writes (Elt F) VO0_5.junk [])), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => absurd ((hcond0_1 t).mp h) (by omega)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- At a point with 0 < n < 7: over what the point before left. -/
theorem outsAt0_B (c : Dev nD) (t : Fin cfg0.N) (h0 : ¬t.val % 8 = 0) (h1 : ¬t.val % 8 = 7) :
    outsAt0 V c t.val t.isLt = ((VO0_5.read (Elt F) (VO0_5.writes (Elt F) VO0_5.junk [])), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point with n = 7: over what the point before left. -/
theorem outsAt0_C (c : Dev nD) (t : Fin cfg0.N) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => absurd ((hcond0_0 t).mp h) (by omega)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact absurd h1 (by simp)
  | succ n => exact (dif_neg (by simp only at h1; omega)).trans ((dif_pos h1).trans rfl)

/-! ## The invariant -/

/-- The core's scoped buffers this region does not touch (the second kernel's six), each at some contents. -/
def restSc0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's class invariant with the accumulator and the untouched buffers told apart. -/
theorem PhiA0_rest (c : Dev nD) :
    (Pipeline.ΦA spec0 c : sProp 𝕄)
      = iprop(iprop((∃ d, owns (c : Thread nD τ) scM0_0 fullShare d) ∗ restSc0 (F := F) c) ∗ (∃ r, prngReg c r)) :=
  PhiA0_eq c

/-- The invariant before position n: before the first point the class's (the accumulator at anything); afterwards
    the accumulator at what point n − 1 left, the untouched buffers and the generator register at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restSc0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restSc0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restSc0 (F := F) c) ∗ (∃ r, prngReg c r)) := by
  cases n with
  | zero => exact absurd rfl hz
  | succ n => rfl

/-! ## The proof data -/

/-- The pipeline's proof data on core c: the arrays as the region finds them; after the body at point t each
    input's buffer at its block, the output's at the first component of outsAt0; the invariant PhiS; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-! ## The inputs' buffers hold their blocks -/

/-- Input window 0's current buffer holds its block at every point, fetched there or not: the body leaves the block
    in place, and where the window is not fetched its block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1's current buffer holds its block at every point, fetched there or not: the body leaves the block
    in place, and where the window is not fetched its block index has not moved. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2's current buffer holds its block at every point, fetched there or not: the body leaves the block
    in place, and where the window is not fetched its block index has not moved. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3's current buffer holds its block at every point, fetched there or not: the body leaves the block
    in place, and where the window is not fetched its block index has not moved. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- Input window 4's current buffer holds its block at every point, fetched there or not: the body leaves the block
    in place, and where the window is not fetched its block index has not moved. -/
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

end Cert.KernelIdeal.Hand

end
-- ==== Proof.K.R0Body.lean ====
/-
  The key–value kernel's body obligation at the proof data of its pipeline. At a point the five input buffers hold
  their blocks; which of the three runs applies is read off the point (n = 0, 0 < n < 7, n = 7). The invariant hands
  the body the accumulator — at anything where n = 0 (its first store overwrites it), else at what the point before
  left — and takes it back at this point's contents, which the run's pieces determine because they cover it. The
  output buffer is handed back as found where n < 7 and at the scaled accumulator where n = 7.
-/
import proofs.«133594_j5471788335757_1_alg».proof.Proof.K.R0Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  by_cases h0 : t.val % 8 = 0
  · -- n = 0: the accumulator arrives at anything
    have hc0 : cond0_0 (grid0.coords t) := (hcond0_0 t).mpr h0
    have hc1 : ¬cond0_1 (grid0.coords t) := fun h => absurd ((hcond0_1 t).mp h) (by omega)
    rw [Dat.leavesExact_idle (dat0 V c) 5 t (idleAt0_5 t hc1) (noFlush0_5 t hc1)]
    rw [outsAt0_A V c t h0]
    unfold sout0_A_0; (try dsimp only)
    by_cases hz : t.val = 0
    · rw [PhiS_castSucc V c t, PhiS_zero V c _ _ hz, PhiA0_rest]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ hc0 hc1 (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ hc0 hc1 (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond0_0 (grid0.coords t) := fun h => h0 ((hcond0_0 t).mp h)
    by_cases h1 : t.val % 8 = 7
    · -- n = 7: the output buffer arrives at anything and leaves at the scaled accumulator
      have hc1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hc1], after0_5]
      rw [outsAt0_C V c t h1]
      unfold out0_C_5 sout0_C_0; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ hc0 hc1 (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · -- 0 < n < 7
      have hc1 : ¬cond0_1 (grid0.coords t) := fun h => h1 ((hcond0_1 t).mp h)
      rw [Dat.leavesExact_idle (dat0 V c) 5 t (idleAt0_5 t hc1) (noFlush0_5 t hc1)]
      rw [outsAt0_B V c t h0 h1]
      unfold sout0_B_0; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ hc0 hc1 (iblk0 V c 0 t) (iblk0 V c 1 t) (iblk0 V c 2 t) (iblk0 V c 3 t) (iblk0 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_rest]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.K.Pieces.lean ====
/-
  The values the two kernel bodies store, each as ONE function of what the body loaded before the store.

  Region 0, head h: what is stored into slice h of the [8, 32, 32] accumulator, from the x block `v3`, the four
  [1, 256] rows `v5 v7 v9 v11` (k-weight, k-bias, v-weight, v-bias) and the slice `s` as it was loaded;
  the zero block stored at the first token block; the scaled accumulator stored into the output block at the last.
  Region 1: the one block stored, from the x block `v0` and the eight [1, 1, 32, 32] slices of the key–value block.
-/
import proofs.«133594_j5471788335757_1_alg».proof.Proof.Gen.KernelIdeal.Skeleton

noncomputable section

namespace Cert.KernelIdeal.Hand

open Idealize.ShloMosaic Cert.KernelIdeal Cert.KernelIdeal.Gen

variable {F : FTy → Type} [FloatOps F]

/-- Head 0's new accumulator slice. -/
def head0 (v3 : Vec F S1x4096x256 .f32) (v5 v7 v9 v11 : Vec F S1x256 .f32) (s : Vec F S1x32x32 .f32) : FVec F S1x32x32 .f32 :=
  k0_pay13 (k0_pay8 v9) (k0_pay9 v11) (k0_pay10 v3) (k0_pay11 v3 v5) (k0_pay12 v7) s
/-- Head 1's. -/
def head1 (v3 : Vec F S1x4096x256 .f32) (v5 v7 v9 v11 : Vec F S1x256 .f32) (s : Vec F S1x32x32 .f32) : FVec F S1x32x32 .f32 :=
  k0_pay18 (k0_pay14 (k0_pay7 v11)) (k0_pay16 (k0_pay3 v3) (k0_pay4 v5) (k0_pay5 v7)) (k0_pay17 (k0_pay3 v3) (k0_pay6 v9)) s
/-- Head 2's. -/
def head2 (v3 : Vec F S1x4096x256 .f32) (v5 v7 v9 v11 : Vec F S1x256 .f32) (s : Vec F S1x32x32 .f32) : FVec F S1x32x32 .f32 :=
  k0_pay22 (k0_pay20 (k0_pay3 v3) (k0_pay4 v5) (k0_pay5 v7)) (k0_pay21 (k0_pay3 v3) (k0_pay6 v9) (k0_pay7 v11)) (constant S32x32 .f32 0x00000000#32) s
/-- Head 3's. -/
def head3 (v3 : Vec F S1x4096x256 .f32) (v5 v7 v9 v11 : Vec F S1x256 .f32) (s : Vec F S1x32x32 .f32) : FVec F S1x32x32 .f32 :=
  k0_pay24 (k0_pay23 (k0_pay3 v3) (k0_pay4 v5) (k0_pay5 v7) (k0_pay6 v9) (k0_pay7 v11)) s
/-- Head 4's. -/
def head4 (v3 : Vec F S1x4096x256 .f32) (v5 v7 v9 v11 : Vec F S1x256 .f32) (s : Vec F S1x32x32 .f32) : FVec F S1x32x32 .f32 :=
  k0_pay26 (k0_pay25 (k0_pay3 v3) (k0_pay4 v5) (k0_pay5 v7) (k0_pay6 v9) (k0_pay7 v11) s)
/-- Head 5's. -/
def head5 (v3 : Vec F S1x4096x256 .f32) (v5 v7 v9 v11 : Vec F S1x256 .f32) (s : Vec F S1x32x32 .f32) : FVec F S1x32x32 .f32 :=
  k0_pay27 (k0_pay3 v3) (k0_pay4 v5) (k0_pay5 v7) (k0_pay6 v9) (k0_pay7 v11) s
/-- Head 6's. -/
def head6 (v3 : Vec F S1x4096x256 .f32) (v5 v7 v9 v11 : Vec F S1x256 .f32) (s : Vec F S1x32x32 .f32) : FVec F S1x32x32 .f32 :=
  k0_pay29 (k0_pay4 v5) (k0_pay5 v7) (k0_pay6 v9) (k0_pay7 v11) (k0_pay28 (k0_pay3 v3)) s
/-- Head 7's. -/
def head7 (v3 : Vec F S1x4096x256 .f32) (v5 v7 v9 v11 : Vec F S1x256 .f32) (s : Vec F S1x32x32 .f32) : FVec F S1x32x32 .f32 :=
  k0_pay35 (k0_pay30 (k0_pay3 v3)) (k0_pay31 (k0_pay4 v5)) (k0_pay32 (k0_pay5 v7)) (k0_pay33 (k0_pay6 v9)) (k0_pay34 (k0_pay7 v11)) s

/-- The zero accumulator stored at a batch's first token block. -/
def resetPay : FVec F S8x32x32 .f32 := k0_pay2 (F := F)
/-- The output block stored at a batch's last token block, from the whole accumulator. -/
def finalPay (sc : Vec F S8x32x32 .f32) : FVec F S1x8x32x32 .f32 := k0_pay1 sc

/-- Region 1's one stored block, from the x block and the eight slices of the key–value block. -/
def outPay (v0 : Vec F S1x4096x256 .f32) (k0 k1 k2 k3 k4 k5 k6 k7 : Vec F S1x1x32x32 .f32) : FVec F S1x4096x256 .f32 :=
  k1_pay1 (k1_pay2 v0) (k1_pay3 v0 k0) (k1_pay4 v0 k1) (k1_pay5 v0 k2) (k1_pay6 v0 k3) (k1_pay7 v0) k4 k5 k6 k7

end Cert.KernelIdeal.Hand

end
-- ==== Proof.K.R1.lean ====
/-
  The second kernel (the output kernel) at a point of its 4 × 8 grid, at ANY contents V of the buffers when it
  is entered. Its three windows are the x block [1, 4096, 256], the key–value block [1, 8, 32, 32] and the output
  block [1, 4096, 256]. The body reads the x block whole and the eight [1, 1, 32, 32] head slices of the key–value
  block, and writes the output block ONCE and whole: per head h the 32 channels x_h + x_h · kv_h, the eight results
  side by side. So after the body the two input windows hold their blocks unchanged and the output window holds
  that one stored block, a function of the two input blocks only.
-/
import proofs.«133594_j5471788335757_1_alg».proof.Proof.Gen.KernelIdeal.Launch
import proofs.«133594_j5471788335757_1_alg».proof.Proof.Gen.KernelIdeal.Skeleton
import proofs.«133594_j5471788335757_1_alg».proof.Proof.Gen.KernelIdeal.Points
import proofs.«133594_j5471788335757_1_alg».proof.Proof.K.Pieces
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the kernel is entered
variable (V : (c : Dev nD) → (b : Ref sig .tc) → Buf (Elt F) ((c : Thread nD τ).loc b))

/-! ## The windows' blocks -/

/-- Window w's block at grid point t, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's buffer holds the x block of the point at every point (it is brought in at every point; the
    body leaves it as it was). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key–value window's buffer holds the key–value block of the point's batch at every point: it is brought in
    only when the batch changes (every eighth point), and in between its block index does not move and the body
    leaves it as it was. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [1, 4096, 256] block: what is read of x and what is written of the output. -/
abbrev rWhole : Rect S1x4096x256 := Rect.unit (s := S1x4096x256) ![0, 0, 0] S1x4096x256.size inb_S1x4096x256_S1x4096x256_0_0_0
/-- Head h's [1, 1, 32, 32] slice of the key–value block. -/
abbrev r_h0 : Rect S1x8x32x32 := Rect.unit (s := S1x8x32x32) ![0, 0, 0, 0] S1x1x32x32.size inb_S1x8x32x32_S1x1x32x32_0_0_0_0
abbrev r_h1 : Rect S1x8x32x32 := Rect.unit (s := S1x8x32x32) ![0, 1, 0, 0] S1x1x32x32.size inb_S1x8x32x32_S1x1x32x32_0_1_0_0
abbrev r_h2 : Rect S1x8x32x32 := Rect.unit (s := S1x8x32x32) ![0, 2, 0, 0] S1x1x32x32.size inb_S1x8x32x32_S1x1x32x32_0_2_0_0
abbrev r_h3 : Rect S1x8x32x32 := Rect.unit (s := S1x8x32x32) ![0, 3, 0, 0] S1x1x32x32.size inb_S1x8x32x32_S1x1x32x32_0_3_0_0
abbrev r_h4 : Rect S1x8x32x32 := Rect.unit (s := S1x8x32x32) ![0, 4, 0, 0] S1x1x32x32.size inb_S1x8x32x32_S1x1x32x32_0_4_0_0
abbrev r_h5 : Rect S1x8x32x32 := Rect.unit (s := S1x8x32x32) ![0, 5, 0, 0] S1x1x32x32.size inb_S1x8x32x32_S1x1x32x32_0_5_0_0
abbrev r_h6 : Rect S1x8x32x32 := Rect.unit (s := S1x8x32x32) ![0, 6, 0, 0] S1x1x32x32.size inb_S1x8x32x32_S1x1x32x32_0_6_0_0
abbrev r_h7 : Rect S1x8x32x32 := Rect.unit (s := S1x8x32x32) ![0, 7, 0, 0] S1x1x32x32.size inb_S1x8x32x32_S1x1x32x32_0_7_0_0

/-! ## What the body leaves in the output window -/

/-- The output window's buffer after the body, from the two input blocks: the one whole-block store, whose value is
    the stored block of the x block and the eight head slices of the key–value block. -/
def out1_2 (x0 : Vec F S1x4096x256 .f32) (x1 : Vec F S1x8x32x32 .f32) : Vec F S1x4096x256 .f32 :=
  View.canon [⟨rWhole, outPay (View.ld x0 rWhole) (View.ld x1 r_h0) (View.ld x1 r_h1) (View.ld x1 r_h2) (View.ld x1 r_h3)
    (View.ld x1 r_h4) (View.ld x1 r_h5) (View.ld x1 r_h6) (View.ld x1 r_h7)⟩]

/-- The one store covers the buffer: its rectangle is the whole block. -/
theorem cover1_2 (p0 : Vec F S1x4096x256 .f32) (y : S1x4096x256.Idx) :
    ∃ pc ∈ ([⟨rWhole, p0⟩] : List (View.Piece (Elt F) S1x4096x256 .f32)), y ∈ pc.1.set :=
  ⟨_, List.mem_singleton_self _, View.mem_set_unit_zero (by funext a; fin_cases a <;> rfl) inb_S1x4096x256_S1x4096x256_0_0_0 y⟩

/-! ## The body's triple -/

set_option maxHeartbeats 4000000 in
/-- The body on whole buffers, the two inputs' at read contents x0, x1 and the output's at anything, runs to the
    continuation with the inputs' as they were and the output's at out1_2 x0 x1. -/
theorem sound_kernel1 (c : Dev nD) (E : Set ℕ) (i : grid1.Coords) (arg2 : Memref sig .tc .vmem S1x4096x256 .f32) (harg2 : arg2.IsWhole)
    (arg3 : Memref sig .tc .vmem S1x8x32x32 .f32) (harg3 : arg3.IsWhole) (arg4 : Memref sig .tc .vmem S1x4096x256 .f32) (harg4 : arg4.IsWhole)
    (x0 : Vec F S1x4096x256 .f32) (x1 : Vec F S1x8x32x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  simp only [k1_part1_eq_skeleton]; unfold k1_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-! ## The proof data -/

/-- The proof data on core c: the arrays as the kernel finds them; after the body at point t each input's buffer at
    its block and the output's at out1_2 of the two input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.K.Run.lean ====
/-
  The run of @main as a whole. @main is: four reshapes of the weight and bias arrays into [1, 256] rows; the
  key–value kernel over the grid (4, 8); the output kernel over the same grid — nothing between the two kernels.

  Four boundaries, hence four valuations of a core's unscoped buffers: `W0` (launch), `W1` (after the reshapes),
  `W2` (after the key–value kernel: its windows' arrays at what the write-backs leave, all else as before),
  `W3` (after the output kernel, likewise). The two kernels' proof data are taken at their entry contents, `W1` and
  `W2`. The first kernel's invariant is not constant along the grid (the accumulator carried from point to point
  lives in it): it is reached from the class invariant at the first point and gives it back at the last, and these
  two entailments are composed into the region's entry and exit. The run then gives, for every final state, each
  unscoped buffer's contents by name (`run_all`), and from it the five argument arrays unchanged (`frame`).
-/
import proofs.«133594_j5471788335757_1_alg».proof.Proof.K.R0Body
import proofs.«133594_j5471788335757_1_alg».proof.Proof.K.R1
import proofs.«133594_j5471788335757_1_alg».proof.Proof.Gen.KernelIdeal.Regions
import Idealize.ShloMosaic.Lib.Pipeline.RegionsLoop
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of @main: four host reshapes, then the two kernel regions

## What each core's unscoped buffers hold at the four boundaries -/

variable (m : (ℓ : Loc nD τ sig) → Buf (Elt F) ℓ)

/-- Core `c`'s buffers at launch. -/
abbrev W0 : Dev nD → Valuation τ sig (Elt F) := fun c b => m (c, b)
/-- After the four reshapes (the first region's entry): the weight and bias rows now sit in `main_v0 … main_v3`. -/
abbrev W1 : Dev nD → Valuation τ sig (Elt F) := fun c => StableHlo.after hostOps0 (W0 m c)
/-- The same, read at the core's own references: what the first region's proof data are stated at. -/
abbrev V1 : (c : Dev nD) → (b : Ref sig .tc) → Buf (Elt F) ((c : Thread nD τ).loc b) := fun c b => W1 m c b
/-- At the first region's exit: each of its six windows' arrays at what its write-backs leave (an input as it was
    entered, the key–value array with every batch's block written), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The first region's exit contents read at the core's own references: the second region's entry (no host
    operation stands between the two regions). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit: each of its three windows' arrays at what its write-backs leave, every other
    buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The last boundary read at the core's own references. -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The five arguments end as launched

`main_arg0` is an input window's array of both regions, so each region's fold leaves it as entered; the other four
are no window's array of either region. The reshapes write `main_v0 … main_v3` only. -/

/-- No reshape writes a buffer other than `main_v0 … main_v3`. -/
theorem W1_of (c : Dev nD) (r : Ref sig .tc) (h : r ∉ hostOps0_W) : W1 m c (Proc.devRef .tc r) = m ((c : Thread nD τ).loc r) :=
  V1_of m c r h

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)
theorem W3_main_arg1 (c : Dev nD) : W3 m c (Proc.devRef .tc main_arg1) = m ((c : Thread nD τ).loc main_arg1) :=
  (W3_of_ne m c main_arg1 (by decide)).trans <| (W2_of_ne m c main_arg1 (by decide)).trans <| W1_of m c main_arg1 (by decide)
theorem W3_main_arg2 (c : Dev nD) : W3 m c (Proc.devRef .tc main_arg2) = m ((c : Thread nD τ).loc main_arg2) :=
  (W3_of_ne m c main_arg2 (by decide)).trans <| (W2_of_ne m c main_arg2 (by decide)).trans <| W1_of m c main_arg2 (by decide)
theorem W3_main_arg3 (c : Dev nD) : W3 m c (Proc.devRef .tc main_arg3) = m ((c : Thread nD τ).loc main_arg3) :=
  (W3_of_ne m c main_arg3 (by decide)).trans <| (W2_of_ne m c main_arg3 (by decide)).trans <| W1_of m c main_arg3 (by decide)
theorem W3_main_arg4 (c : Dev nD) : W3 m c (Proc.devRef .tc main_arg4) = m ((c : Thread nD τ).loc main_arg4) :=
  (W3_of_ne m c main_arg4 (by decide)).trans <| (W2_of_ne m c main_arg4 (by decide)).trans <| W1_of m c main_arg4 (by decide)

/-! ## The proof data of both pipelines and the thread state -/

/-- Both pipelines' proof data, each at its region's entry contents: a literal match, so that the pinned configuration
    at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the core
    owes, which is nothing. -/
abbrev R (c : Dev nD) : sProp 𝕄 := iprop((∃ r, prngReg c r) ∗ ∃ W, owes (c : Thread nD τ) (0 : CellTallies nD τ sig Unit) W)
/-- A line of host operations as a segment over every unscoped buffer, from the contents `W`; it leaves them at
    `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W3 m c) ∗ ∃ r, prngReg c r)

/-! ## The two regions as segments -/

set_option backward.isDefEq.respectTransparency.types false in
/-- The first region over the thread state: entered from every unscoped buffer at `W1`, left at `W2`. Its six arrays
    are split out of the unscoped buffers and put back at their exit contents; the generator register enters the class
    invariant, from which the body's own invariant at the first point follows, and at the last point the body's
    invariant gives the class invariant back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2` (what the first region left),
    left at `W3`. Its invariant is the class invariant at every point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (A_eq1 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the reshapes from the launch contents, then the two regions back to back. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of the segments. -/
theorem main_run (c : Dev nD) : main (F := F) c = Pipeline.Seg.run (segs m) := (main_chain c).trans (by chain_rfl)

set_option backward.isDefEq.respectTransparency.types false in
/-- THE RUN. From any memory with zero counters, every weakly fair execution of @main on the cores terminates,
    nothing faulting, and in every final state each core's unscoped buffers hold the last boundary's contents `W3`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: every argument array ends holding what it was launched with. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  OrdCont.mono (θ_run defs (onTc (τ := τ) (main (F := F))) ⟨m, fun _ => 0, ρ⟩) (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Hand

end
-- ==== Proof.Spec.lean ====
/-
  The common specification, over the extended reals, that both programs are read against.

  For one token row `r : Fin 32 → EReal` (the 32 channels of one head of one token):
    mean   = (∑ r) / 32,   cen d = r d − mean,   var = (∑ cen²) / 31,
    normed d = cen d / (sqrt var + ε),   feat r w b d = normed d · w d + b d.
  For batch `b`, head `h`:  kvSum b h d e = ∑ over the 32768 tokens n of feat(k-weights) d · feat(v-weights) e,
  the key–value matrix is kvSum scaled by 2⁻¹⁵ (= 1/32768), and the result at (b, n, 32h + e) is
  x(b, n, 32h+e) + ∑ d, x(b, n, 32h+d) · kv(b, h, d, e).
  The four float words 32, 31, ε and 2⁻¹⁵ are kept as their bit patterns: where both programs carry the same word it
  is never evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The word 32.0. -/
abbrev c32 : EReal := Ideal.ofBits .f32 0x42000000#32
/-- The word 31.0. -/
abbrev c31 : EReal := Ideal.ofBits .f32 0x41F80000#32
/-- The word of the f32 nearest 1e-5. -/
abbrev ceps : EReal := Ideal.ofBits .f32 0x3727C5AC#32
/-- The word 2⁻¹⁵. -/
abbrev cinvN : EReal := Ideal.ofBits .f32 0x38000000#32

/-- A row's mean. -/
def rowMean (r : Fin 32 → EReal) : EReal := Ideal.div (∑ d : Fin 32, r d) c32
/-- A row, centred. -/
def rowCen (r : Fin 32 → EReal) (d : Fin 32) : EReal := r d - rowMean r
/-- A row's unbiased variance (divisor 31). -/
def rowVar (r : Fin 32 → EReal) : EReal := Ideal.div (∑ d : Fin 32, rowCen r d * rowCen r d) c31
/-- A row, normalised: centred and divided by (standard deviation + ε). -/
def rowNormed (r : Fin 32 → EReal) (d : Fin 32) : EReal := Ideal.div (rowCen r d) (Ideal.sqrt (rowVar r) + ceps)
/-- The layer-normed feature: normalised row times a weight row plus a bias row. -/
def feat (r w b : Fin 32 → EReal) (d : Fin 32) : EReal := rowNormed r d * w d + b d

/-- Channel `32 h + d` of a 256-channel axis. -/
abbrev ch (h : Fin 8) (d : Fin 32) : Fin 256 := ⟨32 * h.val + d.val, by omega⟩

/-- Head `h` of token `n` of batch `b`, as a row. -/
def xrow (x : (⟨3, ![4, 32768, 256]⟩ : Shape).Idx → EReal) (b : Fin 4) (n : Fin 32768) (h : Fin 8) : Fin 32 → EReal :=
  fun d => x (ix3 b n (ch h d))
/-- Head `h` of a [8, 1, 32] weight or bias array, as a row. -/
def wrow (w : (⟨3, ![8, 1, 32]⟩ : Shape).Idx → EReal) (h : Fin 8) : Fin 32 → EReal :=
  fun d => w (ix3 h (0 : Fin 1) d)

/-- Head `h` of row `r` of one [1, 4096, 256] block of `x`, as a row. -/
def blkRow (xb : (⟨3, ![1, 4096, 256]⟩ : Shape).Idx → EReal) (r : Fin 4096) (h : Fin 8) : Fin 32 → EReal :=
  fun d => xb (ix3 (0 : Fin 1) r (ch h d))
/-- Head `h` of a [1, 256] weight or bias block, as a row. -/
def wblk (w : (⟨2, ![1, 256]⟩ : Shape).Idx → EReal) (h : Fin 8) : Fin 32 → EReal :=
  fun d => w (ix2 (0 : Fin 1) (ch h d))
/-- What one block of 4096 tokens adds to head `h`'s [32, 32] accumulator at (d, e). -/
def contrib (xb : (⟨3, ![1, 4096, 256]⟩ : Shape).Idx → EReal) (kw kb vw vb : (⟨2, ![1, 256]⟩ : Shape).Idx → EReal)
    (h : Fin 8) (d e : Fin 32) : EReal :=
  ∑ r : Fin 4096, feat (blkRow xb r h) (wblk kw h) (wblk kb h) d * feat (blkRow xb r h) (wblk vw h) (wblk vb h) e

/-- The un-scaled key–value sum over all tokens. -/
def kvSum (x : (⟨3, ![4, 32768, 256]⟩ : Shape).Idx → EReal) (kw kb vw vb : (⟨3, ![8, 1, 32]⟩ : Shape).Idx → EReal)
    (b : Fin 4) (h : Fin 8) (d e : Fin 32) : EReal :=
  ∑ n : Fin 32768, feat (xrow x b n h) (wrow kw h) (wrow kb h) d * feat (xrow x b n h) (wrow vw h) (wrow vb h) e

/-- The key–value array [4, 8, 32, 32]: the sum scaled by 2⁻¹⁵. -/
def KV (x : (⟨3, ![4, 32768, 256]⟩ : Shape).Idx → EReal) (kw kb vw vb : (⟨3, ![8, 1, 32]⟩ : Shape).Idx → EReal) :
    (⟨4, ![4, 8, 32, 32]⟩ : Shape).Idx → EReal :=
  fun j => kvSum x kw kb vw vb (j 0) (j 1) (j 2) (j 3) * cinvN

/-- The head and the channel inside the head of a channel index. -/
abbrev hd (cidx : Fin 256) : Fin 8 := ⟨cidx.val / 32, by omega⟩
abbrev ed (cidx : Fin 256) : Fin 32 := ⟨cidx.val % 32, by omega⟩

/-- The result array from `x` and a key–value array: x + x_h · kv_h, head by head. -/
def OUT (x : (⟨3, ![4, 32768, 256]⟩ : Shape).Idx → EReal) (kv : (⟨4, ![4, 8, 32, 32]⟩ : Shape).Idx → EReal) :
    (⟨3, ![4, 32768, 256]⟩ : Shape).Idx → EReal :=
  fun j => x j + ∑ d : Fin 32, xrow x (j 0) (j 1) (hd (j 2)) d * kv (ix4 (j 0) (hd (j 2)) d (ed (j 2)))

/-- The whole function: both programs' result. -/
def G (x : (⟨3, ![4, 32768, 256]⟩ : Shape).Idx → EReal) (kw kb vw vb : (⟨3, ![8, 1, 32]⟩ : Shape).Idx → EReal) :
    (⟨3, ![4, 32768, 256]⟩ : Shape).Idx → EReal :=
  OUT x (KV x kw kb vw vb)

end Cert.Spec

end
-- ==== Proof.Ideal.PayLN.lean ====
/-
  The layer-norm chain that every head of the key–value body repeats, read at one index.

  For a [4096, 32] slice xs (one head's 32 channels of the 4096 token rows) the body computes, row by row,
    mean = (∑ xs) / 32,  cen = xs − mean,  var = (∑ cen²) / 31,  normed = cen / (sqrt var + ε),
  and then normed · w + b against a 32-wide weight row w and bias row b (broadcast down the rows).
  Here that chain is written once over a VARIABLE slice, in the order the body writes it, and read at (r, d):
  it is the specification's `rowNormed` / `feat` of row r.  Also: the column slices of the [4096, 256] block and of a
  [256] row at an offset, and the unit-axis casts, read at an index.
-/
import proofs.«133594_j5471788335757_1_alg».proof.Proof.K.Pieces
import proofs.«133594_j5471788335757_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## Column forms of the unit-axis cast and broadcast -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Columns `o … o+31` of a [4096, 256] block: at `(r, d)` the block at `(r, o + d)`. -/
theorem colSlice_apply (o : ℕ) (x : S4096x256.Idx → α) (hs : S4096x256.Slices ![0, o] S4096x32) (r : Fin 4096) (d : Fin 32)
    (c : Fin 256) (hc : c.val = o + d.val) : extractStridedSlice S4096x32 ![0, o] x hs (ix2 r d) = x (ix2 r c) :=
  extractStridedSlice_apply _ x hs _ _ fun ax => match ax with
    | ⟨0, _⟩ => by show r.val = 0 + r.val; omega
    | ⟨1, _⟩ => hc

/-- Entries `o … o+31` of a [256] row: at `d` the row at `o + d`. -/
theorem rowSlice_apply (o : ℕ) (x : S256.Idx → α) (hs : S256.Slices ![o] S32) (d : Fin 32)
    (c : Fin 256) (hc : c.val = o + d.val) : extractStridedSlice S32 ![o] x hs (ix1 d) = x (ix1 c) :=
  extractStridedSlice_apply _ x hs _ _ fun ax => match ax with
    | ⟨0, _⟩ => hc

end Layout

/-- The [1, 4096, 256] block viewed [4096, 256]. -/
theorem blk_apply (v3 : Vec Ideal S1x4096x256 .f32) (r : Fin 4096) (c : Fin 256) :
    k0_pay3 v3 (ix2 r c) = v3 (ix3 (0 : Fin 1) r c) :=
  shapeCast_1ab_ab_apply v3 _ r c

/-- A [1, 256] row block viewed [256]. -/
theorem row_apply (v : Vec Ideal S1x256 .f32) (c : Fin 256) :
    shapeCast S256 v shapeCasts_S1x256_S256 (ix1 c) = v (ix2 (0 : Fin 1) c) :=
  shapeCast_1a_a_apply v _ c

/-! ## The chain -/

/-- Row sums kept as a column. -/
def rowSum (x : FVec Ideal S4096x32 .f32) : FVec Ideal S4096x1 .f32 :=
  shapeCast S4096x1 (multiReduction .add [1] S4096 x 0x00000000#32 reduces_S4096x32_S4096 (.inl rfl) rfl) shapeCasts_S4096_S4096x1

/-- Row means (divisor the word 32.0). -/
def colMean (xs : FVec Ideal S4096x32 .f32) : FVec Ideal S4096x1 .f32 :=
  divf (rowSum xs) (broadcast S4096x1 (Scalar.ofBits .f32 0x42000000#32))

/-- The slice, centred row by row. -/
def cen (xs : FVec Ideal S4096x32 .f32) : FVec Ideal S4096x32 .f32 :=
  subf xs (broadcastTo S4096x32 (colMean xs) broadcasts_S4096x1_S4096x32)

/-- Row variances (divisor the word 31.0). -/
def colVar (xs : FVec Ideal S4096x32 .f32) : FVec Ideal S4096x1 .f32 :=
  divf (rowSum (mulf (cen xs) (cen xs))) (broadcast S4096x1 (Scalar.ofBits .f32 0x41F80000#32))

/-- Row standard deviations plus ε. -/
def colStd (xs : FVec Ideal S4096x32 .f32) : FVec Ideal S4096x1 .f32 :=
  addf (sqrt (colVar xs)) (broadcast S4096x1 (Scalar.ofBits .f32 0x3727C5AC#32))

/-- The normalised slice. -/
def lnNorm (xs : FVec Ideal S4096x32 .f32) : FVec Ideal S4096x32 .f32 :=
  divf (cen xs) (broadcastTo S4096x32 (colStd xs) broadcasts_S4096x1_S4096x32)

/-- A 32-wide row broadcast down the 4096 rows. -/
def rowB (w : FVec Ideal S32 .f32) : FVec Ideal S4096x32 .f32 :=
  broadcastTo S4096x32 (shapeCast S1x32 w shapeCasts_S32_S1x32) broadcasts_S1x32_S4096x32

/-- The feature slice: normalised, times a weight row, plus a bias row. -/
def lnfeat (xs : FVec Ideal S4096x32 .f32) (w b : FVec Ideal S32 .f32) : FVec Ideal S4096x32 .f32 :=
  addf (mulf (lnNorm xs) (rowB w)) (rowB b)

/-! ## Read at an index -/

theorem rowSum_apply (x : FVec Ideal S4096x32 .f32) (r : Fin 4096) (u : Fin 1) :
    rowSum x (ix2 r u) = ∑ d : Fin 32, x (ix2 r d) := by
  refine (shapeCast_a_a1_apply _ shapeCasts_S4096_S4096x1 r u).trans ?_
  refine (Ideal.multiReduction_add_single x _ reduces_S4096x32_S4096 (.inl rfl) rfl (ix1 r)).trans ?_
  refine Finset.sum_congr rfl fun k _ => congrArg x ?_
  funext c
  match c with
  | ⟨0, _⟩ => exact Fin.ext rfl
  | ⟨1, _⟩ => exact Fin.ext rfl

theorem colMean_apply (xs : FVec Ideal S4096x32 .f32) (r : Fin 4096) (u : Fin 1) :
    colMean xs (ix2 r u) = Spec.rowMean (fun d => xs (ix2 r d)) :=
  congrArg (fun t => Ideal.div t Spec.c32) (rowSum_apply xs r u)

theorem cen_apply (xs : FVec Ideal S4096x32 .f32) (r : Fin 4096) (d : Fin 32) :
    cen xs (ix2 r d) = Spec.rowCen (fun d' => xs (ix2 r d')) d := by
  show xs (ix2 r d) - broadcastTo S4096x32 (colMean xs) broadcasts_S4096x1_S4096x32 (ix2 r d) = _
  rw [broadcastTo_a1_ab_apply, colMean_apply]; rfl

theorem colVar_apply (xs : FVec Ideal S4096x32 .f32) (r : Fin 4096) (u : Fin 1) :
    colVar xs (ix2 r u) = Spec.rowVar (fun d => xs (ix2 r d)) := by
  refine (congrArg (fun t => Ideal.div t Spec.c31) (rowSum_apply _ r u)).trans ?_
  show Ideal.div (∑ d : Fin 32, cen xs (ix2 r d) * cen xs (ix2 r d)) Spec.c31 = _
  simp only [cen_apply]; rfl

theorem colStd_apply (xs : FVec Ideal S4096x32 .f32) (r : Fin 4096) (u : Fin 1) :
    colStd xs (ix2 r u) = Ideal.sqrt (Spec.rowVar (fun d => xs (ix2 r d))) + Spec.ceps := by
  show Ideal.sqrt (colVar xs (ix2 r u)) + Spec.ceps = _
  rw [colVar_apply]

theorem lnNorm_apply (xs : FVec Ideal S4096x32 .f32) (r : Fin 4096) (d : Fin 32) :
    lnNorm xs (ix2 r d) = Spec.rowNormed (fun d' => xs (ix2 r d')) d := by
  show Ideal.div (cen xs (ix2 r d)) (broadcastTo S4096x32 (colStd xs) broadcasts_S4096x1_S4096x32 (ix2 r d)) = _
  rw [broadcastTo_a1_ab_apply, colStd_apply, cen_apply]; rfl

theorem rowB_apply (w : FVec Ideal S32 .f32) (r : Fin 4096) (d : Fin 32) : rowB w (ix2 r d) = w (ix1 d) :=
  (broadcastTo_1b_ab_apply _ broadcasts_S1x32_S4096x32 r d).trans (shapeCast_a_1a_apply w shapeCasts_S32_S1x32 0 d)

/-- The feature slice at (r, d) is the specification's feature of row r at channel d. -/
theorem lnfeat_apply (xs : FVec Ideal S4096x32 .f32) (w b : FVec Ideal S32 .f32) (r : Fin 4096) (d : Fin 32) :
    lnfeat xs w b (ix2 r d)
      = Spec.feat (fun d' => xs (ix2 r d')) (fun d' => w (ix1 d')) (fun d' => b (ix1 d')) d := by
  show lnNorm xs (ix2 r d) * rowB w (ix2 r d) + rowB b (ix2 r d) = _
  rw [lnNorm_apply, rowB_apply, rowB_apply]; rfl

end Cert.KernelIdeal.Pay

end
-- ==== Proof.Ideal.PayDot.lean ====
/-
  The kernel's matrix product, read at one entry.

  Both operands are [4096, 32] arrays and the product contracts their row axis: the (d, e) entry of the [32, 32]
  result, accumulated into zero, is  ∑ over the 4096 rows r of  lhs(r, d) · rhs(r, e).
  At the extended reals no rounding and no order of summation remains in it.
-/
import proofs.«133594_j5471788335757_1_alg».proof.Proof.K.Pieces
import proofs.«133594_j5471788335757_1_alg».proof.Proof.Spec
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen

/-- The contracted axis of the left operand is its row axis: it reads the contraction position. -/
theorem kdot_lhs_0 (j : S32x32.Idx) (k : dot_S4096x32_S4096x32_S32x32_0_0_1_1_n_n.contr.Idx) :
    ((dot_S4096x32_S4096x32_S32x32_0_0_1_1_n_n.lhsIdx j k) 0 : ℕ) = (k ⟨0, by decide⟩ : ℕ) :=
  DotDims.lhsIdx_val_of_single dot_S4096x32_S4096x32_S32x32_0_0_1_1_n_n (cl := 0) rfl j k

/-- The kept axis of the left operand is its column axis: it reads the result's first coordinate. -/
theorem kdot_lhs_1 (j : S32x32.Idx) (k : dot_S4096x32_S4096x32_S32x32_0_0_1_1_n_n.contr.Idx) :
    ((dot_S4096x32_S4096x32_S32x32_0_0_1_1_n_n.lhsIdx j k) 1 : ℕ) = (j 0 : ℕ) := by
  unfold DotDims.lhsIdx
  rw [dif_neg (show ¬(1 : Fin S4096x32.rank) ∈ dot_S4096x32_S4096x32_S32x32_0_0_1_1_n_n.lhsBatch by decide),
    dif_pos (show (1 : Fin S4096x32.rank) ∈ dot_S4096x32_S4096x32_S32x32_0_0_1_1_n_n.lhsNonContracting by decide)]
  rfl

/-- The contracted axis of the right operand is its row axis. -/
theorem kdot_rhs_0 (j : S32x32.Idx) (k : dot_S4096x32_S4096x32_S32x32_0_0_1_1_n_n.contr.Idx) :
    ((dot_S4096x32_S4096x32_S32x32_0_0_1_1_n_n.rhsIdx j k) 0 : ℕ) = (k ⟨0, by decide⟩ : ℕ) :=
  DotDims.rhsIdx_val_of_single dot_S4096x32_S4096x32_S32x32_0_0_1_1_n_n (cr := 0) rfl j k

/-- The kept axis of the right operand is its column axis: it reads the result's second coordinate. -/
theorem kdot_rhs_1 (j : S32x32.Idx) (k : dot_S4096x32_S4096x32_S32x32_0_0_1_1_n_n.contr.Idx) :
    ((dot_S4096x32_S4096x32_S32x32_0_0_1_1_n_n.rhsIdx j k) 1 : ℕ) = (j 1 : ℕ) := by
  unfold DotDims.rhsIdx
  rw [dif_neg (show ¬(1 : Fin S4096x32.rank) ∈ dot_S4096x32_S4096x32_S32x32_0_0_1_1_n_n.rhsBatch by decide),
    dif_pos (show (1 : Fin S4096x32.rank) ∈ dot_S4096x32_S4096x32_S32x32_0_0_1_1_n_n.rhsNonContracting by decide)]
  rfl

/-- The product into the zero accumulator at entry (d, e): the sum over the rows of the products of the two
    operands' entries in columns d and e. -/
theorem kdot_apply (prec : Option ContractPrecision) (lhs rhs : FVec Ideal S4096x32 .bf16) (d e : Fin 32) :
    matmul dot_S4096x32_S4096x32_S32x32_0_0_1_1_n_n prec lhs rhs (constant (F := Ideal) S32x32 .f32 0x00000000#32) (ix2 d e)
      = ∑ r : Fin 4096, lhs (ix2 r d) * rhs (ix2 r e) := by
  show FloatOps.matmul _ prec lhs rhs _ (ix2 d e) = _
  rw [Ideal.matmul_constant_zero_apply,
    ← Equiv.sum_comp (contrEquiv1 dot_S4096x32_S4096x32_S32x32_0_0_1_1_n_n 4096 rfl rfl).symm]
  refine Finset.sum_congr rfl fun r _ => ?_
  have hk := contrEquiv1_symm_val dot_S4096x32_S4096x32_S32x32_0_0_1_1_n_n 4096 rfl rfl r
  have hl : dot_S4096x32_S4096x32_S32x32_0_0_1_1_n_n.lhsIdx (ix2 d e)
      ((contrEquiv1 dot_S4096x32_S4096x32_S32x32_0_0_1_1_n_n 4096 rfl rfl).symm r) = ix2 r d := by
    funext ax; apply Fin.ext
    match ax with
    | ⟨0, _⟩ => exact (kdot_lhs_0 _ _).trans hk
    | ⟨1, _⟩ => exact kdot_lhs_1 _ _
  have hr : dot_S4096x32_S4096x32_S32x32_0_0_1_1_n_n.rhsIdx (ix2 d e)
      ((contrEquiv1 dot_S4096x32_S4096x32_S32x32_0_0_1_1_n_n 4096 rfl rfl).symm r) = ix2 r e := by
    funext ax; apply Fin.ext
    match ax with
    | ⟨0, _⟩ => exact (kdot_rhs_0 _ _).trans hk
    | ⟨1, _⟩ => exact kdot_rhs_1 _ _
  rw [hl, hr]

end Cert.KernelIdeal.Pay

end
-- ==== Proof.Ideal.Pay0a.lean ====
/-
  Heads 0–3 of the key–value body: what each stores into its [32, 32] slice of the accumulator.

  Every head does the same thing to its own 32 columns: it forms the two feature slices k = normed·kw + kb and
  v = normed·vw + vb of its [4096, 32] slice of the block, contracts the 4096 rows of k against v into a [32, 32]
  product, and adds that to the slice s it loaded:  new(d, e) = s(d, e) + ∑ r, k(r, d) · v(r, e).
  Written once over a VARIABLE slice and four VARIABLE rows (`headGen`), read at (d, e) (`headGen_apply`), then carried
  to the specification's `contrib` for the slice at column offset o = 32 h (`head_spec`).  The four heads are instances.
-/
import proofs.«133594_j5471788335757_1_alg».proof.Proof.Ideal.PayLN
import proofs.«133594_j5471788335757_1_alg».proof.Proof.Ideal.PayDot

noncomputable section

namespace Cert.KernelIdeal.Pay

open Idealize.ShloMosaic Idealize.ShloMosaic.ValueIdx Cert.KernelIdeal Cert.KernelIdeal.Gen

/-- One head's new accumulator slice, from its slice of the block, its four rows and the slice as loaded. -/
def headGen (xs : FVec Ideal S4096x32 .f32) (kw kb vw vb : FVec Ideal S32 .f32) (s : Vec Ideal S1x32x32 .f32) :
    FVec Ideal S1x32x32 .f32 :=
  shapeCast S1x32x32
    (addf (shapeCast S32x32 s shapeCasts_S1x32x32_S32x32)
      (matmul dot_S4096x32_S4096x32_S32x32_0_0_1_1_n_n none
        (truncf .bf16 (lnfeat xs kw kb) bitsLt_bf16_f32) (truncf .bf16 (lnfeat xs vw vb) bitsLt_bf16_f32)
        (constant S32x32 .f32 0x00000000#32)))
    shapeCasts_S32x32_S1x32x32

/-- At (d, e): the loaded entry plus the sum over the rows of the products of the two features. -/
theorem headGen_apply (xs : FVec Ideal S4096x32 .f32) (kw kb vw vb : FVec Ideal S32 .f32) (s : Vec Ideal S1x32x32 .f32)
    (d e : Fin 32) :
    headGen xs kw kb vw vb s (ix3 (0 : Fin 1) d e)
      = s (ix3 (0 : Fin 1) d e)
        + ∑ r : Fin 4096,
            Spec.feat (fun d' => xs (ix2 r d')) (fun d' => kw (ix1 d')) (fun d' => kb (ix1 d')) d
              * Spec.feat (fun d' => xs (ix2 r d')) (fun d' => vw (ix1 d')) (fun d' => vb (ix1 d')) e := by
  refine (shapeCast_ab_1ab_apply _ shapeCasts_S32x32_S1x32x32 0 d e).trans ?_
  refine congrArg₂ (· + ·) (shapeCast_1ab_ab_apply s shapeCasts_S1x32x32_S32x32 d e) ?_
  refine (kdot_apply none _ _ d e).trans ?_
  refine Finset.sum_congr rfl fun r _ => ?_
  exact congrArg₂ (· * ·) (lnfeat_apply xs kw kb r d) (lnfeat_apply xs vw vb r e)

/-- Row r of the slice at column offset o = 32 h is head h of row r of the block. -/
theorem xrow_eq (o : ℕ) (h : Fin 8) (ho : ∀ d : Fin 32, (Spec.ch h d).val = o + d.val) (v3 : Vec Ideal S1x4096x256 .f32)
    (hs : S4096x256.Slices ![0, o] S4096x32) (r : Fin 4096) :
    (fun d' : Fin 32 => extractStridedSlice S4096x32 ![0, o] (k0_pay3 v3) hs (ix2 r d')) = Spec.blkRow v3 r h :=
  funext fun d' => (colSlice_apply o _ hs r d' (Spec.ch h d') (ho d')).trans (blk_apply v3 r _)

/-- The slice at offset o = 32 h of a weight or bias row is head h of that row. -/
theorem wrow_eq (o : ℕ) (h : Fin 8) (ho : ∀ d : Fin 32, (Spec.ch h d).val = o + d.val) (v : Vec Ideal S1x256 .f32)
    (hr : S256.Slices ![o] S32) :
    (fun d' : Fin 32 => extractStridedSlice S32 ![o] (shapeCast S256 v shapeCasts_S1x256_S256) hr (ix1 d')) = Spec.wblk v h :=
  funext fun d' => (rowSlice_apply o _ hr d' (Spec.ch h d') (ho d')).trans (row_apply v _)

/-- The head at column offset o = 32 h adds the specification's contribution of head h to the loaded slice. -/
theorem head_spec (o : ℕ) (h : Fin 8) (ho : ∀ d : Fin 32, (Spec.ch h d).val = o + d.val)
    (v3 : Vec Ideal S1x4096x256 .f32) (v5 v7 v9 v11 : Vec Ideal S1x256 .f32) (s : Vec Ideal S1x32x32 .f32)
    (hs : S4096x256.Slices ![0, o] S4096x32) (hr : S256.Slices ![o] S32) (d e : Fin 32) :
    headGen (extractStridedSlice S4096x32 ![0, o] (k0_pay3 v3) hs)
        (extractStridedSlice S32 ![o] (shapeCast S256 v5 shapeCasts_S1x256_S256) hr)
        (extractStridedSlice S32 ![o] (shapeCast S256 v7 shapeCasts_S1x256_S256) hr)
        (extractStridedSlice S32 ![o] (shapeCast S256 v9 shapeCasts_S1x256_S256) hr)
        (extractStridedSlice S32 ![o] (shapeCast S256 v11 shapeCasts_S1x256_S256) hr) s (ix3 (0 : Fin 1) d e)
      = s (ix3 (0 : Fin 1) d e) + Spec.contrib v3 v5 v7 v9 v11 h d e := by
  refine (headGen_apply _ _ _ _ _ s d e).trans ?_
  refine congrArg (s (ix3 (0 : Fin 1) d e) + ·) ?_
  refine Finset.sum_congr rfl fun r _ => ?_
  rw [xrow_eq o h ho v3 hs r, wrow_eq o h ho v5 hr, wrow_eq o h ho v7 hr, wrow_eq o h ho v9 hr, wrow_eq o h ho v11 hr]

/-! ## The four heads -/

theorem head0_apply (v3 : Vec Ideal S1x4096x256 .f32) (v5 v7 v9 v11 : Vec Ideal S1x256 .f32) (s : Vec Ideal S1x32x32 .f32)
    (d e : Fin 32) :
    Cert.KernelIdeal.Hand.head0 v3 v5 v7 v9 v11 s (ix3 (0 : Fin 1) d e)
      = s (ix3 (0 : Fin 1) d e) + Spec.contrib v3 v5 v7 v9 v11 (0 : Fin 8) d e :=
  head_spec 0 0 (fun _ => rfl) v3 v5 v7 v9 v11 s slices_S4096x256_o0_0_S4096x32 slices_S256_o0_S32 d e

theorem head1_apply (v3 : Vec Ideal S1x4096x256 .f32) (v5 v7 v9 v11 : Vec Ideal S1x256 .f32) (s : Vec Ideal S1x32x32 .f32)
    (d e : Fin 32) :
    Cert.KernelIdeal.Hand.head1 v3 v5 v7 v9 v11 s (ix3 (0 : Fin 1) d e)
      = s (ix3 (0 : Fin 1) d e) + Spec.contrib v3 v5 v7 v9 v11 (1 : Fin 8) d e :=
  head_spec 32 1 (fun _ => rfl) v3 v5 v7 v9 v11 s slices_S4096x256_o0_32_S4096x32 slices_S256_o32_S32 d e

theorem head2_apply (v3 : Vec Ideal S1x4096x256 .f32) (v5 v7 v9 v11 : Vec Ideal S1x256 .f32) (s : Vec Ideal S1x32x32 .f32)
    (d e : Fin 32) :
    Cert.KernelIdeal.Hand.head2 v3 v5 v7 v9 v11 s (ix3 (0 : Fin 1) d e)
      = s (ix3 (0 : Fin 1) d e) + Spec.contrib v3 v5 v7 v9 v11 (2 : Fin 8) d e :=
  head_spec 64 2 (fun _ => rfl) v3 v5 v7 v9 v11 s slices_S4096x256_o0_64_S4096x32 slices_S256_o64_S32 d e

theorem head3_apply (v3 : Vec Ideal S1x4096x256 .f32) (v5 v7 v9 v11 : Vec Ideal S1x256 .f32) (s : Vec Ideal S1x32x32 .f32)
    (d e : Fin 32) :
    Cert.KernelIdeal.Hand.head3 v3 v5 v7 v9 v11 s (ix3 (0 : Fin 1) d e)
      = s (ix3 (0 : Fin 1) d e) + Spec.contrib v3 v5 v7 v9 v11 (3 : Fin 8) d e :=
  head_spec 96 3 (fun _ => rfl) v3 v5 v7 v9 v11 s slices_S4096x256_o0_96_S4096x32 slices_S256_o96_S32 d e

end Cert.KernelIdeal.Pay

end
-- ==== Proof.Ideal.Pay0b.lean ====
/-
  Heads 4 to 7 of the key–value body: what each stores into its slice of the accumulator, read at one entry.

  Every head does the same step on its own 32 columns: with xs the head's [4096, 32] slice of the token block and
  kw, kb, vw, vb the head's 32 entries of the four rows,
      k = normed(xs) · kw + kb,   v = normed(xs) · vw + vb   (row by row; the narrowing to 16 bits changes nothing),
      new slice (d, e) = old slice (d, e) + ∑ over the 4096 rows r of k(r, d) · v(r, e).
  The step is stated once over variable slices; a head is the step at its own offsets, and its sum is the
  specification's contribution of one token block to that head.
-/
import proofs.«133594_j5471788335757_1_alg».proof.Proof.K.Pieces
import proofs.«133594_j5471788335757_1_alg».proof.Proof.Spec
import proofs.«133594_j5471788335757_1_alg».proof.Proof.Ideal.PayDot
import proofs.«133594_j5471788335757_1_alg».proof.Proof.Ideal.PayLN
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- One head's step: the old [1, 32, 32] slice plus the product, over the rows, of the two feature slices. -/
def headStep (xs : FVec Ideal S4096x32 .f32) (kw kb vw vb : FVec Ideal S32 .f32) (s : Vec Ideal S1x32x32 .f32) :
    FVec Ideal S1x32x32 .f32 :=
  shapeCast S1x32x32
    (addf (shapeCast S32x32 s shapeCasts_S1x32x32_S32x32)
      (matmul dot_S4096x32_S4096x32_S32x32_0_0_1_1_n_n none
        (truncf .bf16 (lnfeat xs kw kb) bitsLt_bf16_f32) (truncf .bf16 (lnfeat xs vw vb) bitsLt_bf16_f32)
        (constant S32x32 .f32 0x00000000#32)))
    shapeCasts_S32x32_S1x32x32

/-- The step at (0, d, e): the old entry plus the sum over the rows of feature(k) at d times feature(v) at e. -/
theorem headStep_apply (xs : FVec Ideal S4096x32 .f32) (kw kb vw vb : FVec Ideal S32 .f32) (s : Vec Ideal S1x32x32 .f32)
    (d e : Fin 32) :
    headStep xs kw kb vw vb s (ix3 (0 : Fin 1) d e)
      = s (ix3 (0 : Fin 1) d e)
        + ∑ r : Fin 4096,
            Spec.feat (fun d' => xs (ix2 r d')) (fun d' => kw (ix1 d')) (fun d' => kb (ix1 d')) d
              * Spec.feat (fun d' => xs (ix2 r d')) (fun d' => vw (ix1 d')) (fun d' => vb (ix1 d')) e := by
  unfold headStep
  refine (shapeCast_ab_1ab_apply _ shapeCasts_S32x32_S1x32x32 (0 : Fin 1) d e).trans ?_
  refine congrArg₂ (· + ·) (shapeCast_1ab_ab_apply s shapeCasts_S1x32x32_S32x32 d e) ((kdot_apply none _ _ d e).trans ?_)
  refine Finset.sum_congr rfl fun r _ => ?_
  exact congrArg₂ (· * ·) (lnfeat_apply xs kw kb r d) (lnfeat_apply xs vw vb r e)

/-- The step against the specification: when the slices are head H's columns of the block and of the four rows,
    the sum is the block's contribution to head H. -/
theorem headStep_contrib (H : Fin 8) (v3 : Vec Ideal S1x4096x256 .f32) (v5 v7 v9 v11 : Vec Ideal S1x256 .f32)
    (xs : FVec Ideal S4096x32 .f32) (kw kb vw vb : FVec Ideal S32 .f32) (s : Vec Ideal S1x32x32 .f32)
    (hx : ∀ (r : Fin 4096) (d' : Fin 32), xs (ix2 r d') = v3 (ix3 (0 : Fin 1) r (Spec.ch H d')))
    (hkw : ∀ d' : Fin 32, kw (ix1 d') = v5 (ix2 (0 : Fin 1) (Spec.ch H d')))
    (hkb : ∀ d' : Fin 32, kb (ix1 d') = v7 (ix2 (0 : Fin 1) (Spec.ch H d')))
    (hvw : ∀ d' : Fin 32, vw (ix1 d') = v9 (ix2 (0 : Fin 1) (Spec.ch H d')))
    (hvb : ∀ d' : Fin 32, vb (ix1 d') = v11 (ix2 (0 : Fin 1) (Spec.ch H d')))
    (d e : Fin 32) :
    headStep xs kw kb vw vb s (ix3 (0 : Fin 1) d e)
      = s (ix3 (0 : Fin 1) d e) + Spec.contrib v3 v5 v7 v9 v11 H d e := by
  refine (headStep_apply xs kw kb vw vb s d e).trans (congrArg (s (ix3 (0 : Fin 1) d e) + ·) ?_)
  unfold Spec.contrib
  refine Finset.sum_congr rfl fun r _ => ?_
  have ex : (fun d' => xs (ix2 r d')) = Spec.blkRow v3 r H := funext (hx r)
  have e1 : (fun d' => kw (ix1 d')) = Spec.wblk v5 H := funext hkw
  have e2 : (fun d' => kb (ix1 d')) = Spec.wblk v7 H := funext hkb
  have e3 : (fun d' => vw (ix1 d')) = Spec.wblk v9 H := funext hvw
  have e4 : (fun d' => vb (ix1 d')) = Spec.wblk v11 H := funext hvb
  rw [ex, e1, e2, e3, e4]

/-- Head 4: its slice is columns 128 … 159 of the block and entries 128 … 159 of each row. -/
theorem head4_apply (v3 : Vec Ideal S1x4096x256 .f32) (v5 v7 v9 v11 : Vec Ideal S1x256 .f32) (s : Vec Ideal S1x32x32 .f32)
    (d e : Fin 32) :
    Cert.KernelIdeal.Hand.head4 v3 v5 v7 v9 v11 s (ix3 (0 : Fin 1) d e)
      = s (ix3 (0 : Fin 1) d e) + Cert.Spec.contrib v3 v5 v7 v9 v11 4 d e := by
  have hcut : Cert.KernelIdeal.Hand.head4 v3 v5 v7 v9 v11 s
      = headStep (extractStridedSlice S4096x32 ![0, 128] (k0_pay3 v3) slices_S4096x256_o0_128_S4096x32)
          (extractStridedSlice S32 ![128] (k0_pay4 v5) slices_S256_o128_S32)
          (extractStridedSlice S32 ![128] (k0_pay5 v7) slices_S256_o128_S32)
          (extractStridedSlice S32 ![128] (k0_pay6 v9) slices_S256_o128_S32)
          (extractStridedSlice S32 ![128] (k0_pay7 v11) slices_S256_o128_S32) s := rfl
  refine (congrFun hcut _).trans ?_
  exact headStep_contrib 4 v3 v5 v7 v9 v11 _ _ _ _ _ s
    (fun r d' => (colSlice_apply 128 _ _ r d' (Spec.ch 4 d') rfl).trans (blk_apply v3 r _))
    (fun d' => (rowSlice_apply 128 _ _ d' (Spec.ch 4 d') rfl).trans (row_apply v5 _))
    (fun d' => (rowSlice_apply 128 _ _ d' (Spec.ch 4 d') rfl).trans (row_apply v7 _))
    (fun d' => (rowSlice_apply 128 _ _ d' (Spec.ch 4 d') rfl).trans (row_apply v9 _))
    (fun d' => (rowSlice_apply 128 _ _ d' (Spec.ch 4 d') rfl).trans (row_apply v11 _)) d e

/-- Head 5: its slice is columns 160 … 191 of the block and entries 160 … 191 of each row. -/
theorem head5_apply (v3 : Vec Ideal S1x4096x256 .f32) (v5 v7 v9 v11 : Vec Ideal S1x256 .f32) (s : Vec Ideal S1x32x32 .f32)
    (d e : Fin 32) :
    Cert.KernelIdeal.Hand.head5 v3 v5 v7 v9 v11 s (ix3 (0 : Fin 1) d e)
      = s (ix3 (0 : Fin 1) d e) + Cert.Spec.contrib v3 v5 v7 v9 v11 5 d e := by
  have hcut : Cert.KernelIdeal.Hand.head5 v3 v5 v7 v9 v11 s
      = headStep (extractStridedSlice S4096x32 ![0, 160] (k0_pay3 v3) slices_S4096x256_o0_160_S4096x32)
          (extractStridedSlice S32 ![160] (k0_pay4 v5) slices_S256_o160_S32)
          (extractStridedSlice S32 ![160] (k0_pay5 v7) slices_S256_o160_S32)
          (extractStridedSlice S32 ![160] (k0_pay6 v9) slices_S256_o160_S32)
          (extractStridedSlice S32 ![160] (k0_pay7 v11) slices_S256_o160_S32) s := rfl
  refine (congrFun hcut _).trans ?_
  exact headStep_contrib 5 v3 v5 v7 v9 v11 _ _ _ _ _ s
    (fun r d' => (colSlice_apply 160 _ _ r d' (Spec.ch 5 d') rfl).trans (blk_apply v3 r _))
    (fun d' => (rowSlice_apply 160 _ _ d' (Spec.ch 5 d') rfl).trans (row_apply v5 _))
    (fun d' => (rowSlice_apply 160 _ _ d' (Spec.ch 5 d') rfl).trans (row_apply v7 _))
    (fun d' => (rowSlice_apply 160 _ _ d' (Spec.ch 5 d') rfl).trans (row_apply v9 _))
    (fun d' => (rowSlice_apply 160 _ _ d' (Spec.ch 5 d') rfl).trans (row_apply v11 _)) d e

/-- Head 6: its slice is columns 192 … 223 of the block and entries 192 … 223 of each row. -/
theorem head6_apply (v3 : Vec Ideal S1x4096x256 .f32) (v5 v7 v9 v11 : Vec Ideal S1x256 .f32) (s : Vec Ideal S1x32x32 .f32)
    (d e : Fin 32) :
    Cert.KernelIdeal.Hand.head6 v3 v5 v7 v9 v11 s (ix3 (0 : Fin 1) d e)
      = s (ix3 (0 : Fin 1) d e) + Cert.Spec.contrib v3 v5 v7 v9 v11 6 d e := by
  have hcut : Cert.KernelIdeal.Hand.head6 v3 v5 v7 v9 v11 s
      = headStep (extractStridedSlice S4096x32 ![0, 192] (k0_pay3 v3) slices_S4096x256_o0_192_S4096x32)
          (extractStridedSlice S32 ![192] (k0_pay4 v5) slices_S256_o192_S32)
          (extractStridedSlice S32 ![192] (k0_pay5 v7) slices_S256_o192_S32)
          (extractStridedSlice S32 ![192] (k0_pay6 v9) slices_S256_o192_S32)
          (extractStridedSlice S32 ![192] (k0_pay7 v11) slices_S256_o192_S32) s := rfl
  refine (congrFun hcut _).trans ?_
  exact headStep_contrib 6 v3 v5 v7 v9 v11 _ _ _ _ _ s
    (fun r d' => (colSlice_apply 192 _ _ r d' (Spec.ch 6 d') rfl).trans (blk_apply v3 r _))
    (fun d' => (rowSlice_apply 192 _ _ d' (Spec.ch 6 d') rfl).trans (row_apply v5 _))
    (fun d' => (rowSlice_apply 192 _ _ d' (Spec.ch 6 d') rfl).trans (row_apply v7 _))
    (fun d' => (rowSlice_apply 192 _ _ d' (Spec.ch 6 d') rfl).trans (row_apply v9 _))
    (fun d' => (rowSlice_apply 192 _ _ d' (Spec.ch 6 d') rfl).trans (row_apply v11 _)) d e

/-- Head 7: its slice is columns 224 … 255 of the block and entries 224 … 255 of each row. -/
theorem head7_apply (v3 : Vec Ideal S1x4096x256 .f32) (v5 v7 v9 v11 : Vec Ideal S1x256 .f32) (s : Vec Ideal S1x32x32 .f32)
    (d e : Fin 32) :
    Cert.KernelIdeal.Hand.head7 v3 v5 v7 v9 v11 s (ix3 (0 : Fin 1) d e)
      = s (ix3 (0 : Fin 1) d e) + Cert.Spec.contrib v3 v5 v7 v9 v11 7 d e := by
  have hcut : Cert.KernelIdeal.Hand.head7 v3 v5 v7 v9 v11 s
      = headStep (extractStridedSlice S4096x32 ![0, 224] (k0_pay3 v3) slices_S4096x256_o0_224_S4096x32)
          (extractStridedSlice S32 ![224] (k0_pay4 v5) slices_S256_o224_S32)
          (extractStridedSlice S32 ![224] (k0_pay5 v7) slices_S256_o224_S32)
          (extractStridedSlice S32 ![224] (k0_pay6 v9) slices_S256_o224_S32)
          (extractStridedSlice S32 ![224] (k0_pay7 v11) slices_S256_o224_S32) s := rfl
  refine (congrFun hcut _).trans ?_
  exact headStep_contrib 7 v3 v5 v7 v9 v11 _ _ _ _ _ s
    (fun r d' => (colSlice_apply 224 _ _ r d' (Spec.ch 7 d') rfl).trans (blk_apply v3 r _))
    (fun d' => (rowSlice_apply 224 _ _ d' (Spec.ch 7 d') rfl).trans (row_apply v5 _))
    (fun d' => (rowSlice_apply 224 _ _ d' (Spec.ch 7 d') rfl).trans (row_apply v7 _))
    (fun d' => (rowSlice_apply 224 _ _ d' (Spec.ch 7 d') rfl).trans (row_apply v9 _))
    (fun d' => (rowSlice_apply 224 _ _ d' (Spec.ch 7 d') rfl).trans (row_apply v11 _)) d e

end Cert.KernelIdeal.Pay

end
-- ==== Proof.Ideal.PayEnds.lean ====
/-
  The two stores that open and close a batch's accumulation, each read at one entry.

  The block stored at a batch's first token block is zero everywhere; the block stored at its last is the
  [8, 32, 32] accumulator, entry by entry, times the word 2⁻¹⁵, laid out under one leading unit axis.
-/
import proofs.«133594_j5471788335757_1_alg».proof.Proof.K.Pieces
import proofs.«133594_j5471788335757_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- The opening block is zero at every entry: the zero word spread over [8, 32, 32]. -/
theorem resetPay_apply (h : Fin 8) (d e : Fin 32) :
    (Cert.KernelIdeal.Hand.resetPay (F := Ideal)) (ix3 h d e) = 0 := by
  unfold Cert.KernelIdeal.Hand.resetPay k0_pay2
  rw [shapeCast_self]
  exact Ideal.ofBits_zero_f32

/-- The closing block at (0, h, d, e) is the accumulator's entry (h, d, e) times 2⁻¹⁵. -/
theorem finalPay_apply (sc : Vec Ideal S8x32x32 .f32) (h : Fin 8) (d e : Fin 32) :
    Cert.KernelIdeal.Hand.finalPay sc (ix4 (0 : Fin 1) h d e) = sc (ix3 h d e) * Cert.Spec.cinvN := by
  unfold Cert.KernelIdeal.Hand.finalPay k0_pay1
  refine (shapeCast_abc_1abc_apply _ _ (0 : Fin 1) h d e).trans ?_
  rfl

end Cert.KernelIdeal.Pay

end
-- ==== Proof.Ideal.R0Open.lean ====
/-
  What each case of the key–value kernel's body leaves, read as values. The accumulator is [8, 32, 32]: slice h is
  head h's [32, 32] block. At every point the body stores, for each head h, over slice h alone, the slice as it
  loaded it plus the head's contraction of the point's 4096 rows. At a batch's first token block the zero block is
  stored over the whole accumulator first, so each slice is loaded as zero; otherwise the slices are loaded from what
  the point before left. At a batch's last token block the whole accumulator, after the eight stores, is stored
  scaled by 2⁻¹⁵ over the output block. The eight slices are disjoint, so reading the stores back at head h's entry
  (d, e) finds store h; the stored values are the head lemmas'.
-/
import proofs.«133594_j5471788335757_1_alg».proof.Proof.K.R0Dat
import proofs.«133594_j5471788335757_1_alg».proof.Proof.Ideal.Pay0a
import proofs.«133594_j5471788335757_1_alg».proof.Proof.Ideal.Pay0b
import proofs.«133594_j5471788335757_1_alg».proof.Proof.Ideal.PayEnds

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Hand

/-! ## Geometry: the eight [1, 32, 32] slices of the [8, 32, 32] accumulator -/

section Geometry

variable {Val : EltTy → Type} [∀ e, Nonempty (Val e)]

/-- Slice K's entry (0, d, e) is the accumulator's entry (K, d, e). -/
theorem slice_emb (K : ℕ) (inb : ∀ a, (![K, 0, 0] : Fin 3 → ℕ) a + S1x32x32.size a ≤ S8x32x32.size a)
    (h : Fin 8) (hK : h.val = K) (d e : Fin 32) :
    (Rect.unit (s := S8x32x32) ![K, 0, 0] S1x32x32.size inb).emb (ix3 (0 : Fin 1) d e) = ix3 h d e := by
  subst hK
  funext a
  match a with
  | ⟨0, _⟩ => exact Fin.ext (by simp [Rect.emb_apply])
  | ⟨1, _⟩ => exact Fin.ext (by simp [Rect.emb_apply])
  | ⟨2, _⟩ => exact Fin.ext (by simp [Rect.emb_apply])

/-- An entry of head h lies in slice K only when h = K. -/
theorem not_mem_slice (K : ℕ) (inb : ∀ a, (![K, 0, 0] : Fin 3 → ℕ) a + S1x32x32.size a ≤ S8x32x32.size a)
    (h : Fin 8) (hK : h.val ≠ K) (d e : Fin 32) :
    ix3 h d e ∉ (Rect.unit (s := S8x32x32) ![K, 0, 0] S1x32x32.size inb).set := by
  rw [Rect.mem_set_unit]
  intro hm
  obtain ⟨hlo, hhi⟩ := hm (0 : Fin 3)
  have hlo' : K ≤ h.val := hlo
  have hhi' : h.val < K + 1 := hhi
  omega

/-- A store over slice K, made last, is what is read at head K's entries; -/
theorem canon_hit (K : ℕ) (inb : ∀ a, (![K, 0, 0] : Fin 3 → ℕ) a + S1x32x32.size a ≤ S8x32x32.size a)
    (w : (Rect.unit (s := S8x32x32) ![K, 0, 0] S1x32x32.size inb).shape.Idx → Val .f32)
    (L : List (View.Piece Val S8x32x32 .f32)) (h : Fin 8) (hK : h.val = K) (d e : Fin 32) :
    View.canon (⟨Rect.unit (s := S8x32x32) ![K, 0, 0] S1x32x32.size inb, w⟩ :: L) (ix3 h d e) = w (ix3 (0 : Fin 1) d e) := by
  rw [← slice_emb K inb h hK d e]
  exact View.canon_cons_emb _ w L _

/-- at the other heads' entries the earlier stores are read. -/
theorem canon_skip (K : ℕ) (inb : ∀ a, (![K, 0, 0] : Fin 3 → ℕ) a + S1x32x32.size a ≤ S8x32x32.size a)
    (w : (Rect.unit (s := S8x32x32) ![K, 0, 0] S1x32x32.size inb).shape.Idx → Val .f32)
    (L : List (View.Piece Val S8x32x32 .f32)) (h : Fin 8) (hK : h.val ≠ K) (d e : Fin 32) :
    View.canon (⟨Rect.unit (s := S8x32x32) ![K, 0, 0] S1x32x32.size inb, w⟩ :: L) (ix3 h d e) = View.canon L (ix3 h d e) :=
  View.canon_cons_of_not_mem _ L (not_mem_slice K inb h hK d e)

/-- A load of slice K after the stores L reads what L left at head K's entries. -/
theorem readCov_slice (v : View sig .tc .vmem S8x32x32 .f32) (K : ℕ)
    (inb : ∀ a, (![K, 0, 0] : Fin 3 → ℕ) a + S1x32x32.size a ≤ S8x32x32.size a)
    (L : List (View.Piece Val S8x32x32 .f32)) (h : Fin 8) (hK : h.val = K) (d e : Fin 32) :
    v.readCov L (Rect.unit (s := S8x32x32) ![K, 0, 0] S1x32x32.size inb).toLoadRect (ix3 (0 : Fin 1) d e) = View.canon L (ix3 h d e) := by
  rw [View.readCov_eq_canon', ← slice_emb K inb h hK d e]
  rfl

/-- A load of slice K of a whole buffer holding xs reads xs at head K's entries. -/
theorem readAt_slice (m : Memref sig .tc .vmem S8x32x32 .f32) (hm : m.IsWhole) (xs : S8x32x32.Idx → Val .f32) (K : ℕ)
    (inb : ∀ a, (![K, 0, 0] : Fin 3 → ℕ) a + S1x32x32.size a ≤ S8x32x32.size a)
    (h : Fin 8) (hK : h.val = K) (d e : Fin 32) :
    View.readAt Val m.view (Rect.unit (s := S8x32x32) ![K, 0, 0] S1x32x32.size inb).toLoadRect (hm.unread xs) (ix3 (0 : Fin 1) d e) = xs (ix3 h d e) := by
  rw [View.readAt_apply, hm.read_unread, ← slice_emb K inb h hK d e]
  rfl

/-- A load of a whole buffer holding x, through the whole-shape rectangle, reads x. -/
theorem readAt_whole {S : Shape} (m : Memref sig .tc .vmem S .f32) (hm : m.IsWhole) (x : S.Idx → Val .f32)
    {off : Fin S.rank → ℕ} (hz : off = fun _ => 0) (inb : ∀ a, off a + S.size a ≤ S.size a) :
    View.readAt Val m.view (Rect.unit off S.size inb).toLoadRect (hm.unread x) = x := by
  rw [View.readAt_eq_ld, hm.read_unread, View.ld_unit_zero hz]

end Geometry

/-- The zero offsets of a whole-block load, as the constant function. -/
theorem hz3 : (![0, 0, 0] : Fin 3 → ℕ) = fun _ => 0 := by funext a; fin_cases a <;> rfl
theorem hz2 : (![0, 0] : Fin 2 → ℕ) = fun _ => 0 := by funext a; fin_cases a <;> rfl
theorem hz4 : (![0, 0, 0, 0] : Fin 4 → ℕ) = fun _ => 0 := by funext a; fin_cases a <;> rfl

/-! ## A point with token block n = 0 -/

/-- What a point with n = 0 leaves in the accumulator, at head h's entry (d, e): the zero block is stored first, so
    every slice is loaded as zero; the eight stores are over the eight disjoint slices, and store h holds
    0 + head h's contraction. -/
theorem sout_A_apply (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : cond0_0 i) (hc1 : ¬cond0_1 i)
    (x0 : Vec Ideal S1x4096x256 .f32) (x1 x2 x3 x4 : Vec Ideal S1x256 .f32) (h : Fin 8) (d e : Fin 32) :
    sout0_A_0 c i arg2 harg2 arg3 harg3 arg4 harg4 arg5 harg5 arg6 harg6 arg7 harg7 arg8 harg8 hc0 hc1 x0 x1 x2 x3 x4 (ix3 h d e) = 0 + Cert.Spec.contrib x0 x1 x2 x3 x4 h d e := by
  unfold sout0_A_0
  refine (congrFun (View.read_writes_junk_eq_canon _ _) _).trans ?_
  unfold kernelRun0_A
  dsimp only
  obtain ⟨hv, hlt⟩ := h
  interval_cases hv
  · -- head 0
    refine (canon_skip (Val := Elt Ideal) 7 _ _ _ ⟨0, hlt⟩ (show (0 : ℕ) ≠ 7 by decide) d e).trans ?_
    unfold kernelRun0_A.sl.HS0_8
    refine (canon_skip (Val := Elt Ideal) 6 _ _ _ ⟨0, hlt⟩ (show (0 : ℕ) ≠ 6 by decide) d e).trans ?_
    unfold kernelRun0_A.sl.HS0_7
    refine (canon_skip (Val := Elt Ideal) 5 _ _ _ ⟨0, hlt⟩ (show (0 : ℕ) ≠ 5 by decide) d e).trans ?_
    unfold kernelRun0_A.sl.HS0_6
    refine (canon_skip (Val := Elt Ideal) 4 _ _ _ ⟨0, hlt⟩ (show (0 : ℕ) ≠ 4 by decide) d e).trans ?_
    unfold kernelRun0_A.sl.HS0_5
    refine (canon_skip (Val := Elt Ideal) 3 _ _ _ ⟨0, hlt⟩ (show (0 : ℕ) ≠ 3 by decide) d e).trans ?_
    unfold kernelRun0_A.sl.HS0_4
    refine (canon_skip (Val := Elt Ideal) 2 _ _ _ ⟨0, hlt⟩ (show (0 : ℕ) ≠ 2 by decide) d e).trans ?_
    unfold kernelRun0_A.sl.HS0_3
    refine (canon_skip (Val := Elt Ideal) 1 _ _ _ ⟨0, hlt⟩ (show (0 : ℕ) ≠ 1 by decide) d e).trans ?_
    unfold kernelRun0_A.sl.HS0_2
    refine (canon_hit (Val := Elt Ideal) 0 _ _ _ ⟨0, hlt⟩ rfl d e).trans ?_
    have hv : (kernelRun0_A.sl.v49 (F := Ideal) c arg8) (ix3 (0 : Fin 1) d e) = 0 := by
      unfold kernelRun0_A.sl.v49
      refine (readCov_slice (Val := Elt Ideal) arg8.view 0 _ _ ⟨0, hlt⟩ rfl d e).trans ?_
      unfold kernelRun0_A.sl.HS0_1
      exact (congrFun (View.canon_unit_zero hz3 _ _) _).trans (Pay.resetPay_apply ⟨0, hlt⟩ d e)
    generalize (kernelRun0_A.sl.v49 (F := Ideal) c arg8) = s at hv ⊢
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head0_apply x0 x1 x2 x3 x4 s d e).trans ?_
    exact congrArg (· + _) hv
  · -- head 1
    refine (canon_skip (Val := Elt Ideal) 7 _ _ _ ⟨1, hlt⟩ (show (1 : ℕ) ≠ 7 by decide) d e).trans ?_
    unfold kernelRun0_A.sl.HS0_8
    refine (canon_skip (Val := Elt Ideal) 6 _ _ _ ⟨1, hlt⟩ (show (1 : ℕ) ≠ 6 by decide) d e).trans ?_
    unfold kernelRun0_A.sl.HS0_7
    refine (canon_skip (Val := Elt Ideal) 5 _ _ _ ⟨1, hlt⟩ (show (1 : ℕ) ≠ 5 by decide) d e).trans ?_
    unfold kernelRun0_A.sl.HS0_6
    refine (canon_skip (Val := Elt Ideal) 4 _ _ _ ⟨1, hlt⟩ (show (1 : ℕ) ≠ 4 by decide) d e).trans ?_
    unfold kernelRun0_A.sl.HS0_5
    refine (canon_skip (Val := Elt Ideal) 3 _ _ _ ⟨1, hlt⟩ (show (1 : ℕ) ≠ 3 by decide) d e).trans ?_
    unfold kernelRun0_A.sl.HS0_4
    refine (canon_skip (Val := Elt Ideal) 2 _ _ _ ⟨1, hlt⟩ (show (1 : ℕ) ≠ 2 by decide) d e).trans ?_
    unfold kernelRun0_A.sl.HS0_3
    refine (canon_hit (Val := Elt Ideal) 1 _ _ _ ⟨1, hlt⟩ rfl d e).trans ?_
    have hv : (kernelRun0_A.sl.v91 c arg2 harg2 arg3 harg3 arg4 harg4 arg5 harg5 arg6 harg6 arg8 x0 x1 x2 x3 x4) (ix3 (0 : Fin 1) d e) = 0 := by
      unfold kernelRun0_A.sl.v91
      refine (readCov_slice (Val := Elt Ideal) arg8.view 1 _ _ ⟨1, hlt⟩ rfl d e).trans ?_
      unfold kernelRun0_A.sl.HS0_2
      refine (canon_skip (Val := Elt Ideal) 0 _ _ _ ⟨1, hlt⟩ (show (1 : ℕ) ≠ 0 by decide) d e).trans ?_
      unfold kernelRun0_A.sl.HS0_1
      exact (congrFun (View.canon_unit_zero hz3 _ _) _).trans (Pay.resetPay_apply ⟨1, hlt⟩ d e)
    generalize (kernelRun0_A.sl.v91 c arg2 harg2 arg3 harg3 arg4 harg4 arg5 harg5 arg6 harg6 arg8 x0 x1 x2 x3 x4) = s at hv ⊢
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head1_apply x0 x1 x2 x3 x4 s d e).trans ?_
    exact congrArg (· + _) hv
  · -- head 2
    refine (canon_skip (Val := Elt Ideal) 7 _ _ _ ⟨2, hlt⟩ (show (2 : ℕ) ≠ 7 by decide) d e).trans ?_
    unfold kernelRun0_A.sl.HS0_8
    refine (canon_skip (Val := Elt Ideal) 6 _ _ _ ⟨2, hlt⟩ (show (2 : ℕ) ≠ 6 by decide) d e).trans ?_
    unfold kernelRun0_A.sl.HS0_7
    refine (canon_skip (Val := Elt Ideal) 5 _ _ _ ⟨2, hlt⟩ (show (2 : ℕ) ≠ 5 by decide) d e).trans ?_
    unfold kernelRun0_A.sl.HS0_6
    refine (canon_skip (Val := Elt Ideal) 4 _ _ _ ⟨2, hlt⟩ (show (2 : ℕ) ≠ 4 by decide) d e).trans ?_
    unfold kernelRun0_A.sl.HS0_5
    refine (canon_skip (Val := Elt Ideal) 3 _ _ _ ⟨2, hlt⟩ (show (2 : ℕ) ≠ 3 by decide) d e).trans ?_
    unfold kernelRun0_A.sl.HS0_4
    refine (canon_hit (Val := Elt Ideal) 2 _ _ _ ⟨2, hlt⟩ rfl d e).trans ?_
    have hv : (kernelRun0_A.sl.v133 c arg2 harg2 arg3 harg3 arg4 harg4 arg5 harg5 arg6 harg6 arg8 x0 x1 x2 x3 x4) (ix3 (0 : Fin 1) d e) = 0 := by
      unfold kernelRun0_A.sl.v133
      refine (readCov_slice (Val := Elt Ideal) arg8.view 2 _ _ ⟨2, hlt⟩ rfl d e).trans ?_
      unfold kernelRun0_A.sl.HS0_3
      refine (canon_skip (Val := Elt Ideal) 1 _ _ _ ⟨2, hlt⟩ (show (2 : ℕ) ≠ 1 by decide) d e).trans ?_
      unfold kernelRun0_A.sl.HS0_2
      refine (canon_skip (Val := Elt Ideal) 0 _ _ _ ⟨2, hlt⟩ (show (2 : ℕ) ≠ 0 by decide) d e).trans ?_
      unfold kernelRun0_A.sl.HS0_1
      exact (congrFun (View.canon_unit_zero hz3 _ _) _).trans (Pay.resetPay_apply ⟨2, hlt⟩ d e)
    generalize (kernelRun0_A.sl.v133 c arg2 harg2 arg3 harg3 arg4 harg4 arg5 harg5 arg6 harg6 arg8 x0 x1 x2 x3 x4) = s at hv ⊢
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head2_apply x0 x1 x2 x3 x4 s d e).trans ?_
    exact congrArg (· + _) hv
  · -- head 3
    refine (canon_skip (Val := Elt Ideal) 7 _ _ _ ⟨3, hlt⟩ (show (3 : ℕ) ≠ 7 by decide) d e).trans ?_
    unfold kernelRun0_A.sl.HS0_8
    refine (canon_skip (Val := Elt Ideal) 6 _ _ _ ⟨3, hlt⟩ (show (3 : ℕ) ≠ 6 by decide) d e).trans ?_
    unfold kernelRun0_A.sl.HS0_7
    refine (canon_skip (Val := Elt Ideal) 5 _ _ _ ⟨3, hlt⟩ (show (3 : ℕ) ≠ 5 by decide) d e).trans ?_
    unfold kernelRun0_A.sl.HS0_6
    refine (canon_skip (Val := Elt Ideal) 4 _ _ _ ⟨3, hlt⟩ (show (3 : ℕ) ≠ 4 by decide) d e).trans ?_
    unfold kernelRun0_A.sl.HS0_5
    refine (canon_hit (Val := Elt Ideal) 3 _ _ _ ⟨3, hlt⟩ rfl d e).trans ?_
    have hv : (kernelRun0_A.sl.v175 c arg2 harg2 arg3 harg3 arg4 harg4 arg5 harg5 arg6 harg6 arg8 x0 x1 x2 x3 x4) (ix3 (0 : Fin 1) d e) = 0 := by
      unfold kernelRun0_A.sl.v175
      refine (readCov_slice (Val := Elt Ideal) arg8.view 3 _ _ ⟨3, hlt⟩ rfl d e).trans ?_
      unfold kernelRun0_A.sl.HS0_4
      refine (canon_skip (Val := Elt Ideal) 2 _ _ _ ⟨3, hlt⟩ (show (3 : ℕ) ≠ 2 by decide) d e).trans ?_
      unfold kernelRun0_A.sl.HS0_3
      refine (canon_skip (Val := Elt Ideal) 1 _ _ _ ⟨3, hlt⟩ (show (3 : ℕ) ≠ 1 by decide) d e).trans ?_
      unfold kernelRun0_A.sl.HS0_2
      refine (canon_skip (Val := Elt Ideal) 0 _ _ _ ⟨3, hlt⟩ (show (3 : ℕ) ≠ 0 by decide) d e).trans ?_
      unfold kernelRun0_A.sl.HS0_1
      exact (congrFun (View.canon_unit_zero hz3 _ _) _).trans (Pay.resetPay_apply ⟨3, hlt⟩ d e)
    generalize (kernelRun0_A.sl.v175 c arg2 harg2 arg3 harg3 arg4 harg4 arg5 harg5 arg6 harg6 arg8 x0 x1 x2 x3 x4) = s at hv ⊢
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head3_apply x0 x1 x2 x3 x4 s d e).trans ?_
    exact congrArg (· + _) hv
  · -- head 4
    refine (canon_skip (Val := Elt Ideal) 7 _ _ _ ⟨4, hlt⟩ (show (4 : ℕ) ≠ 7 by decide) d e).trans ?_
    unfold kernelRun0_A.sl.HS0_8
    refine (canon_skip (Val := Elt Ideal) 6 _ _ _ ⟨4, hlt⟩ (show (4 : ℕ) ≠ 6 by decide) d e).trans ?_
    unfold kernelRun0_A.sl.HS0_7
    refine (canon_skip (Val := Elt Ideal) 5 _ _ _ ⟨4, hlt⟩ (show (4 : ℕ) ≠ 5 by decide) d e).trans ?_
    unfold kernelRun0_A.sl.HS0_6
    refine (canon_hit (Val := Elt Ideal) 4 _ _ _ ⟨4, hlt⟩ rfl d e).trans ?_
    have hv : (kernelRun0_A.sl.v217 c arg2 harg2 arg3 harg3 arg4 harg4 arg5 harg5 arg6 harg6 arg8 x0 x1 x2 x3 x4) (ix3 (0 : Fin 1) d e) = 0 := by
      unfold kernelRun0_A.sl.v217
      refine (readCov_slice (Val := Elt Ideal) arg8.view 4 _ _ ⟨4, hlt⟩ rfl d e).trans ?_
      unfold kernelRun0_A.sl.HS0_5
      refine (canon_skip (Val := Elt Ideal) 3 _ _ _ ⟨4, hlt⟩ (show (4 : ℕ) ≠ 3 by decide) d e).trans ?_
      unfold kernelRun0_A.sl.HS0_4
      refine (canon_skip (Val := Elt Ideal) 2 _ _ _ ⟨4, hlt⟩ (show (4 : ℕ) ≠ 2 by decide) d e).trans ?_
      unfold kernelRun0_A.sl.HS0_3
      refine (canon_skip (Val := Elt Ideal) 1 _ _ _ ⟨4, hlt⟩ (show (4 : ℕ) ≠ 1 by decide) d e).trans ?_
      unfold kernelRun0_A.sl.HS0_2
      refine (canon_skip (Val := Elt Ideal) 0 _ _ _ ⟨4, hlt⟩ (show (4 : ℕ) ≠ 0 by decide) d e).trans ?_
      unfold kernelRun0_A.sl.HS0_1
      exact (congrFun (View.canon_unit_zero hz3 _ _) _).trans (Pay.resetPay_apply ⟨4, hlt⟩ d e)
    unfold kernelRun0_A.sl.r_16
    generalize (kernelRun0_A.sl.v217 c arg2 harg2 arg3 harg3 arg4 harg4 arg5 harg5 arg6 harg6 arg8 x0 x1 x2 x3 x4) = s at hv ⊢
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head4_apply x0 x1 x2 x3 x4 s d e).trans ?_
    exact congrArg (· + _) hv
  · -- head 5
    refine (canon_skip (Val := Elt Ideal) 7 _ _ _ ⟨5, hlt⟩ (show (5 : ℕ) ≠ 7 by decide) d e).trans ?_
    unfold kernelRun0_A.sl.HS0_8
    refine (canon_skip (Val := Elt Ideal) 6 _ _ _ ⟨5, hlt⟩ (show (5 : ℕ) ≠ 6 by decide) d e).trans ?_
    unfold kernelRun0_A.sl.HS0_7
    refine (canon_hit (Val := Elt Ideal) 5 _ _ _ ⟨5, hlt⟩ rfl d e).trans ?_
    have hv : (kernelRun0_A.sl.v259 c arg2 harg2 arg3 harg3 arg4 harg4 arg5 harg5 arg6 harg6 arg8 x0 x1 x2 x3 x4) (ix3 (0 : Fin 1) d e) = 0 := by
      unfold kernelRun0_A.sl.v259
      refine (readCov_slice (Val := Elt Ideal) arg8.view 5 _ _ ⟨5, hlt⟩ rfl d e).trans ?_
      unfold kernelRun0_A.sl.HS0_6
      refine (canon_skip (Val := Elt Ideal) 4 _ _ _ ⟨5, hlt⟩ (show (5 : ℕ) ≠ 4 by decide) d e).trans ?_
      unfold kernelRun0_A.sl.HS0_5
      refine (canon_skip (Val := Elt Ideal) 3 _ _ _ ⟨5, hlt⟩ (show (5 : ℕ) ≠ 3 by decide) d e).trans ?_
      unfold kernelRun0_A.sl.HS0_4
      refine (canon_skip (Val := Elt Ideal) 2 _ _ _ ⟨5, hlt⟩ (show (5 : ℕ) ≠ 2 by decide) d e).trans ?_
      unfold kernelRun0_A.sl.HS0_3
      refine (canon_skip (Val := Elt Ideal) 1 _ _ _ ⟨5, hlt⟩ (show (5 : ℕ) ≠ 1 by decide) d e).trans ?_
      unfold kernelRun0_A.sl.HS0_2
      refine (canon_skip (Val := Elt Ideal) 0 _ _ _ ⟨5, hlt⟩ (show (5 : ℕ) ≠ 0 by decide) d e).trans ?_
      unfold kernelRun0_A.sl.HS0_1
      exact (congrFun (View.canon_unit_zero hz3 _ _) _).trans (Pay.resetPay_apply ⟨5, hlt⟩ d e)
    generalize (kernelRun0_A.sl.v259 c arg2 harg2 arg3 harg3 arg4 harg4 arg5 harg5 arg6 harg6 arg8 x0 x1 x2 x3 x4) = s at hv ⊢
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head5_apply x0 x1 x2 x3 x4 s d e).trans ?_
    exact congrArg (· + _) hv
  · -- head 6
    refine (canon_skip (Val := Elt Ideal) 7 _ _ _ ⟨6, hlt⟩ (show (6 : ℕ) ≠ 7 by decide) d e).trans ?_
    unfold kernelRun0_A.sl.HS0_8
    refine (canon_hit (Val := Elt Ideal) 6 _ _ _ ⟨6, hlt⟩ rfl d e).trans ?_
    have hv : (kernelRun0_A.sl.v301 c arg2 harg2 arg3 harg3 arg4 harg4 arg5 harg5 arg6 harg6 arg8 x0 x1 x2 x3 x4) (ix3 (0 : Fin 1) d e) = 0 := by
      unfold kernelRun0_A.sl.v301
      refine (readCov_slice (Val := Elt Ideal) arg8.view 6 _ _ ⟨6, hlt⟩ rfl d e).trans ?_
      unfold kernelRun0_A.sl.HS0_7
      refine (canon_skip (Val := Elt Ideal) 5 _ _ _ ⟨6, hlt⟩ (show (6 : ℕ) ≠ 5 by decide) d e).trans ?_
      unfold kernelRun0_A.sl.HS0_6
      refine (canon_skip (Val := Elt Ideal) 4 _ _ _ ⟨6, hlt⟩ (show (6 : ℕ) ≠ 4 by decide) d e).trans ?_
      unfold kernelRun0_A.sl.HS0_5
      refine (canon_skip (Val := Elt Ideal) 3 _ _ _ ⟨6, hlt⟩ (show (6 : ℕ) ≠ 3 by decide) d e).trans ?_
      unfold kernelRun0_A.sl.HS0_4
      refine (canon_skip (Val := Elt Ideal) 2 _ _ _ ⟨6, hlt⟩ (show (6 : ℕ) ≠ 2 by decide) d e).trans ?_
      unfold kernelRun0_A.sl.HS0_3
      refine (canon_skip (Val := Elt Ideal) 1 _ _ _ ⟨6, hlt⟩ (show (6 : ℕ) ≠ 1 by decide) d e).trans ?_
      unfold kernelRun0_A.sl.HS0_2
      refine (canon_skip (Val := Elt Ideal) 0 _ _ _ ⟨6, hlt⟩ (show (6 : ℕ) ≠ 0 by decide) d e).trans ?_
      unfold kernelRun0_A.sl.HS0_1
      exact (congrFun (View.canon_unit_zero hz3 _ _) _).trans (Pay.resetPay_apply ⟨6, hlt⟩ d e)
    generalize (kernelRun0_A.sl.v301 c arg2 harg2 arg3 harg3 arg4 harg4 arg5 harg5 arg6 harg6 arg8 x0 x1 x2 x3 x4) = s at hv ⊢
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head6_apply x0 x1 x2 x3 x4 s d e).trans ?_
    exact congrArg (· + _) hv
  · -- head 7
    refine (canon_hit (Val := Elt Ideal) 7 _ _ _ ⟨7, hlt⟩ rfl d e).trans ?_
    have hv : (kernelRun0_A.sl.v343 c arg2 harg2 arg3 harg3 arg4 harg4 arg5 harg5 arg6 harg6 arg8 x0 x1 x2 x3 x4) (ix3 (0 : Fin 1) d e) = 0 := by
      unfold kernelRun0_A.sl.v343
      refine (readCov_slice (Val := Elt Ideal) arg8.view 7 _ _ ⟨7, hlt⟩ rfl d e).trans ?_
      unfold kernelRun0_A.sl.HS0_8
      refine (canon_skip (Val := Elt Ideal) 6 _ _ _ ⟨7, hlt⟩ (show (7 : ℕ) ≠ 6 by decide) d e).trans ?_
      unfold kernelRun0_A.sl.HS0_7
      refine (canon_skip (Val := Elt Ideal) 5 _ _ _ ⟨7, hlt⟩ (show (7 : ℕ) ≠ 5 by decide) d e).trans ?_
      unfold kernelRun0_A.sl.HS0_6
      refine (canon_skip (Val := Elt Ideal) 4 _ _ _ ⟨7, hlt⟩ (show (7 : ℕ) ≠ 4 by decide) d e).trans ?_
      unfold kernelRun0_A.sl.HS0_5
      refine (canon_skip (Val := Elt Ideal) 3 _ _ _ ⟨7, hlt⟩ (show (7 : ℕ) ≠ 3 by decide) d e).trans ?_
      unfold kernelRun0_A.sl.HS0_4
      refine (canon_skip (Val := Elt Ideal) 2 _ _ _ ⟨7, hlt⟩ (show (7 : ℕ) ≠ 2 by decide) d e).trans ?_
      unfold kernelRun0_A.sl.HS0_3
      refine (canon_skip (Val := Elt Ideal) 1 _ _ _ ⟨7, hlt⟩ (show (7 : ℕ) ≠ 1 by decide) d e).trans ?_
      unfold kernelRun0_A.sl.HS0_2
      refine (canon_skip (Val := Elt Ideal) 0 _ _ _ ⟨7, hlt⟩ (show (7 : ℕ) ≠ 0 by decide) d e).trans ?_
      unfold kernelRun0_A.sl.HS0_1
      exact (congrFun (View.canon_unit_zero hz3 _ _) _).trans (Pay.resetPay_apply ⟨7, hlt⟩ d e)
    generalize (kernelRun0_A.sl.v343 c arg2 harg2 arg3 harg3 arg4 harg4 arg5 harg5 arg6 harg6 arg8 x0 x1 x2 x3 x4) = s at hv ⊢
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head7_apply x0 x1 x2 x3 x4 s d e).trans ?_
    exact congrArg (· + _) hv

/-! ## A point with token block n = 7 -/

/-- The eight stores of a point whose accumulator arrives at xs, read at head h's entry (d, e): the stores are over
    the eight disjoint slices, store h holds head h's new slice, computed from slice h of xs. -/
theorem canonC_apply (c : Dev nD) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg8 : Memref sig .tc .vmem S8x32x32 .f32) (harg8 : arg8.IsWhole) (x0 : Vec Ideal S1x4096x256 .f32) (x1 x2 x3 x4 : Vec Ideal S1x256 .f32) (xs : Vec Ideal S8x32x32 .f32) (h : Fin 8) (d e : Fin 32) :
    View.canon (kernelRun0_C.sl.HS0_8 c arg2 harg2 arg3 harg3 arg4 harg4 arg5 harg5 arg6 harg6 arg8 harg8 x0 x1 x2 x3 x4 xs) (ix3 h d e)
      = xs (ix3 h d e) + Cert.Spec.contrib x0 x1 x2 x3 x4 h d e := by
  unfold kernelRun0_C.sl.HS0_8
  obtain ⟨hv, hlt⟩ := h
  interval_cases hv
  · -- head 0
    refine (canon_skip (Val := Elt Ideal) 7 _ _ _ ⟨0, hlt⟩ (show (0 : ℕ) ≠ 7 by decide) d e).trans ?_
    refine (canon_skip (Val := Elt Ideal) 6 _ _ _ ⟨0, hlt⟩ (show (0 : ℕ) ≠ 6 by decide) d e).trans ?_
    refine (canon_skip (Val := Elt Ideal) 5 _ _ _ ⟨0, hlt⟩ (show (0 : ℕ) ≠ 5 by decide) d e).trans ?_
    refine (canon_skip (Val := Elt Ideal) 4 _ _ _ ⟨0, hlt⟩ (show (0 : ℕ) ≠ 4 by decide) d e).trans ?_
    refine (canon_skip (Val := Elt Ideal) 3 _ _ _ ⟨0, hlt⟩ (show (0 : ℕ) ≠ 3 by decide) d e).trans ?_
    refine (canon_skip (Val := Elt Ideal) 2 _ _ _ ⟨0, hlt⟩ (show (0 : ℕ) ≠ 2 by decide) d e).trans ?_
    refine (canon_skip (Val := Elt Ideal) 1 _ _ _ ⟨0, hlt⟩ (show (0 : ℕ) ≠ 1 by decide) d e).trans ?_
    refine (canon_hit (Val := Elt Ideal) 0 _ _ _ ⟨0, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head0_apply x0 x1 x2 x3 x4 (View.readAt (Elt Ideal) arg8.view (Rect.unit (s := S8x32x32) ![0, 0, 0] S1x32x32.size inb_S8x32x32_S1x32x32_0_0_0).toLoadRect (harg8.unread xs)) d e).trans ?_
    exact congrArg (· + _) (readAt_slice (Val := Elt Ideal) arg8 harg8 xs 0 _ ⟨0, hlt⟩ rfl d e)
  · -- head 1
    refine (canon_skip (Val := Elt Ideal) 7 _ _ _ ⟨1, hlt⟩ (show (1 : ℕ) ≠ 7 by decide) d e).trans ?_
    refine (canon_skip (Val := Elt Ideal) 6 _ _ _ ⟨1, hlt⟩ (show (1 : ℕ) ≠ 6 by decide) d e).trans ?_
    refine (canon_skip (Val := Elt Ideal) 5 _ _ _ ⟨1, hlt⟩ (show (1 : ℕ) ≠ 5 by decide) d e).trans ?_
    refine (canon_skip (Val := Elt Ideal) 4 _ _ _ ⟨1, hlt⟩ (show (1 : ℕ) ≠ 4 by decide) d e).trans ?_
    refine (canon_skip (Val := Elt Ideal) 3 _ _ _ ⟨1, hlt⟩ (show (1 : ℕ) ≠ 3 by decide) d e).trans ?_
    refine (canon_skip (Val := Elt Ideal) 2 _ _ _ ⟨1, hlt⟩ (show (1 : ℕ) ≠ 2 by decide) d e).trans ?_
    refine (canon_hit (Val := Elt Ideal) 1 _ _ _ ⟨1, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head1_apply x0 x1 x2 x3 x4 (View.readAt (Elt Ideal) arg8.view (Rect.unit (s := S8x32x32) ![1, 0, 0] S1x32x32.size inb_S8x32x32_S1x32x32_1_0_0).toLoadRect (harg8.unread xs)) d e).trans ?_
    exact congrArg (· + _) (readAt_slice (Val := Elt Ideal) arg8 harg8 xs 1 _ ⟨1, hlt⟩ rfl d e)
  · -- head 2
    refine (canon_skip (Val := Elt Ideal) 7 _ _ _ ⟨2, hlt⟩ (show (2 : ℕ) ≠ 7 by decide) d e).trans ?_
    refine (canon_skip (Val := Elt Ideal) 6 _ _ _ ⟨2, hlt⟩ (show (2 : ℕ) ≠ 6 by decide) d e).trans ?_
    refine (canon_skip (Val := Elt Ideal) 5 _ _ _ ⟨2, hlt⟩ (show (2 : ℕ) ≠ 5 by decide) d e).trans ?_
    refine (canon_skip (Val := Elt Ideal) 4 _ _ _ ⟨2, hlt⟩ (show (2 : ℕ) ≠ 4 by decide) d e).trans ?_
    refine (canon_skip (Val := Elt Ideal) 3 _ _ _ ⟨2, hlt⟩ (show (2 : ℕ) ≠ 3 by decide) d e).trans ?_
    refine (canon_hit (Val := Elt Ideal) 2 _ _ _ ⟨2, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head2_apply x0 x1 x2 x3 x4 (View.readAt (Elt Ideal) arg8.view (Rect.unit (s := S8x32x32) ![2, 0, 0] S1x32x32.size inb_S8x32x32_S1x32x32_2_0_0).toLoadRect (harg8.unread xs)) d e).trans ?_
    exact congrArg (· + _) (readAt_slice (Val := Elt Ideal) arg8 harg8 xs 2 _ ⟨2, hlt⟩ rfl d e)
  · -- head 3
    refine (canon_skip (Val := Elt Ideal) 7 _ _ _ ⟨3, hlt⟩ (show (3 : ℕ) ≠ 7 by decide) d e).trans ?_
    refine (canon_skip (Val := Elt Ideal) 6 _ _ _ ⟨3, hlt⟩ (show (3 : ℕ) ≠ 6 by decide) d e).trans ?_
    refine (canon_skip (Val := Elt Ideal) 5 _ _ _ ⟨3, hlt⟩ (show (3 : ℕ) ≠ 5 by decide) d e).trans ?_
    refine (canon_skip (Val := Elt Ideal) 4 _ _ _ ⟨3, hlt⟩ (show (3 : ℕ) ≠ 4 by decide) d e).trans ?_
    refine (canon_hit (Val := Elt Ideal) 3 _ _ _ ⟨3, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head3_apply x0 x1 x2 x3 x4 (View.readAt (Elt Ideal) arg8.view (Rect.unit (s := S8x32x32) ![3, 0, 0] S1x32x32.size inb_S8x32x32_S1x32x32_3_0_0).toLoadRect (harg8.unread xs)) d e).trans ?_
    exact congrArg (· + _) (readAt_slice (Val := Elt Ideal) arg8 harg8 xs 3 _ ⟨3, hlt⟩ rfl d e)
  · -- head 4
    refine (canon_skip (Val := Elt Ideal) 7 _ _ _ ⟨4, hlt⟩ (show (4 : ℕ) ≠ 7 by decide) d e).trans ?_
    refine (canon_skip (Val := Elt Ideal) 6 _ _ _ ⟨4, hlt⟩ (show (4 : ℕ) ≠ 6 by decide) d e).trans ?_
    refine (canon_skip (Val := Elt Ideal) 5 _ _ _ ⟨4, hlt⟩ (show (4 : ℕ) ≠ 5 by decide) d e).trans ?_
    refine (canon_hit (Val := Elt Ideal) 4 _ _ _ ⟨4, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head4_apply x0 x1 x2 x3 x4 (View.readAt (Elt Ideal) arg8.view (Rect.unit (s := S8x32x32) ![4, 0, 0] S1x32x32.size inb_S8x32x32_S1x32x32_4_0_0).toLoadRect (harg8.unread xs)) d e).trans ?_
    exact congrArg (· + _) (readAt_slice (Val := Elt Ideal) arg8 harg8 xs 4 _ ⟨4, hlt⟩ rfl d e)
  · -- head 5
    refine (canon_skip (Val := Elt Ideal) 7 _ _ _ ⟨5, hlt⟩ (show (5 : ℕ) ≠ 7 by decide) d e).trans ?_
    refine (canon_skip (Val := Elt Ideal) 6 _ _ _ ⟨5, hlt⟩ (show (5 : ℕ) ≠ 6 by decide) d e).trans ?_
    refine (canon_hit (Val := Elt Ideal) 5 _ _ _ ⟨5, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head5_apply x0 x1 x2 x3 x4 (View.readAt (Elt Ideal) arg8.view (Rect.unit (s := S8x32x32) ![5, 0, 0] S1x32x32.size inb_S8x32x32_S1x32x32_5_0_0).toLoadRect (harg8.unread xs)) d e).trans ?_
    exact congrArg (· + _) (readAt_slice (Val := Elt Ideal) arg8 harg8 xs 5 _ ⟨5, hlt⟩ rfl d e)
  · -- head 6
    refine (canon_skip (Val := Elt Ideal) 7 _ _ _ ⟨6, hlt⟩ (show (6 : ℕ) ≠ 7 by decide) d e).trans ?_
    refine (canon_hit (Val := Elt Ideal) 6 _ _ _ ⟨6, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head6_apply x0 x1 x2 x3 x4 (View.readAt (Elt Ideal) arg8.view (Rect.unit (s := S8x32x32) ![6, 0, 0] S1x32x32.size inb_S8x32x32_S1x32x32_6_0_0).toLoadRect (harg8.unread xs)) d e).trans ?_
    exact congrArg (· + _) (readAt_slice (Val := Elt Ideal) arg8 harg8 xs 6 _ ⟨6, hlt⟩ rfl d e)
  · -- head 7
    refine (canon_hit (Val := Elt Ideal) 7 _ _ _ ⟨7, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head7_apply x0 x1 x2 x3 x4 (View.readAt (Elt Ideal) arg8.view (Rect.unit (s := S8x32x32) ![7, 0, 0] S1x32x32.size inb_S8x32x32_S1x32x32_7_0_0).toLoadRect (harg8.unread xs)) d e).trans ?_
    exact congrArg (· + _) (readAt_slice (Val := Elt Ideal) arg8 harg8 xs 7 _ ⟨7, hlt⟩ rfl d e)

/-- What a point with n = 7 leaves in the accumulator, at head h's entry (d, e). -/
theorem sout_C_apply (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : cond0_1 i)
    (x0 : Vec Ideal S1x4096x256 .f32) (x1 x2 x3 x4 : Vec Ideal S1x256 .f32) (xs : Vec Ideal S8x32x32 .f32) (h : Fin 8) (d e : Fin 32) :
    sout0_C_0 c i arg2 harg2 arg3 harg3 arg4 harg4 arg5 harg5 arg6 harg6 arg7 harg7 arg8 harg8 hc0 hc1 x0 x1 x2 x3 x4 xs (ix3 h d e) = xs (ix3 h d e) + Cert.Spec.contrib x0 x1 x2 x3 x4 h d e := by
  unfold sout0_C_0
  refine (congrFun (View.read_writes_junk_eq_canon _ _) _).trans ?_
  unfold kernelRun0_C
  dsimp only
  exact canonC_apply c arg2 harg2 arg3 harg3 arg4 harg4 arg5 harg5 arg6 harg6 arg8 harg8 x0 x1 x2 x3 x4 xs h d e

/-- What a point with n = 7 leaves in the output buffer, at entry (0, h, d, e): the whole accumulator is loaded after
    the eight stores, scaled by 2⁻¹⁵ and stored over the whole block. -/
theorem out_C_apply (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : cond0_1 i)
    (x0 : Vec Ideal S1x4096x256 .f32) (x1 x2 x3 x4 : Vec Ideal S1x256 .f32) (xs : Vec Ideal S8x32x32 .f32) (h : Fin 8) (d e : Fin 32) :
    out0_C_5 c i arg2 harg2 arg3 harg3 arg4 harg4 arg5 harg5 arg6 harg6 arg7 harg7 arg8 harg8 hc0 hc1 x0 x1 x2 x3 x4 xs (ix4 (0 : Fin 1) h d e)
      = (xs (ix3 h d e) + Cert.Spec.contrib x0 x1 x2 x3 x4 h d e) * Cert.Spec.cinvN := by
  unfold out0_C_5
  refine (congrFun (View.read_writes_junk_eq_canon _ _) _).trans ?_
  unfold kernelRun0_C
  dsimp only
  refine (congrFun (View.canon_unit_zero hz4 _ _) _).trans ?_
  refine (Pay.finalPay_apply (kernelRun0_C.sl.v352 c arg2 harg2 arg3 harg3 arg4 harg4 arg5 harg5 arg6 harg6 arg8 harg8 x0 x1 x2 x3 x4 xs) h d e).trans ?_
  refine congrArg (· * Cert.Spec.cinvN) ?_
  unfold kernelRun0_C.sl.v352
  refine (congrFun ((View.readCov_eq_canon' arg8.view _ _).trans (View.ld_unit_zero hz3 _ _)) (ix3 h d e)).trans ?_
  exact canonC_apply c arg2 harg2 arg3 harg3 arg4 harg4 arg5 harg5 arg6 harg6 arg8 harg8 x0 x1 x2 x3 x4 xs h d e

/-! ## A point with token block 0 < n < 7 -/

/-- What a middle point leaves in the accumulator, at head h's entry (d, e): the eight stores are over the eight
    disjoint slices, store h holds head h's new slice, computed from slice h of xs. -/
theorem sout_B_apply (c : Dev nD) (i : grid0.Coords) (arg2 : Memref sig .tc .vmem S1x4096x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x8x32x32 .f32) (harg7 : arg7.IsWhole) (arg8 : Memref sig .tc .vmem S8x32x32 .f32) (harg8 : arg8.IsWhole) (hc0 : ¬cond0_0 i) (hc1 : ¬cond0_1 i)
    (x0 : Vec Ideal S1x4096x256 .f32) (x1 x2 x3 x4 : Vec Ideal S1x256 .f32) (xs : Vec Ideal S8x32x32 .f32) (h : Fin 8) (d e : Fin 32) :
    sout0_B_0 c i arg2 harg2 arg3 harg3 arg4 harg4 arg5 harg5 arg6 harg6 arg7 harg7 arg8 harg8 hc0 hc1 x0 x1 x2 x3 x4 xs (ix3 h d e) = xs (ix3 h d e) + Cert.Spec.contrib x0 x1 x2 x3 x4 h d e := by
  unfold sout0_B_0
  refine (congrFun (View.read_writes_junk_eq_canon _ _) _).trans ?_
  unfold kernelRun0_B
  dsimp only
  obtain ⟨hv, hlt⟩ := h
  interval_cases hv
  · -- head 0
    refine (canon_skip (Val := Elt Ideal) 7 _ _ _ ⟨0, hlt⟩ (show (0 : ℕ) ≠ 7 by decide) d e).trans ?_
    refine (canon_skip (Val := Elt Ideal) 6 _ _ _ ⟨0, hlt⟩ (show (0 : ℕ) ≠ 6 by decide) d e).trans ?_
    refine (canon_skip (Val := Elt Ideal) 5 _ _ _ ⟨0, hlt⟩ (show (0 : ℕ) ≠ 5 by decide) d e).trans ?_
    refine (canon_skip (Val := Elt Ideal) 4 _ _ _ ⟨0, hlt⟩ (show (0 : ℕ) ≠ 4 by decide) d e).trans ?_
    refine (canon_skip (Val := Elt Ideal) 3 _ _ _ ⟨0, hlt⟩ (show (0 : ℕ) ≠ 3 by decide) d e).trans ?_
    refine (canon_skip (Val := Elt Ideal) 2 _ _ _ ⟨0, hlt⟩ (show (0 : ℕ) ≠ 2 by decide) d e).trans ?_
    refine (canon_skip (Val := Elt Ideal) 1 _ _ _ ⟨0, hlt⟩ (show (0 : ℕ) ≠ 1 by decide) d e).trans ?_
    refine (canon_hit (Val := Elt Ideal) 0 _ _ _ ⟨0, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head0_apply x0 x1 x2 x3 x4 (View.readAt (Elt Ideal) arg8.view (Rect.unit (s := S8x32x32) ![0, 0, 0] S1x32x32.size inb_S8x32x32_S1x32x32_0_0_0).toLoadRect (harg8.unread xs)) d e).trans ?_
    exact congrArg (· + _) (readAt_slice (Val := Elt Ideal) arg8 harg8 xs 0 _ ⟨0, hlt⟩ rfl d e)
  · -- head 1
    refine (canon_skip (Val := Elt Ideal) 7 _ _ _ ⟨1, hlt⟩ (show (1 : ℕ) ≠ 7 by decide) d e).trans ?_
    refine (canon_skip (Val := Elt Ideal) 6 _ _ _ ⟨1, hlt⟩ (show (1 : ℕ) ≠ 6 by decide) d e).trans ?_
    refine (canon_skip (Val := Elt Ideal) 5 _ _ _ ⟨1, hlt⟩ (show (1 : ℕ) ≠ 5 by decide) d e).trans ?_
    refine (canon_skip (Val := Elt Ideal) 4 _ _ _ ⟨1, hlt⟩ (show (1 : ℕ) ≠ 4 by decide) d e).trans ?_
    refine (canon_skip (Val := Elt Ideal) 3 _ _ _ ⟨1, hlt⟩ (show (1 : ℕ) ≠ 3 by decide) d e).trans ?_
    refine (canon_skip (Val := Elt Ideal) 2 _ _ _ ⟨1, hlt⟩ (show (1 : ℕ) ≠ 2 by decide) d e).trans ?_
    refine (canon_hit (Val := Elt Ideal) 1 _ _ _ ⟨1, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head1_apply x0 x1 x2 x3 x4 (View.readAt (Elt Ideal) arg8.view (Rect.unit (s := S8x32x32) ![1, 0, 0] S1x32x32.size inb_S8x32x32_S1x32x32_1_0_0).toLoadRect (harg8.unread xs)) d e).trans ?_
    exact congrArg (· + _) (readAt_slice (Val := Elt Ideal) arg8 harg8 xs 1 _ ⟨1, hlt⟩ rfl d e)
  · -- head 2
    refine (canon_skip (Val := Elt Ideal) 7 _ _ _ ⟨2, hlt⟩ (show (2 : ℕ) ≠ 7 by decide) d e).trans ?_
    refine (canon_skip (Val := Elt Ideal) 6 _ _ _ ⟨2, hlt⟩ (show (2 : ℕ) ≠ 6 by decide) d e).trans ?_
    refine (canon_skip (Val := Elt Ideal) 5 _ _ _ ⟨2, hlt⟩ (show (2 : ℕ) ≠ 5 by decide) d e).trans ?_
    refine (canon_skip (Val := Elt Ideal) 4 _ _ _ ⟨2, hlt⟩ (show (2 : ℕ) ≠ 4 by decide) d e).trans ?_
    refine (canon_skip (Val := Elt Ideal) 3 _ _ _ ⟨2, hlt⟩ (show (2 : ℕ) ≠ 3 by decide) d e).trans ?_
    refine (canon_hit (Val := Elt Ideal) 2 _ _ _ ⟨2, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head2_apply x0 x1 x2 x3 x4 (View.readAt (Elt Ideal) arg8.view (Rect.unit (s := S8x32x32) ![2, 0, 0] S1x32x32.size inb_S8x32x32_S1x32x32_2_0_0).toLoadRect (harg8.unread xs)) d e).trans ?_
    exact congrArg (· + _) (readAt_slice (Val := Elt Ideal) arg8 harg8 xs 2 _ ⟨2, hlt⟩ rfl d e)
  · -- head 3
    refine (canon_skip (Val := Elt Ideal) 7 _ _ _ ⟨3, hlt⟩ (show (3 : ℕ) ≠ 7 by decide) d e).trans ?_
    refine (canon_skip (Val := Elt Ideal) 6 _ _ _ ⟨3, hlt⟩ (show (3 : ℕ) ≠ 6 by decide) d e).trans ?_
    refine (canon_skip (Val := Elt Ideal) 5 _ _ _ ⟨3, hlt⟩ (show (3 : ℕ) ≠ 5 by decide) d e).trans ?_
    refine (canon_skip (Val := Elt Ideal) 4 _ _ _ ⟨3, hlt⟩ (show (3 : ℕ) ≠ 4 by decide) d e).trans ?_
    refine (canon_hit (Val := Elt Ideal) 3 _ _ _ ⟨3, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head3_apply x0 x1 x2 x3 x4 (View.readAt (Elt Ideal) arg8.view (Rect.unit (s := S8x32x32) ![3, 0, 0] S1x32x32.size inb_S8x32x32_S1x32x32_3_0_0).toLoadRect (harg8.unread xs)) d e).trans ?_
    exact congrArg (· + _) (readAt_slice (Val := Elt Ideal) arg8 harg8 xs 3 _ ⟨3, hlt⟩ rfl d e)
  · -- head 4
    refine (canon_skip (Val := Elt Ideal) 7 _ _ _ ⟨4, hlt⟩ (show (4 : ℕ) ≠ 7 by decide) d e).trans ?_
    refine (canon_skip (Val := Elt Ideal) 6 _ _ _ ⟨4, hlt⟩ (show (4 : ℕ) ≠ 6 by decide) d e).trans ?_
    refine (canon_skip (Val := Elt Ideal) 5 _ _ _ ⟨4, hlt⟩ (show (4 : ℕ) ≠ 5 by decide) d e).trans ?_
    refine (canon_hit (Val := Elt Ideal) 4 _ _ _ ⟨4, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head4_apply x0 x1 x2 x3 x4 (View.readAt (Elt Ideal) arg8.view (Rect.unit (s := S8x32x32) ![4, 0, 0] S1x32x32.size inb_S8x32x32_S1x32x32_4_0_0).toLoadRect (harg8.unread xs)) d e).trans ?_
    exact congrArg (· + _) (readAt_slice (Val := Elt Ideal) arg8 harg8 xs 4 _ ⟨4, hlt⟩ rfl d e)
  · -- head 5
    refine (canon_skip (Val := Elt Ideal) 7 _ _ _ ⟨5, hlt⟩ (show (5 : ℕ) ≠ 7 by decide) d e).trans ?_
    refine (canon_skip (Val := Elt Ideal) 6 _ _ _ ⟨5, hlt⟩ (show (5 : ℕ) ≠ 6 by decide) d e).trans ?_
    refine (canon_hit (Val := Elt Ideal) 5 _ _ _ ⟨5, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head5_apply x0 x1 x2 x3 x4 (View.readAt (Elt Ideal) arg8.view (Rect.unit (s := S8x32x32) ![5, 0, 0] S1x32x32.size inb_S8x32x32_S1x32x32_5_0_0).toLoadRect (harg8.unread xs)) d e).trans ?_
    exact congrArg (· + _) (readAt_slice (Val := Elt Ideal) arg8 harg8 xs 5 _ ⟨5, hlt⟩ rfl d e)
  · -- head 6
    refine (canon_skip (Val := Elt Ideal) 7 _ _ _ ⟨6, hlt⟩ (show (6 : ℕ) ≠ 7 by decide) d e).trans ?_
    refine (canon_hit (Val := Elt Ideal) 6 _ _ _ ⟨6, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head6_apply x0 x1 x2 x3 x4 (View.readAt (Elt Ideal) arg8.view (Rect.unit (s := S8x32x32) ![6, 0, 0] S1x32x32.size inb_S8x32x32_S1x32x32_6_0_0).toLoadRect (harg8.unread xs)) d e).trans ?_
    exact congrArg (· + _) (readAt_slice (Val := Elt Ideal) arg8 harg8 xs 6 _ ⟨6, hlt⟩ rfl d e)
  · -- head 7
    refine (canon_hit (Val := Elt Ideal) 7 _ _ _ ⟨7, hlt⟩ rfl d e).trans ?_
    sl_unfold_run_names
    simp only [readAt_whole arg2 harg2 x0 hz3, readAt_whole arg3 harg3 x1 hz2, readAt_whole arg4 harg4 x2 hz2, readAt_whole arg5 harg5 x3 hz2, readAt_whole arg6 harg6 x4 hz2]
    refine (Pay.head7_apply x0 x1 x2 x3 x4 (View.readAt (Elt Ideal) arg8.view (Rect.unit (s := S8x32x32) ![7, 0, 0] S1x32x32.size inb_S8x32x32_S1x32x32_7_0_0).toLoadRect (harg8.unread xs)) d e).trans ?_
    exact congrArg (· + _) (readAt_slice (Val := Elt Ideal) arg8 harg8 xs 7 _ ⟨7, hlt⟩ rfl d e)

end Cert.KernelIdeal.Val

end
-- ==== Proof.Ideal.Alg.lean ====
/-
  Two facts about sums over the extended reals that join the kernel's block-by-block accumulation to the
  specification's one sum over all tokens. Addition on the extended reals is commutative and associative, so
  neither needs finiteness.
-/
import proofs.«133594_j5471788335757_1_alg».proof.Proof.Spec
import Mathlib.Algebra.BigOperators.Fin
import Mathlib.Algebra.BigOperators.Intervals

set_option maxRecDepth 100000

noncomputable section

namespace Cert.Spec

open Idealize.ShloMosaic Idealize.ShloMosaic.ValueIdx

/-- Token `4096 · nb + r` of the 32768. -/
abbrev tok (nb : Fin 8) (r : Fin 4096) : Fin 32768 := ⟨4096 * nb.val + r.val, by omega⟩

/-- A sum over the 32768 tokens is the sum over the 8 token blocks of the sums over each block's 4096 rows. -/
theorem sum_tokens (f : Fin 32768 → EReal) : ∑ n : Fin 32768, f n = ∑ nb : Fin 8, ∑ r : Fin 4096, f (tok nb r) := by
  have e : ∑ n : Fin (8 * 4096), (fun n : Fin (8 * 4096) => f n) n
      = ∑ p : Fin 8 × Fin 4096, (fun n : Fin (8 * 4096) => f n) (finProdFinEquiv p) :=
    (Equiv.sum_comp (finProdFinEquiv (m := 8) (n := 4096)) (fun n : Fin (8 * 4096) => f n)).symm
  refine Eq.trans (b := ∑ p : Fin 8 × Fin 4096, (fun n : Fin (8 * 4096) => f n) (finProdFinEquiv p)) e ?_
  rw [Fintype.sum_prod_type]
  refine Finset.sum_congr rfl fun nb _ => Finset.sum_congr rfl fun r _ => congrArg f (Fin.ext ?_)
  show r.val + 4096 * nb.val = 4096 * nb.val + r.val
  omega

/-- The accumulator after token block `n` of a batch, started at zero and stepped by adding each block's
    contribution: the sum of the contributions so far. -/
def runSum (C : ℕ → EReal) : ℕ → EReal
  | 0 => 0 + C 0
  | n + 1 => runSum C n + C (n + 1)

theorem runSum_eq (C : ℕ → EReal) (n : ℕ) : runSum C n = ∑ k ∈ Finset.range (n + 1), C k := by
  induction n with
  | zero => simp [runSum]
  | succ n ih => rw [runSum, ih, Finset.sum_range_succ (fun k => C k) (n + 1)]

/-- After the eighth block: the sum over the eight blocks. -/
theorem runSum_seven (C : ℕ → EReal) : runSum C 7 = ∑ nb : Fin 8, C nb.val := by
  rw [runSum_eq, Finset.sum_range]

/-- The specification's token sum, block by block: the sum over the eight token blocks of each block's contribution,
    for blocks `xb nb` of `x` and weight rows read off the [8, 1, 32] arrays. -/
theorem kvSum_blocks (x : (⟨3, ![4, 32768, 256]⟩ : Shape).Idx → EReal) (kw kb vw vb : (⟨3, ![8, 1, 32]⟩ : Shape).Idx → EReal)
    (b : Fin 4) (xb : Fin 8 → (⟨3, ![1, 4096, 256]⟩ : Shape).Idx → EReal) (kwr kbr vwr vbr : (⟨2, ![1, 256]⟩ : Shape).Idx → EReal)
    (hx : ∀ (nb : Fin 8) (r : Fin 4096) (cc : Fin 256), xb nb (ix3 (0 : Fin 1) r cc) = x (ix3 b (tok nb r) cc))
    (hkw : ∀ cc : Fin 256, kwr (ix2 (0 : Fin 1) cc) = kw (ix3 (hd cc) (0 : Fin 1) (ed cc)))
    (hkb : ∀ cc : Fin 256, kbr (ix2 (0 : Fin 1) cc) = kb (ix3 (hd cc) (0 : Fin 1) (ed cc)))
    (hvw : ∀ cc : Fin 256, vwr (ix2 (0 : Fin 1) cc) = vw (ix3 (hd cc) (0 : Fin 1) (ed cc)))
    (hvb : ∀ cc : Fin 256, vbr (ix2 (0 : Fin 1) cc) = vb (ix3 (hd cc) (0 : Fin 1) (ed cc)))
    (h : Fin 8) (d e : Fin 32) :
    kvSum x kw kb vw vb b h d e = ∑ nb : Fin 8, contrib (xb nb) kwr kbr vwr vbr h d e := by
  have hhd : ∀ d' : Fin 32, hd (ch h d') = h := fun d' => Fin.ext (by show (32 * h.val + d'.val) / 32 = h.val; omega)
  have hed : ∀ d' : Fin 32, ed (ch h d') = d' := fun d' => Fin.ext (by show (32 * h.val + d'.val) % 32 = d'.val; omega)
  have hw : ∀ (wr : (⟨2, ![1, 256]⟩ : Shape).Idx → EReal) (w : (⟨3, ![8, 1, 32]⟩ : Shape).Idx → EReal),
      (∀ cc : Fin 256, wr (ix2 (0 : Fin 1) cc) = w (ix3 (hd cc) (0 : Fin 1) (ed cc))) → wblk wr h = wrow w h := by
    intro wr w hwr; funext d'; show wr (ix2 (0 : Fin 1) (ch h d')) = w (ix3 h (0 : Fin 1) d'); rw [hwr, hhd, hed]
  unfold kvSum contrib
  rw [sum_tokens]
  refine Finset.sum_congr rfl fun nb _ => Finset.sum_congr rfl fun r _ => ?_
  have hrow : blkRow (xb nb) r h = xrow x b (tok nb r) h := by
    funext d'; show xb nb (ix3 (0 : Fin 1) r (ch h d')) = x (ix3 b (tok nb r) (ch h d')); rw [hx]
  rw [hrow, hw kwr kw hkw, hw kbr kb hkb, hw vwr vw hvw, hw vbr vb hvb]

/-- Token block `nb` of batch `b` of `x`, as a [1, 4096, 256] block. -/
def xblk (x : (⟨3, ![4, 32768, 256]⟩ : Shape).Idx → EReal) (b : Fin 4) (nb : Fin 8) : (⟨3, ![1, 4096, 256]⟩ : Shape).Idx → EReal :=
  fun y => x (ix3 b (tok nb (y 1)) (y 2))

/-- The key–value array as the kernel forms it: from the [1, 256] weight rows, the eight blocks' contributions summed,
    scaled by 2⁻¹⁵. -/
def KVr (x : (⟨3, ![4, 32768, 256]⟩ : Shape).Idx → EReal) (kwr kbr vwr vbr : (⟨2, ![1, 256]⟩ : Shape).Idx → EReal) :
    (⟨4, ![4, 8, 32, 32]⟩ : Shape).Idx → EReal :=
  fun j => (∑ nb : Fin 8, contrib (xblk x (j 0) nb) kwr kbr vwr vbr (j 1) (j 2) (j 3)) * cinvN

/-- With the weight rows the row-major flattening of the [8, 1, 32] arrays, that is the specification's array. -/
theorem KVr_eq_KV (x : (⟨3, ![4, 32768, 256]⟩ : Shape).Idx → EReal) (kw kb vw vb : (⟨3, ![8, 1, 32]⟩ : Shape).Idx → EReal)
    (kwr kbr vwr vbr : (⟨2, ![1, 256]⟩ : Shape).Idx → EReal)
    (hkw : ∀ cc : Fin 256, kwr (ix2 (0 : Fin 1) cc) = kw (ix3 (hd cc) (0 : Fin 1) (ed cc)))
    (hkb : ∀ cc : Fin 256, kbr (ix2 (0 : Fin 1) cc) = kb (ix3 (hd cc) (0 : Fin 1) (ed cc)))
    (hvw : ∀ cc : Fin 256, vwr (ix2 (0 : Fin 1) cc) = vw (ix3 (hd cc) (0 : Fin 1) (ed cc)))
    (hvb : ∀ cc : Fin 256, vbr (ix2 (0 : Fin 1) cc) = vb (ix3 (hd cc) (0 : Fin 1) (ed cc))) :
    KVr x kwr kbr vwr vbr = KV x kw kb vw vb := by
  funext j
  exact congrArg (· * cinvN)
    (kvSum_blocks x kw kb vw vb (j 0) (xblk x (j 0)) kwr kbr vwr vbr (fun _ _ _ => rfl) hkw hkb hvw hvb (j 1) (j 2) (j 3)).symm

end Cert.Spec

end
-- ==== Proof.Ideal.KRead.lean ====
/-
  Where the two regions' blocks sit in their arrays.

  Both regions run over 32 points t = 8 b + n: batch b = t / 8 of 4, token block n = t % 8 of 8.
  Region 0 reads, at point t, rows 4096 n … 4096 n + 4095 of batch b of x, and the four [1, 256] rows whole; it
  writes back batch b of the [4, 8, 32, 32] key–value array at the last token block of each batch (n = 7), and those
  four blocks fill the array.  Region 1 reads the same rows of x and batch b of the key–value array, and writes back
  the same rows of the result at every point; the 32 blocks fill the result.
-/
import proofs.«133594_j5471788335757_1_alg».proof.Proof.Gen.KernelIdeal.Launch
import proofs.«133594_j5471788335757_1_alg».proof.Proof.Gen.KernelIdeal.Points
import Idealize.ShloMosaic.Lib.ValueIdx
import Idealize.ShloMosaic.Lib.Pipeline.Value

noncomputable section

namespace Cert.KernelIdeal.Val

open Idealize.ShloMosaic Idealize.ShloMosaic.ValueIdx Idealize.ShloMosaic.TcCoe Cert.KernelIdeal Cert.KernelIdeal.Gen
open Idealize.SL Idealize.SL.Sem

/-! ## Points, batches, tokens -/

theorem pt0_lt (t : Fin cfg0.N) : t.val < 32 := lt_of_lt_of_eq t.isLt N_0
theorem pt1_lt (t : Fin cfg1.N) : t.val < 32 := lt_of_lt_of_eq t.isLt N_1

/-- The batch of point n: n / 8. -/
abbrev bat (n : ℕ) (h : n < 32) : Fin 4 := ⟨n / 8, by omega⟩
/-- Row r of token block n % 8, as a token of the batch: 4096 (n % 8) + r. -/
abbrev tok (n : ℕ) (r : Fin 4096) : Fin 32768 := ⟨4096 * (n % 8) + r.val, by have := r.isLt; omega⟩

/-! ## The block indices, decided over the 32 points -/

theorem idx0_0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

theorem idx0_1 : ∀ t : Fin cfg0.N, win0_1.index t (0 : Fin 2) = 0 ∧ win0_1.index t (1 : Fin 2) = 0 :=
  (by decide +kernel : ∀ t : Fin grid0.N, _)

theorem idx0_2 : ∀ t : Fin cfg0.N, win0_2.index t (0 : Fin 2) = 0 ∧ win0_2.index t (1 : Fin 2) = 0 :=
  (by decide +kernel : ∀ t : Fin grid0.N, _)

theorem idx0_3 : ∀ t : Fin cfg0.N, win0_3.index t (0 : Fin 2) = 0 ∧ win0_3.index t (1 : Fin 2) = 0 :=
  (by decide +kernel : ∀ t : Fin grid0.N, _)

theorem idx0_4 : ∀ t : Fin cfg0.N, win0_4.index t (0 : Fin 2) = 0 ∧ win0_4.index t (1 : Fin 2) = 0 :=
  (by decide +kernel : ∀ t : Fin grid0.N, _)

theorem idx0_5 : ∀ t : Fin cfg0.N, win0_5.index t (0 : Fin 4) = t.val / 8 ∧ win0_5.index t (1 : Fin 4) = 0
    ∧ win0_5.index t (2 : Fin 4) = 0 ∧ win0_5.index t (3 : Fin 4) = 0 :=
  (by decide +kernel : ∀ t : Fin grid0.N, _)

theorem idx1_0 : ∀ t : Fin cfg1.N, win1_0.index t (0 : Fin 3) = t.val / 8 ∧ win1_0.index t (1 : Fin 3) = t.val % 8
    ∧ win1_0.index t (2 : Fin 3) = 0 :=
  (by decide +kernel : ∀ t : Fin grid1.N, _)

theorem idx1_1 : ∀ t : Fin cfg1.N, win1_1.index t (0 : Fin 4) = t.val / 8 ∧ win1_1.index t (1 : Fin 4) = 0
    ∧ win1_1.index t (2 : Fin 4) = 0 ∧ win1_1.index t (3 : Fin 4) = 0 :=
  (by decide +kernel : ∀ t : Fin grid1.N, _)

theorem idx1_2 : ∀ t : Fin cfg1.N, win1_2.index t (0 : Fin 3) = t.val / 8 ∧ win1_2.index t (1 : Fin 3) = t.val % 8
    ∧ win1_2.index t (2 : Fin 3) = 0 :=
  (by decide +kernel : ∀ t : Fin grid1.N, _)

/-! ## Region 0: what its blocks read -/

/-- Region 0's x block at point t, entry (0, r, c): batch t / 8, token 4096 (t % 8) + r, channel c. -/
theorem blk0_x (A : Vec Ideal S4x32768x256 .f32) (t : Fin cfg0.N) (r : Fin 4096) (cc : Fin 256) :
    ((cfg0.win 0).blk t).view.read (Elt Ideal) A (ix3 (0 : Fin 1) r cc)
      = A (ix3 (bat t.val (pt0_lt t)) (tok t.val r) cc) := by
  obtain ⟨e0, e1, e2⟩ := idx0_0 t
  show A (((cfg0.win 0).blk t).view.emb (ix3 (0 : Fin 1) r cc)) = _
  refine congrArg A ?_
  funext a; apply Fin.ext
  match a with
  | ⟨0, _⟩ => show win0_0.index t (0 : Fin 3) * 1 + 1 * 0 = t.val / 8; omega
  | ⟨1, _⟩ => show win0_0.index t (1 : Fin 3) * 4096 + 1 * r.val = 4096 * (t.val % 8) + r.val; omega
  | ⟨2, _⟩ => show win0_0.index t (2 : Fin 3) * 256 + 1 * cc.val = cc.val; omega

/-- Region 0's row 1 is one block, the whole [1, 256] array, at every point. -/
theorem blk0_w1 (A : Vec Ideal S1x256 .f32) (t : Fin cfg0.N) (cc : Fin 256) :
    ((cfg0.win 1).blk t).view.read (Elt Ideal) A (ix2 (0 : Fin 1) cc) = A (ix2 (0 : Fin 1) cc) := by
  obtain ⟨e0, e1⟩ := idx0_1 t
  show A (((cfg0.win 1).blk t).view.emb (ix2 (0 : Fin 1) cc)) = _
  refine congrArg A ?_
  funext a; apply Fin.ext
  match a with
  | ⟨0, _⟩ => show win0_1.index t (0 : Fin 2) * 1 + 1 * 0 = 0; omega
  | ⟨1, _⟩ => show win0_1.index t (1 : Fin 2) * 256 + 1 * cc.val = cc.val; omega

/-- Region 0's row 2 is one block, the whole [1, 256] array, at every point. -/
theorem blk0_w2 (A : Vec Ideal S1x256 .f32) (t : Fin cfg0.N) (cc : Fin 256) :
    ((cfg0.win 2).blk t).view.read (Elt Ideal) A (ix2 (0 : Fin 1) cc) = A (ix2 (0 : Fin 1) cc) := by
  obtain ⟨e0, e1⟩ := idx0_2 t
  show A (((cfg0.win 2).blk t).view.emb (ix2 (0 : Fin 1) cc)) = _
  refine congrArg A ?_
  funext a; apply Fin.ext
  match a with
  | ⟨0, _⟩ => show win0_2.index t (0 : Fin 2) * 1 + 1 * 0 = 0; omega
  | ⟨1, _⟩ => show win0_2.index t (1 : Fin 2) * 256 + 1 * cc.val = cc.val; omega

/-- Region 0's row 3 is one block, the whole [1, 256] array, at every point. -/
theorem blk0_w3 (A : Vec Ideal S1x256 .f32) (t : Fin cfg0.N) (cc : Fin 256) :
    ((cfg0.win 3).blk t).view.read (Elt Ideal) A (ix2 (0 : Fin 1) cc) = A (ix2 (0 : Fin 1) cc) := by
  obtain ⟨e0, e1⟩ := idx0_3 t
  show A (((cfg0.win 3).blk t).view.emb (ix2 (0 : Fin 1) cc)) = _
  refine congrArg A ?_
  funext a; apply Fin.ext
  match a with
  | ⟨0, _⟩ => show win0_3.index t (0 : Fin 2) * 1 + 1 * 0 = 0; omega
  | ⟨1, _⟩ => show win0_3.index t (1 : Fin 2) * 256 + 1 * cc.val = cc.val; omega

/-- Region 0's row 4 is one block, the whole [1, 256] array, at every point. -/
theorem blk0_w4 (A : Vec Ideal S1x256 .f32) (t : Fin cfg0.N) (cc : Fin 256) :
    ((cfg0.win 4).blk t).view.read (Elt Ideal) A (ix2 (0 : Fin 1) cc) = A (ix2 (0 : Fin 1) cc) := by
  obtain ⟨e0, e1⟩ := idx0_4 t
  show A (((cfg0.win 4).blk t).view.emb (ix2 (0 : Fin 1) cc)) = _
  refine congrArg A ?_
  funext a; apply Fin.ext
  match a with
  | ⟨0, _⟩ => show win0_4.index t (0 : Fin 2) * 1 + 1 * 0 = 0; omega
  | ⟨1, _⟩ => show win0_4.index t (1 : Fin 2) * 256 + 1 * cc.val = cc.val; omega

/-! ## Region 0: where its written block sits, and that the written blocks fill the array -/

/-- Entry (0, h, d, e) of the block written back at point t is entry (t / 8, h, d, e) of the array. -/
theorem emb0_5 (t : Fin cfg0.N) (h : Fin 8) (d e : Fin 32) :
    ((cfg0.win 5).blk t).view.emb (ix4 (0 : Fin 1) h d e) = ix4 (bat t.val (pt0_lt t)) h d e := by
  obtain ⟨e0, e1, e2, e3⟩ := idx0_5 t
  funext a; apply Fin.ext
  match a with
  | ⟨0, _⟩ => show win0_5.index t (0 : Fin 4) * 1 + 1 * 0 = t.val / 8; omega
  | ⟨1, _⟩ => show win0_5.index t (1 : Fin 4) * 8 + 1 * h.val = h.val; omega
  | ⟨2, _⟩ => show win0_5.index t (2 : Fin 4) * 32 + 1 * d.val = d.val; omega
  | ⟨3, _⟩ => show win0_5.index t (3 : Fin 4) * 32 + 1 * e.val = e.val; omega

/-- An entry of the array is in point t's block iff each coordinate is in the block's range on its axis. -/
theorem mem_blk0_5 (t : Fin cfg0.N) (i : S4x8x32x32.Idx) :
    i ∈ ((cfg0.win 5).blk t).view.set ↔ ∀ a : Fin 4, win0_5.index t a * S1x8x32x32.size a ≤ (i a).val
      ∧ (i a).val < win0_5.index t a * S1x8x32x32.size a + S1x8x32x32.size a := by
  show i ∈ ((View.whole main_v4).slice (win0_5.rect t)).set ↔ _
  rw [View.set_slice_whole, Rect.mem_set_unit]
  exact Iff.rfl

/-- Every entry of the key–value array is in the block some point writes back: batch b's at point 8 b + 7. -/
theorem cover0_5 (i : S4x8x32x32.Idx) :
    ∃ t : Fin cfg0.N, (cfg0.win 5).flush t = true ∧ i ∈ ((cfg0.win 5).blk t).view.set := by
  have hi0 : (i 0).val < 4 := (i 0).isLt
  have hi1 : (i 1).val < 8 := (i 1).isLt
  have hi2 : (i 2).val < 32 := (i 2).isLt
  have hi3 : (i 3).val < 32 := (i 3).isLt
  obtain ⟨t, ht⟩ : ∃ t : Fin cfg0.N, t.val = 8 * (i 0).val + 7 :=
    ⟨⟨8 * (i 0).val + 7, lt_of_lt_of_eq (by omega : 8 * (i 0).val + 7 < 32) N_0.symm⟩, rfl⟩
  refine ⟨t, (flush0_5 t).mpr (by omega), ?_⟩
  rw [mem_blk0_5]
  obtain ⟨e0, e1, e2, e3⟩ := idx0_5 t
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 8 ≤ (i 1).val ∧ (i 1).val < win0_5.index t (1 : Fin 4) * 8 + 8; omega
  | ⟨2, _⟩ => show win0_5.index t (2 : Fin 4) * 32 ≤ (i 2).val ∧ (i 2).val < win0_5.index t (2 : Fin 4) * 32 + 32; omega
  | ⟨3, _⟩ => show win0_5.index t (3 : Fin 4) * 32 ≤ (i 3).val ∧ (i 3).val < win0_5.index t (3 : Fin 4) * 32 + 32; omega

/-! ## Region 1: what its blocks read -/

/-- Region 1's x block at point t, entry (0, r, c): batch t / 8, token 4096 (t % 8) + r, channel c. -/
theorem blk1_x (A : Vec Ideal S4x32768x256 .f32) (t : Fin cfg1.N) (r : Fin 4096) (cc : Fin 256) :
    ((cfg1.win 0).blk t).view.read (Elt Ideal) A (ix3 (0 : Fin 1) r cc)
      = A (ix3 (bat t.val (pt1_lt t)) (tok t.val r) cc) := by
  obtain ⟨e0, e1, e2⟩ := idx1_0 t
  show A (((cfg1.win 0).blk t).view.emb (ix3 (0 : Fin 1) r cc)) = _
  refine congrArg A ?_
  funext a; apply Fin.ext
  match a with
  | ⟨0, _⟩ => show win1_0.index t (0 : Fin 3) * 1 + 1 * 0 = t.val / 8; omega
  | ⟨1, _⟩ => show win1_0.index t (1 : Fin 3) * 4096 + 1 * r.val = 4096 * (t.val % 8) + r.val; omega
  | ⟨2, _⟩ => show win1_0.index t (2 : Fin 3) * 256 + 1 * cc.val = cc.val; omega

/-- Region 1's key–value block at point t, entry (0, h, d, e): batch t / 8 of the array. -/
theorem blk1_kv (A : Vec Ideal S4x8x32x32 .f32) (t : Fin cfg1.N) (h : Fin 8) (d e : Fin 32) :
    ((cfg1.win 1).blk t).view.read (Elt Ideal) A (ix4 (0 : Fin 1) h d e)
      = A (ix4 (bat t.val (pt1_lt t)) h d e) := by
  obtain ⟨e0, e1, e2, e3⟩ := idx1_1 t
  show A (((cfg1.win 1).blk t).view.emb (ix4 (0 : Fin 1) h d e)) = _
  refine congrArg A ?_
  funext a; apply Fin.ext
  match a with
  | ⟨0, _⟩ => show win1_1.index t (0 : Fin 4) * 1 + 1 * 0 = t.val / 8; omega
  | ⟨1, _⟩ => show win1_1.index t (1 : Fin 4) * 8 + 1 * h.val = h.val; omega
  | ⟨2, _⟩ => show win1_1.index t (2 : Fin 4) * 32 + 1 * d.val = d.val; omega
  | ⟨3, _⟩ => show win1_1.index t (3 : Fin 4) * 32 + 1 * e.val = e.val; omega

/-! ## Region 1: where its written block sits, and that the written blocks fill the result -/

/-- Entry (0, r, c) of the block written back at point t is entry (t / 8, 4096 (t % 8) + r, c) of the result. -/
theorem emb1_2 (t : Fin cfg1.N) (r : Fin 4096) (cc : Fin 256) :
    ((cfg1.win 2).blk t).view.emb (ix3 (0 : Fin 1) r cc) = ix3 (bat t.val (pt1_lt t)) (tok t.val r) cc := by
  obtain ⟨e0, e1, e2⟩ := idx1_2 t
  funext a; apply Fin.ext
  match a with
  | ⟨0, _⟩ => show win1_2.index t (0 : Fin 3) * 1 + 1 * 0 = t.val / 8; omega
  | ⟨1, _⟩ => show win1_2.index t (1 : Fin 3) * 4096 + 1 * r.val = 4096 * (t.val % 8) + r.val; omega
  | ⟨2, _⟩ => show win1_2.index t (2 : Fin 3) * 256 + 1 * cc.val = cc.val; omega

/-- An entry of the result is in point t's block iff each coordinate is in the block's range on its axis. -/
theorem mem_blk1_2 (t : Fin cfg1.N) (i : S4x32768x256.Idx) :
    i ∈ ((cfg1.win 2).blk t).view.set ↔ ∀ a : Fin 3, win1_2.index t a * S1x4096x256.size a ≤ (i a).val
      ∧ (i a).val < win1_2.index t a * S1x4096x256.size a + S1x4096x256.size a := by
  show i ∈ ((View.whole main_v5).slice (win1_2.rect t)).set ↔ _
  rw [View.set_slice_whole, Rect.mem_set_unit]
  exact Iff.rfl

/-- Every entry of the result is in the block some point writes back: token n of batch b at point 8 b + n / 4096. -/
theorem cover1_2 (i : S4x32768x256.Idx) :
    ∃ t : Fin cfg1.N, (cfg1.win 2).flush t = true ∧ i ∈ ((cfg1.win 2).blk t).view.set := by
  have hi0 : (i 0).val < 4 := (i 0).isLt
  have hi1 : (i 1).val < 32768 := (i 1).isLt
  have hi2 : (i 2).val < 256 := (i 2).isLt
  obtain ⟨t, ht⟩ : ∃ t : Fin cfg1.N, t.val = 8 * (i 0).val + (i 1).val / 4096 :=
    ⟨⟨8 * (i 0).val + (i 1).val / 4096, lt_of_lt_of_eq (by omega : 8 * (i 0).val + (i 1).val / 4096 < 32) N_1.symm⟩, rfl⟩
  refine ⟨t, flush1_2 t, ?_⟩
  rw [mem_blk1_2]
  obtain ⟨e0, e1, e2⟩ := idx1_2 t
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 4096 ≤ (i 1).val ∧ (i 1).val < win1_2.index t (1 : Fin 3) * 4096 + 4096; omega
  | ⟨2, _⟩ => show win1_2.index t (2 : Fin 3) * 256 ≤ (i 2).val ∧ (i 2).val < win1_2.index t (2 : Fin 3) * 256 + 256; omega

end Cert.KernelIdeal.Val

end
-- ==== Proof.Ideal.KVal0.lean ====
/-
  Region 0's output after the run: the key–value array.

  Point t = 8 b + n works on token block n of batch b. The [8, 32, 32] accumulator after token block k of batch b is
  the running sum  ((0 + C 0) + C 1) + … + C k  of the blocks' contributions C j (one per token block, head by head),
  because a batch's first point starts from zero and every later point adds its block's contribution to what the point
  before left. The batch's last point (n = 7) stores that sum times 2⁻¹⁵ over batch b of the output array, and the four
  stored blocks fill the array: entry (b, h, d, e) ends as (∑ over the eight token blocks of C j) · 2⁻¹⁵.
-/
import proofs.«133594_j5471788335757_1_alg».proof.Proof.K.R0Dat
import proofs.«133594_j5471788335757_1_alg».proof.Proof.Ideal.R0Open
import proofs.«133594_j5471788335757_1_alg».proof.Proof.Ideal.Alg
import proofs.«133594_j5471788335757_1_alg».proof.Proof.Ideal.KRead
import Idealize.ShloMosaic.Lib.ValueIdx
import Idealize.ShloMosaic.Lib.Pipeline.Value

noncomputable section

namespace Cert.KernelIdeal.Val

open Idealize.ShloMosaic Idealize.ShloMosaic.ValueIdx Idealize.ShloMosaic.TcCoe Cert.KernelIdeal Cert.KernelIdeal.Gen
open Cert.KernelIdeal.Hand
open Idealize.SL Idealize.SL.Sem
open Idealize.ShloMosaic.Pipeline (Dat)

variable (V : (c : Dev nD) → (b : Ref sig .tc) → Buf (Elt Ideal) ((c : Thread nD τ).loc b))

/-! ## The arrays and the blocks, at their literal types -/

/-- The token array x as the region finds it. -/
abbrev xarr (c : Dev nD) : Vec Ideal S4x32768x256 .f32 := V c main_arg0
/-- The four [1, 256] rows as the region finds them: k-weight, k-bias, v-weight, v-bias. -/
abbrev kwarr (c : Dev nD) : Vec Ideal S1x256 .f32 := V c main_v0
abbrev kbarr (c : Dev nD) : Vec Ideal S1x256 .f32 := V c main_v1
abbrev vwarr (c : Dev nD) : Vec Ideal S1x256 .f32 := V c main_v2
abbrev vbarr (c : Dev nD) : Vec Ideal S1x256 .f32 := V c main_v3

/-- The x block and the four row blocks at point t. -/
abbrev xb (c : Dev nD) (t : Fin cfg0.N) : Vec Ideal S1x4096x256 .f32 := iblk0 V c 0 t
abbrev wb1 (c : Dev nD) (t : Fin cfg0.N) : Vec Ideal S1x256 .f32 := iblk0 V c 1 t
abbrev wb2 (c : Dev nD) (t : Fin cfg0.N) : Vec Ideal S1x256 .f32 := iblk0 V c 2 t
abbrev wb3 (c : Dev nD) (t : Fin cfg0.N) : Vec Ideal S1x256 .f32 := iblk0 V c 3 t
abbrev wb4 (c : Dev nD) (t : Fin cfg0.N) : Vec Ideal S1x256 .f32 := iblk0 V c 4 t

/-- The token block of point t: t % 8. -/
abbrev nbOf (n : ℕ) : Fin 8 := ⟨n % 8, Nat.mod_lt _ (by decide)⟩

/-- The x block at point t is token block t % 8 of batch t / 8 of x. -/
theorem xb_eq (c : Dev nD) (t : Fin cfg0.N) :
    xb V c t = Spec.xblk (xarr V c) (bat t.val (pt0_lt t)) (nbOf t.val) := by
  funext y
  obtain ⟨u, r, cc, rfl⟩ : ∃ (u : Fin 1) (r : Fin 4096) (cc : Fin 256), y = ix3 u r cc := ⟨y 0, y 1, y 2, eq_ix3 y⟩
  obtain rfl : u = 0 := Subsingleton.elim _ _
  exact blk0_x (xarr V c) t r cc

/-- Each row block is its whole array, at every point. -/
theorem wb1_eq (c : Dev nD) (t : Fin cfg0.N) : wb1 V c t = kwarr V c := by
  funext y
  obtain ⟨u, cc, rfl⟩ : ∃ (u : Fin 1) (cc : Fin 256), y = ix2 u cc := ⟨y 0, y 1, eq_ix2 y⟩
  obtain rfl : u = 0 := Subsingleton.elim _ _
  exact blk0_w1 (kwarr V c) t cc
theorem wb2_eq (c : Dev nD) (t : Fin cfg0.N) : wb2 V c t = kbarr V c := by
  funext y
  obtain ⟨u, cc, rfl⟩ : ∃ (u : Fin 1) (cc : Fin 256), y = ix2 u cc := ⟨y 0, y 1, eq_ix2 y⟩
  obtain rfl : u = 0 := Subsingleton.elim _ _
  exact blk0_w2 (kbarr V c) t cc
theorem wb3_eq (c : Dev nD) (t : Fin cfg0.N) : wb3 V c t = vwarr V c := by
  funext y
  obtain ⟨u, cc, rfl⟩ : ∃ (u : Fin 1) (cc : Fin 256), y = ix2 u cc := ⟨y 0, y 1, eq_ix2 y⟩
  obtain rfl : u = 0 := Subsingleton.elim _ _
  exact blk0_w3 (vwarr V c) t cc
theorem wb4_eq (c : Dev nD) (t : Fin cfg0.N) : wb4 V c t = vbarr V c := by
  funext y
  obtain ⟨u, cc, rfl⟩ : ∃ (u : Fin 1) (cc : Fin 256), y = ix2 u cc := ⟨y 0, y 1, eq_ix2 y⟩
  obtain rfl : u = 0 := Subsingleton.elim _ _
  exact blk0_w4 (vbarr V c) t cc

/-- What token block k of batch b adds to head h's accumulator at (d, e). -/
def blockC (c : Dev nD) (b : Fin 4) (h : Fin 8) (d e : Fin 32) (k : ℕ) : EReal :=
  Spec.contrib (Spec.xblk (xarr V c) b (nbOf k)) (kwarr V c) (kbarr V c) (vwarr V c) (vbarr V c) h d e

/-- The blocks at point t add token block t % 8 of batch t / 8. -/
theorem contrib_at (c : Dev nD) (t : Fin cfg0.N) (h : Fin 8) (d e : Fin 32) :
    Spec.contrib (xb V c t) (wb1 V c t) (wb2 V c t) (wb3 V c t) (wb4 V c t) h d e
      = blockC V c (bat t.val (pt0_lt t)) h d e (t.val % 8) := by
  rw [xb_eq, wb1_eq, wb2_eq, wb3_eq, wb4_eq]
  unfold blockC
  refine congrArg (fun nb => Spec.contrib (Spec.xblk (xarr V c) (bat t.val (pt0_lt t)) nb) (kwarr V c) (kbarr V c) (vwarr V c) (vbarr V c) h d e) ?_
  exact Fin.ext (Nat.mod_mod _ _).symm

/-! ## One point's step on the accumulator, and the store at a batch's last point -/

/-- At a batch's first token block the accumulator starts from zero. -/
theorem acc_first (c : Dev nD) (t : Fin cfg0.N) (h0 : t.val % 8 = 0) (h : Fin 8) (d e : Fin 32) :
    (outsAt0 V c t.val t.isLt).2 (ix3 h d e)
      = 0 + Spec.contrib (xb V c t) (wb1 V c t) (wb2 V c t) (wb3 V c t) (wb4 V c t) h d e := by
  rw [outsAt0_A V c t h0]
  dsimp only
  exact sout_A_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun hh => absurd ((hcond0_1 t).mp hh) (by omega)) (xb V c t) (wb1 V c t) (wb2 V c t) (wb3 V c t) (wb4 V c t) h d e

/-- At every later token block it adds the block's contribution to what the point before left. -/
theorem acc_step (c : Dev nD) (t : Fin cfg0.N) (h0 : ¬t.val % 8 = 0) (h : Fin 8) (d e : Fin 32) :
    (outsAt0 V c t.val t.isLt).2 (ix3 h d e)
      = (outsAt0 V c (t.val - 1) (Nat.lt_of_le_of_lt (Nat.sub_le _ _) t.isLt)).2 (ix3 h d e)
        + Spec.contrib (xb V c t) (wb1 V c t) (wb2 V c t) (wb3 V c t) (wb4 V c t) h d e := by
  by_cases h1 : t.val % 8 = 7
  · rw [outsAt0_C V c t h1]
    dsimp only
    exact sout_C_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => absurd ((hcond0_0 t).mp hh) (by omega)) ((hcond0_1 t).mpr h1) (xb V c t) (wb1 V c t) (wb2 V c t) (wb3 V c t) (wb4 V c t) (outsAt0 V c (t.val - 1) (Nat.lt_of_le_of_lt (Nat.sub_le _ _) t.isLt)).2 h d e
  · rw [outsAt0_B V c t h0 h1]
    dsimp only
    exact sout_B_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) (fun hh => h1 ((hcond0_1 t).mp hh)) (xb V c t) (wb1 V c t) (wb2 V c t) (wb3 V c t) (wb4 V c t) (outsAt0 V c (t.val - 1) (Nat.lt_of_le_of_lt (Nat.sub_le _ _) t.isLt)).2 h d e

/-- At a batch's last token block the output block holds the new accumulator scaled by 2⁻¹⁵. -/
theorem out_last (c : Dev nD) (t : Fin cfg0.N) (h1 : t.val % 8 = 7) (h : Fin 8) (d e : Fin 32) :
    (outsAt0 V c t.val t.isLt).1 (ix4 (0 : Fin 1) h d e)
      = ((outsAt0 V c (t.val - 1) (Nat.lt_of_le_of_lt (Nat.sub_le _ _) t.isLt)).2 (ix3 h d e)
          + Spec.contrib (xb V c t) (wb1 V c t) (wb2 V c t) (wb3 V c t) (wb4 V c t) h d e) * Spec.cinvN := by
  rw [outsAt0_C V c t h1]
  dsimp only
  exact out_C_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => absurd ((hcond0_0 t).mp hh) (by omega)) ((hcond0_1 t).mpr h1) (xb V c t) (wb1 V c t) (wb2 V c t) (wb3 V c t) (wb4 V c t) (outsAt0 V c (t.val - 1) (Nat.lt_of_le_of_lt (Nat.sub_le _ _) t.isLt)).2 h d e

/-! ## The accumulator after token block k of batch b: the running sum of the blocks' contributions -/

theorem acc_eq (c : Dev nD) (b : Fin 4) (h : Fin 8) (d e : Fin 32) :
    ∀ (k : ℕ) (hk : k < 8) (hn : 8 * b.val + k < cfg0.N),
      (outsAt0 V c (8 * b.val + k) hn).2 (ix3 h d e) = Spec.runSum (blockC V c b h d e) k
  | 0, _, hn => by
    have hb : bat (8 * b.val + 0) (pt0_lt ⟨8 * b.val + 0, hn⟩) = b := Fin.ext (by show (8 * b.val + 0) / 8 = b.val; omega)
    refine (acc_first V c ⟨8 * b.val + 0, hn⟩ (by show (8 * b.val + 0) % 8 = 0; omega) h d e).trans ?_
    rw [contrib_at]
    show 0 + blockC V c (bat (8 * b.val + 0) _) h d e ((8 * b.val + 0) % 8) = 0 + blockC V c b h d e 0
    rw [hb, show (8 * b.val + 0) % 8 = 0 by omega]
  | k + 1, hk, hn => by
    have hb : bat (8 * b.val + (k + 1)) (pt0_lt ⟨8 * b.val + (k + 1), hn⟩) = b :=
      Fin.ext (by show (8 * b.val + (k + 1)) / 8 = b.val; omega)
    have ih := acc_eq c b h d e k (by omega) (Nat.lt_of_succ_lt hn)
    refine (acc_step V c ⟨8 * b.val + (k + 1), hn⟩ (by show ¬(8 * b.val + (k + 1)) % 8 = 0; omega) h d e).trans ?_
    rw [contrib_at]
    show (outsAt0 V c (8 * b.val + k) _).2 (ix3 h d e) + blockC V c (bat (8 * b.val + (k + 1)) _) h d e ((8 * b.val + (k + 1)) % 8)
      = Spec.runSum (blockC V c b h d e) k + blockC V c b h d e (k + 1)
    rw [ih, hb, show (8 * b.val + (k + 1)) % 8 = k + 1 by omega]

/-! ## What the last point of a batch writes back, and the array after the run -/

/-- The key–value array the region leaves, as a function of the arrays it found. -/
abbrev kvOut (c : Dev nD) : Vec Ideal S4x8x32x32 .f32 :=
  Spec.KVr (xarr V c) (kwarr V c) (kbarr V c) (vwarr V c) (vbarr V c)

theorem flushed_eq (c : Dev nD) (t : Fin cfg0.N) (h7 : t.val % 8 = 7) :
    (dat0 V c).flushed 5 t = ((cfg0.win 5).blk t).view.read (Elt Ideal) (kvOut V c) := by
  show (cfg0.win 5).cut (grid0.coords t) ((dat0 V c).after 5 t) = _
  rw [after0_5]
  funext y
  obtain ⟨u, h, d, e, rfl⟩ : ∃ (u : Fin 1) (h : Fin 8) (d e : Fin 32), y = ix4 u h d e := ⟨y 0, y 1, y 2, y 3, eq_ix4 y⟩
  obtain rfl : u = 0 := Subsingleton.elim _ _
  have ht : t.val < 32 := pt0_lt t
  have hdec : t.val = 8 * (t.val / 8) + 7 := by omega
  have hb : bat t.val ht = ⟨t.val / 8, by omega⟩ := rfl
  -- the written entry: the accumulator after the batch's eighth block, scaled
  have hacc : (outsAt0 V c t.val t.isLt).2 (ix3 h d e) = Spec.runSum (blockC V c (bat t.val ht) h d e) 7 := by
    have key := acc_eq V c (bat t.val ht) h d e 7 (by decide) (by show 8 * (t.val / 8) + 7 < cfg0.N; rw [← hdec]; exact t.isLt)
    have e1 : (outsAt0 V c t.val t.isLt).2 = (outsAt0 V c (8 * (t.val / 8) + 7) (by rw [← hdec]; exact t.isLt)).2 := by
      congr 2
    rw [e1]; exact key
  show (outsAt0 V c t.val t.isLt).1 (ix4 (0 : Fin 1) h d e) = kvOut V c (((cfg0.win 5).blk t).view.emb (ix4 (0 : Fin 1) h d e))
  rw [emb0_5, out_last V c t h7 h d e, ← acc_step V c t (by omega) h d e, hacc, Spec.runSum_seven]
  show _ = (∑ nb : Fin 8, Spec.contrib (Spec.xblk (xarr V c) (bat t.val ht) nb) (kwarr V c) (kbarr V c) (vwarr V c) (vbarr V c) h d e) * Spec.cinvN
  refine congrArg (· * Spec.cinvN) (Finset.sum_congr rfl fun nb _ => ?_)
  unfold blockC
  refine congrArg (fun q => Spec.contrib (Spec.xblk (xarr V c) (bat t.val ht) q) (kwarr V c) (kbarr V c) (vwarr V c) (vbarr V c) h d e) ?_
  exact Fin.ext (Nat.mod_eq_of_lt nb.isLt)

/-- After the run the key–value array holds, at every entry, the eight blocks' contributions summed and scaled. -/
theorem final0 (c : Dev nD) :
    (dat0 V c).arrAt 5 cfg0.N = Spec.KVr (V c main_arg0) (V c main_v0) (V c main_v1) (V c main_v2) (V c main_v3) :=
  (dat0 V c).arrAt_eq_of_cover 5 (kvOut V c) (fun t hf => flushed_eq V c t ((flush0_5 t).mp hf)) cover0_5

end Cert.KernelIdeal.Val

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.Ideal.Pay1.lean ====
/-
  Region 1's stored block read at an index.

  The block is x + x_h · kv_h head by head: for each of the eight heads h, the 32 columns of the [4096, 256] view of
  the x block starting at column 32 h, plus their product with the head's [32, 32] key–value matrix; the eight
  [4096, 32] results are laid side by side along the columns and given back the leading unit axis.
  At (0, r, c), with h = c / 32 and e = c % 32, that is x(0, r, c) + ∑ d, x(0, r, 32 h + d) · kv_h(0, 0, d, e).
  The roundings of the two matrix operands are the identity on the extended reals.
-/
import proofs.«133594_j5471788335757_1_alg».proof.Proof.K.Pieces
import proofs.«133594_j5471788335757_1_alg».proof.Proof.Spec
import proofs.«133594_j5471788335757_1_alg».proof.Proof.LibOuterDot
import Idealize.ShloMosaic.Lib.ValueIdx
import Idealize.ShloMosaic.Lib.Pipeline.Value
import Idealize.ShloMosaic.PureOps.Ideal.Laws

noncomputable section

open scoped BigOperators

namespace Cert.KernelIdeal.Pay1

open Idealize.ShloMosaic Idealize.ShloMosaic.ValueIdx Cert.KernelIdeal Cert.KernelIdeal.Gen

/-- One head's piece read at (r, e): with q the 32 columns of the block starting at column 32 h and kv the head's
    [32, 32] matrix, q + q · kv at (r, e) is x(r, 32 h + e) + ∑ d, x(r, 32 h + d) · kv(d, e). -/
theorem piece_apply (x : FVec Ideal S4096x256 .f32) (kv : Vec Ideal S1x1x32x32 .f32)
    (off : Fin 2 → Nat) (hS : S4096x256.Slices off S4096x32) (hC : S1x1x32x32.ShapeCasts S32x32)
    (hb : FTy.bf16.bits < FTy.f32.bits)
    (h : Fin 8) (h0 : off 0 = 0) (h1 : off 1 = 32 * h.val) (r : Fin 4096) (e : Fin 32) :
    addf (F := Ideal) (extractStridedSlice S4096x32 off x hS)
        (matmul dot_S4096x32_S32x32_S4096x32_1_0_0_1_n_n none
          (truncf .bf16 (extractStridedSlice S4096x32 off x hS) hb)
          (truncf .bf16 (shapeCast S32x32 kv hC) hb)
          (constant S4096x32 .f32 0x00000000#32)) (ix2 r e)
      = x (ix2 r (Cert.Spec.ch h e)) + ∑ d : Fin 32, x (ix2 r (Cert.Spec.ch h d)) * kv (ix4 (0 : Fin 1) (0 : Fin 1) d e) := by
  have hq : ∀ c : Fin 32, extractStridedSlice S4096x32 off x hS (ix2 r c) = x (ix2 r (Cert.Spec.ch h c)) := fun c =>
    extractStridedSlice_apply off x hS (ix2 r c) (ix2 r (Cert.Spec.ch h c)) (fun a => by
      match a with
      | ⟨0, _⟩ => show r.val = off 0 + r.val; rw [h0, Nat.zero_add]
      | ⟨1, _⟩ => show 32 * h.val + c.val = off 1 + c.val; rw [h1])
  rw [addf_apply, hq e]
  congr 1
  refine (Cert.LibOuterDot.matmul_zero_ix2 dot_S4096x32_S32x32_S4096x32_1_0_0_1_n_n rfl rfl rfl rfl rfl rfl rfl rfl none _ _ r e).trans ?_
  refine Finset.sum_congr rfl fun d _ => ?_
  rw [truncf_apply, truncf_apply, hq d]
  congr 1
  refine shapeCast_apply kv hC (ix2 d e) (ix4 (0 : Fin 1) (0 : Fin 1) d e) ?_
  rw [Shape.rowMajor_val_four, Shape.rowMajor_val_two]
  show ((0 * 1 + 0) * 32 + d.val) * 32 + e.val = d.val * 32 + e.val
  omega

/-- The [4096, 256] view of the block read at (r, c) is the block at (0, r, c). -/
theorem x2_apply (v0 : Vec Ideal S1x4096x256 .f32) (r : Fin 4096) (c : Fin 256) :
    k1_pay2 v0 (ix2 r c) = v0 (ix3 (0 : Fin 1) r c) := by
  unfold k1_pay2
  refine shapeCast_apply v0 _ (ix2 r c) (ix3 (0 : Fin 1) r c) ?_
  rw [Shape.rowMajor_val_three, Shape.rowMajor_val_two]
  show (0 * 4096 + r.val) * 256 + c.val = r.val * 256 + c.val
  omega

/-- Eight [4096, 32] pieces laid side by side along the columns and given a leading unit axis, read at
    (0, r, 32 h + e): piece h at (r, e). -/
theorem concat8_apply (p0 p1 p2 p3 p4 p5 p6 p7 : FVec Ideal S4096x32 .f32)
    (hc : Shape.Concatenates [S4096x32, S4096x32, S4096x32, S4096x32, S4096x32, S4096x32, S4096x32, S4096x32] S4096x256 1)
    (hsc : S4096x256.ShapeCasts S1x4096x256) (r : Fin 4096) (h : Fin 8) (e : Fin 32) :
    shapeCast S1x4096x256 (concatenate S4096x256 1
        [⟨S4096x32, p0⟩, ⟨S4096x32, p1⟩, ⟨S4096x32, p2⟩, ⟨S4096x32, p3⟩,
         ⟨S4096x32, p4⟩, ⟨S4096x32, p5⟩, ⟨S4096x32, p6⟩, ⟨S4096x32, p7⟩] hc) hsc
      (ix3 (0 : Fin 1) r (Cert.Spec.ch h e))
      = (![p0, p1, p2, p3, p4, p5, p6, p7] : Fin 8 → FVec Ideal S4096x32 .f32) h (ix2 r e) := by
  refine (shapeCast_apply _ hsc (ix3 (0 : Fin 1) r (Cert.Spec.ch h e)) (ix2 r (Cert.Spec.ch h e)) ?_).trans ?_
  · rw [Shape.rowMajor_val_three, Shape.rowMajor_val_two]
    show r.val * 256 + (32 * h.val + e.val) = (0 * 4096 + r.val) * 256 + (32 * h.val + e.val)
    omega
  · have hlen : h.val < [(⟨S4096x32, p0⟩ : (s : Shape) × (s.Idx → EReal)), ⟨S4096x32, p1⟩, ⟨S4096x32, p2⟩, ⟨S4096x32, p3⟩,
         ⟨S4096x32, p4⟩, ⟨S4096x32, p5⟩, ⟨S4096x32, p6⟩, ⟨S4096x32, p7⟩].length := h.isLt
    refine concatenate_apply_piece (t := S4096x256) (1 : Fin 2)
      [(⟨S4096x32, p0⟩ : (s : Shape) × (s.Idx → EReal)), ⟨S4096x32, p1⟩, ⟨S4096x32, p2⟩, ⟨S4096x32, p3⟩,
         ⟨S4096x32, p4⟩, ⟨S4096x32, p5⟩, ⟨S4096x32, p6⟩, ⟨S4096x32, p7⟩]
      hc (ix2 r (Cert.Spec.ch h e)) h.val hlen S4096x32
      ((![p0, p1, p2, p3, p4, p5, p6, p7] : Fin 8 → FVec Ideal S4096x32 .f32) h) ?_ rfl (32 * h.val) ?_
      (ix2 r e) ?_ ?_
    · match h with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
    · match h with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => rfl
    · intro b hb
      match b with
      | ⟨0, _⟩ => rfl
      | ⟨1, _⟩ => exact absurd rfl hb
    · rfl

/-- One head's piece over the block itself: the piece of the previous lemma taken from the [4096, 256] view of the
    block, read back at the block's own indices. -/
theorem piece_apply' (v0 : Vec Ideal S1x4096x256 .f32) (kv : Vec Ideal S1x1x32x32 .f32)
    (off : Fin 2 → Nat) (hS : S4096x256.Slices off S4096x32) (hC : S1x1x32x32.ShapeCasts S32x32)
    (hb : FTy.bf16.bits < FTy.f32.bits)
    (h : Fin 8) (h0 : off 0 = 0) (h1 : off 1 = 32 * h.val) (r : Fin 4096) (e : Fin 32) :
    addf (F := Ideal) (extractStridedSlice S4096x32 off (k1_pay2 v0) hS)
        (matmul dot_S4096x32_S32x32_S4096x32_1_0_0_1_n_n none
          (truncf .bf16 (extractStridedSlice S4096x32 off (k1_pay2 v0) hS) hb)
          (truncf .bf16 (shapeCast S32x32 kv hC) hb)
          (constant S4096x32 .f32 0x00000000#32)) (ix2 r e)
      = v0 (ix3 (0 : Fin 1) r (Cert.Spec.ch h e))
        + ∑ d : Fin 32, v0 (ix3 (0 : Fin 1) r (Cert.Spec.ch h d)) * kv (ix4 (0 : Fin 1) (0 : Fin 1) d e) := by
  refine (piece_apply (k1_pay2 v0) kv off hS hC hb h h0 h1 r e).trans ?_
  rw [x2_apply]
  refine congrArg _ (Finset.sum_congr rfl fun d _ => ?_)
  rw [x2_apply]

/-- The stored block at (0, r, 32 h + e). -/
theorem outPay_head (v0 : Vec Ideal S1x4096x256 .f32) (ks : Fin 8 → Vec Ideal S1x1x32x32 .f32) (r : Fin 4096)
    (h : Fin 8) (e : Fin 32) :
    Cert.KernelIdeal.Hand.outPay v0 (ks 0) (ks 1) (ks 2) (ks 3) (ks 4) (ks 5) (ks 6) (ks 7)
        (ix3 (0 : Fin 1) r (Cert.Spec.ch h e))
      = v0 (ix3 (0 : Fin 1) r (Cert.Spec.ch h e))
        + ∑ d : Fin 32, v0 (ix3 (0 : Fin 1) r (Cert.Spec.ch h d)) * ks h (ix4 (0 : Fin 1) (0 : Fin 1) d e) := by
  unfold Cert.KernelIdeal.Hand.outPay k1_pay1
  refine (concat8_apply _ _ _ _ _ _ _ _ _ _ r h e).trans ?_
  match h with
  | ⟨0, hh⟩ => exact piece_apply' v0 (ks 0) ![0, 0] _ _ _ ⟨0, hh⟩ rfl rfl r e
  | ⟨1, hh⟩ => exact piece_apply' v0 (ks 1) ![0, 32] _ _ _ ⟨1, hh⟩ rfl rfl r e
  | ⟨2, hh⟩ => exact piece_apply' v0 (ks 2) ![0, 64] _ _ _ ⟨2, hh⟩ rfl rfl r e
  | ⟨3, hh⟩ => exact piece_apply' v0 (ks 3) ![0, 96] _ _ _ ⟨3, hh⟩ rfl rfl r e
  | ⟨4, hh⟩ => exact piece_apply' v0 (ks 4) ![0, 128] Facts₀.slices_S4096x256_o0_128_S4096x32 _ _ ⟨4, hh⟩ rfl rfl r e
  | ⟨5, hh⟩ => exact piece_apply' v0 (ks 5) ![0, 160] _ _ _ ⟨5, hh⟩ rfl rfl r e
  | ⟨6, hh⟩ => exact piece_apply' v0 (ks 6) ![0, 192] _ _ _ ⟨6, hh⟩ rfl rfl r e
  | ⟨7, hh⟩ => exact piece_apply' v0 (ks 7) ![0, 224] _ _ _ ⟨7, hh⟩ rfl rfl r e

/-- The stored block at (0, r, c): the head is c / 32, the channel inside the head c % 32. -/
theorem outPay_apply (v0 : Vec Ideal S1x4096x256 .f32) (ks : Fin 8 → Vec Ideal S1x1x32x32 .f32) (r : Fin 4096)
    (cidx : Fin 256) :
    Cert.KernelIdeal.Hand.outPay v0 (ks 0) (ks 1) (ks 2) (ks 3) (ks 4) (ks 5) (ks 6) (ks 7) (ix3 (0 : Fin 1) r cidx)
      = v0 (ix3 (0 : Fin 1) r cidx)
        + ∑ d : Fin 32, v0 (ix3 (0 : Fin 1) r (Cert.Spec.ch (Cert.Spec.hd cidx) d))
            * ks (Cert.Spec.hd cidx) (ix4 (0 : Fin 1) (0 : Fin 1) d (Cert.Spec.ed cidx)) := by
  have hc : Cert.Spec.ch (Cert.Spec.hd cidx) (Cert.Spec.ed cidx) = cidx :=
    Fin.ext (show 32 * (cidx.val / 32) + cidx.val % 32 = cidx.val from Nat.div_add_mod _ _)
  have key := outPay_head v0 ks r (Cert.Spec.hd cidx) (Cert.Spec.ed cidx)
  rw [hc] at key
  exact key

end Cert.KernelIdeal.Pay1

end
-- ==== Proof.Ideal.KVal1.lean ====
/-
  The second kernel's result array after all 32 grid points, as the specification's function of the arrays it is
  entered with.

  At grid point t = 8 b + n the output block is the one stored block of the x block (b, n) and the key–value block b:
  at (0, r, c), with h = c / 32 and e = c % 32,
      x(b, 4096 n + r, c) + ∑ d, x(b, 4096 n + r, 32 h + d) · kv(b, h, d, e),
  which is the specification's result at (b, 4096 n + r, c). The 32 output blocks tile the [4, 32768, 256] array, so
  the array ends as the specification's result everywhere.
-/
import proofs.«133594_j5471788335757_1_alg».proof.Proof.K.R1
import proofs.«133594_j5471788335757_1_alg».proof.Proof.Spec
import proofs.«133594_j5471788335757_1_alg».proof.Proof.Ideal.Pay1
import proofs.«133594_j5471788335757_1_alg».proof.Proof.Ideal.KRead
import Idealize.ShloMosaic.Lib.Pipeline.Value
import Idealize.ShloMosaic.Lib.ValueIdx

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.Spec
/-- The zero offsets of a whole [1, 4096, 256] block. -/
theorem zero3 : (![0, 0, 0] : Fin 3 → Nat) = fun _ => 0 := funext fun a => by fin_cases a <;> rfl

/-- An index of a [1, 4096, 256] block is (0, r, c). -/
theorem forall_blockIdx {P : S1x4096x256.Idx → Prop} (h : ∀ (r : Fin 4096) (cc : Fin 256), P (ix3 (0 : Fin 1) r cc)) :
    ∀ j, P j := fun j => by
  have e : j = ix3 (0 : Fin 1) (j 1) (j 2) := by
    funext a
    match a with
    | ⟨0, _⟩ => exact Fin.ext (by have h0 : (j 0).val < 1 := (j 0).isLt; show (j 0).val = 0; omega)
    | ⟨1, _⟩ => rfl
    | ⟨2, _⟩ => rfl
  rw [e]; exact h _ _

/-- Head k's [1, 1, 32, 32] slice of a key–value block, read at (0, 0, d, e), is the block at (0, k, d, e). -/
theorem ld_slice (x1 : Vec Ideal S1x8x32x32 .f32) (k : Fin 8)
    (inb : ∀ a, (![0, k.val, 0, 0] : Fin 4 → Nat) a + S1x1x32x32.size a ≤ S1x8x32x32.size a) (d e : Fin 32) :
    View.ld x1 (Rect.unit (s := S1x8x32x32) ![0, k.val, 0, 0] S1x1x32x32.size inb) (ix4 (0 : Fin 1) (0 : Fin 1) d e)
      = x1 (ix4 (0 : Fin 1) k d e) := by
  show x1 _ = x1 _
  congr 1
  funext a; apply Fin.ext
  match a with
  | ⟨0, _⟩ => rfl
  | ⟨1, _⟩ => show k.val + 1 * 0 = k.val; omega
  | ⟨2, _⟩ => show 0 + 1 * d.val = d.val; omega
  | ⟨3, _⟩ => show 0 + 1 * e.val = e.val; omega

/-- The eight head slices of a key–value block. -/
abbrev slices (x1 : Vec Ideal S1x8x32x32 .f32) : Fin 8 → Vec Ideal S1x1x32x32 .f32 :=
  ![View.ld x1 r_h0, View.ld x1 r_h1, View.ld x1 r_h2, View.ld x1 r_h3, View.ld x1 r_h4, View.ld x1 r_h5, View.ld x1 r_h6, View.ld x1 r_h7]

theorem slices_apply (x1 : Vec Ideal S1x8x32x32 .f32) (d e : Fin 32) :
    ∀ h : Fin 8, slices x1 h (ix4 (0 : Fin 1) (0 : Fin 1) d e) = x1 (ix4 (0 : Fin 1) h d e)
  | ⟨0, hh⟩ => ld_slice x1 ⟨0, hh⟩ inb_S1x8x32x32_S1x1x32x32_0_0_0_0 d e
  | ⟨1, hh⟩ => ld_slice x1 ⟨1, hh⟩ inb_S1x8x32x32_S1x1x32x32_0_1_0_0 d e
  | ⟨2, hh⟩ => ld_slice x1 ⟨2, hh⟩ inb_S1x8x32x32_S1x1x32x32_0_2_0_0 d e
  | ⟨3, hh⟩ => ld_slice x1 ⟨3, hh⟩ inb_S1x8x32x32_S1x1x32x32_0_3_0_0 d e
  | ⟨4, hh⟩ => ld_slice x1 ⟨4, hh⟩ inb_S1x8x32x32_S1x1x32x32_0_4_0_0 d e
  | ⟨5, hh⟩ => ld_slice x1 ⟨5, hh⟩ inb_S1x8x32x32_S1x1x32x32_0_5_0_0 d e
  | ⟨6, hh⟩ => ld_slice x1 ⟨6, hh⟩ inb_S1x8x32x32_S1x1x32x32_0_6_0_0 d e
  | ⟨7, hh⟩ => ld_slice x1 ⟨7, hh⟩ inb_S1x8x32x32_S1x1x32x32_0_7_0_0 d e

/-- The stored block of an x block x0 and a key–value block x1, at (0, r, c): with h = c / 32 and e = c % 32,
    x0(0, r, c) + ∑ d, x0(0, r, 32 h + d) · x1(0, h, d, e). -/
theorem out_point (x0 : Vec Ideal S1x4096x256 .f32) (x1 : Vec Ideal S1x8x32x32 .f32) (r : Fin 4096) (cc : Fin 256) :
    outPay (View.ld x0 rWhole) (View.ld x1 r_h0) (View.ld x1 r_h1) (View.ld x1 r_h2) (View.ld x1 r_h3)
        (View.ld x1 r_h4) (View.ld x1 r_h5) (View.ld x1 r_h6) (View.ld x1 r_h7) (ix3 (0 : Fin 1) r cc)
      = x0 (ix3 (0 : Fin 1) r cc) + ∑ d : Fin 32, x0 (ix3 (0 : Fin 1) r (ch (hd cc) d)) * x1 (ix4 (0 : Fin 1) (hd cc) d (ed cc)) := by
  have e0 : View.ld x0 rWhole = x0 := View.ld_unit_zero zero3 inb_S1x4096x256_S1x4096x256_0_0_0 x0
  refine (Cert.KernelIdeal.Pay1.outPay_apply (View.ld x0 rWhole) (slices x1) r cc).trans ?_
  rw [e0]
  refine congrArg _ (Finset.sum_congr rfl fun d _ => ?_)
  rw [slices_apply x1 d (ed cc) (hd cc)]

/-- A row of an x block and a key–value block that are the rows (b, n) and the batch b of whole arrays A and B give the
    specification's result of A and B at (b, n, c). -/
theorem point_spec (A : Vec Ideal S4x32768x256 .f32) (B : Vec Ideal S4x8x32x32 .f32)
    (x0 : Vec Ideal S1x4096x256 .f32) (x1 : Vec Ideal S1x8x32x32 .f32) (b : Fin 4) (n : Fin 32768) (r : Fin 4096) (cc : Fin 256)
    (h0 : ∀ c' : Fin 256, x0 (ix3 (0 : Fin 1) r c') = A (ix3 b n c'))
    (h1 : ∀ (h : Fin 8) (d e : Fin 32), x1 (ix4 (0 : Fin 1) h d e) = B (ix4 b h d e)) :
    x0 (ix3 (0 : Fin 1) r cc) + ∑ d : Fin 32, x0 (ix3 (0 : Fin 1) r (ch (hd cc) d)) * x1 (ix4 (0 : Fin 1) (hd cc) d (ed cc))
      = OUT A B (ix3 b n cc) := by
  rw [h0]
  simp only [h0, h1]
  rfl

variable (V : (c : Dev nD) → (b : Ref sig .tc) → Buf (Elt Ideal) ((c : Thread nD τ).loc b))

/-- What grid point t writes back is block t of the specification's result of the entry arrays. -/
theorem flushed1_eq (c : Dev nD) (t : Fin cfg1.N) :
    (dat1 V c).flushed 2 t = ((cfg1.win 2).blk t).view.read (Elt Ideal) (OUT (V c main_arg0) (V c main_v4)) := by
  show (cfg1.win 2).cut (grid1.coords t) ((dat1 V c).after 2 t) = _
  rw [after1_2]
  unfold out1_2
  rw [View.canon_unit_zero zero3]
  funext j
  revert j
  refine forall_blockIdx fun r cc => ?_
  show outPay (View.ld (iblk1 V c 0 t) rWhole) (View.ld (iblk1 V c 1 t) r_h0) (View.ld (iblk1 V c 1 t) r_h1)
      (View.ld (iblk1 V c 1 t) r_h2) (View.ld (iblk1 V c 1 t) r_h3) (View.ld (iblk1 V c 1 t) r_h4)
      (View.ld (iblk1 V c 1 t) r_h5) (View.ld (iblk1 V c 1 t) r_h6) (View.ld (iblk1 V c 1 t) r_h7) (ix3 (0 : Fin 1) r cc)
    = OUT (V c main_arg0) (V c main_v4) (((cfg1.win 2).blk t).view.emb (ix3 (0 : Fin 1) r cc))
  refine (out_point _ _ r cc).trans ?_
  rw [emb1_2 t r cc]
  exact point_spec (V c main_arg0) (V c main_v4) _ _ _ _ r cc (fun c' => blk1_x _ t r c') (fun h d e => blk1_kv _ t h d e)

/-- The result array after the run is the specification's result of the entry arrays. -/
theorem final1 (c : Dev nD) :
    (dat1 V c).arrAt 2 cfg1.N = OUT (V c main_arg0) (V c main_v4) :=
  (dat1 V c).arrAt_eq_of_cover 2 (OUT (V c main_arg0) (V c main_v4)) (fun t _ => flushed1_eq V c t) Cert.KernelIdeal.Val.cover1_2

end Cert.KernelIdeal.Val

end
-- ==== Proof.Ideal.KHost.lean ====
/-
  What the four host reshapes in front of the first kernel region leave, read at an index.

  Each of the four [8, 1, 32] weight and bias arguments is reshaped, row-major, to one [1, 256] row: channel
  cc = 32·(cc / 32) + cc % 32 of the row is entry (cc / 32, 0, cc % 32) of the argument.  The reshapes write the four
  rows and nothing else: every argument and both kernel results hold afterwards what they held before.
  All of it for an ARBITRARY valuation of the buffers before the reshapes.
-/
import proofs.«133594_j5471788335757_1_alg».proof.Proof.Gen.KernelIdeal.Regions
import proofs.«133594_j5471788335757_1_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Val

open Idealize.ShloMosaic Idealize.ShloMosaic.ValueIdx Cert.KernelIdeal Cert.KernelIdeal.Gen

/-- The row-major reshape [8, 1, 32] → [1, 256] at (0, cc): entry (cc / 32, 0, cc % 32). -/
theorem reshape_apply {α : Type} (x : S8x1x32.Idx → α) (cc : Fin 256) :
    shapeCast S1x256 x shapeCasts_S8x1x32_S1x256 (ix2 (0 : Fin 1) cc)
      = x (ix3 (Cert.Spec.hd cc) (0 : Fin 1) (Cert.Spec.ed cc)) :=
  shapeCast_apply x _ _ _ (by
    rw [Shape.rowMajor_val_three, Shape.rowMajor_val_two]
    show ((cc.val / 32) * 1 + 0) * 32 + cc.val % 32 = 0 * 256 + cc.val
    omega)

variable (W : Valuation τ sig (Elt Ideal))

/-! ## The four rows -/

theorem host_v0 (cc : Fin 256) :
    (StableHlo.after hostOps0 W (Proc.devRef .tc main_v0) : S1x256.Idx → EReal) (ix2 (0 : Fin 1) cc)
      = (W (Proc.devRef .tc main_arg1) : S8x1x32.Idx → EReal) (ix3 (Cert.Spec.hd cc) (0 : Fin 1) (Cert.Spec.ed cc)) := by
  have e : (StableHlo.after hostOps0 W (Proc.devRef .tc main_v0) : S1x256.Idx → EReal)
      = shapeCast S1x256 (W (Proc.devRef .tc main_arg1) : S8x1x32.Idx → EReal) shapeCasts_S8x1x32_S1x256 := by
    after_results; rfl
  exact (congrFun e _).trans (reshape_apply _ cc)

theorem host_v1 (cc : Fin 256) :
    (StableHlo.after hostOps0 W (Proc.devRef .tc main_v1) : S1x256.Idx → EReal) (ix2 (0 : Fin 1) cc)
      = (W (Proc.devRef .tc main_arg2) : S8x1x32.Idx → EReal) (ix3 (Cert.Spec.hd cc) (0 : Fin 1) (Cert.Spec.ed cc)) := by
  have e : (StableHlo.after hostOps0 W (Proc.devRef .tc main_v1) : S1x256.Idx → EReal)
      = shapeCast S1x256 (W (Proc.devRef .tc main_arg2) : S8x1x32.Idx → EReal) shapeCasts_S8x1x32_S1x256 := by
    after_results; rfl
  exact (congrFun e _).trans (reshape_apply _ cc)

theorem host_v2 (cc : Fin 256) :
    (StableHlo.after hostOps0 W (Proc.devRef .tc main_v2) : S1x256.Idx → EReal) (ix2 (0 : Fin 1) cc)
      = (W (Proc.devRef .tc main_arg3) : S8x1x32.Idx → EReal) (ix3 (Cert.Spec.hd cc) (0 : Fin 1) (Cert.Spec.ed cc)) := by
  have e : (StableHlo.after hostOps0 W (Proc.devRef .tc main_v2) : S1x256.Idx → EReal)
      = shapeCast S1x256 (W (Proc.devRef .tc main_arg3) : S8x1x32.Idx → EReal) shapeCasts_S8x1x32_S1x256 := by
    after_results; rfl
  exact (congrFun e _).trans (reshape_apply _ cc)

theorem host_v3 (cc : Fin 256) :
    (StableHlo.after hostOps0 W (Proc.devRef .tc main_v3) : S1x256.Idx → EReal) (ix2 (0 : Fin 1) cc)
      = (W (Proc.devRef .tc main_arg4) : S8x1x32.Idx → EReal) (ix3 (Cert.Spec.hd cc) (0 : Fin 1) (Cert.Spec.ed cc)) := by
  have e : (StableHlo.after hostOps0 W (Proc.devRef .tc main_v3) : S1x256.Idx → EReal)
      = shapeCast S1x256 (W (Proc.devRef .tc main_arg4) : S8x1x32.Idx → EReal) shapeCasts_S8x1x32_S1x256 := by
    after_results; rfl
  exact (congrFun e _).trans (reshape_apply _ cc)

/-! ## What the reshapes leave alone -/

/-- A buffer that is none of the four rows holds what it held. -/
theorem host_of (r : Ref sig .tc) (h : r ∉ hostOps0_W) :
    StableHlo.after hostOps0 W (Proc.devRef .tc r) = W (Proc.devRef .tc r) :=
  StableHlo.after_of_writes_sub hostOps0 W hostOps0_writes h

theorem host_arg0 : StableHlo.after hostOps0 W (Proc.devRef .tc main_arg0) = W (Proc.devRef .tc main_arg0) :=
  host_of W main_arg0 (by decide)
theorem host_arg1 : StableHlo.after hostOps0 W (Proc.devRef .tc main_arg1) = W (Proc.devRef .tc main_arg1) :=
  host_of W main_arg1 (by decide)
theorem host_arg2 : StableHlo.after hostOps0 W (Proc.devRef .tc main_arg2) = W (Proc.devRef .tc main_arg2) :=
  host_of W main_arg2 (by decide)
theorem host_arg3 : StableHlo.after hostOps0 W (Proc.devRef .tc main_arg3) = W (Proc.devRef .tc main_arg3) :=
  host_of W main_arg3 (by decide)
theorem host_arg4 : StableHlo.after hostOps0 W (Proc.devRef .tc main_arg4) = W (Proc.devRef .tc main_arg4) :=
  host_of W main_arg4 (by decide)
theorem host_v4 : StableHlo.after hostOps0 W (Proc.devRef .tc main_v4) = W (Proc.devRef .tc main_v4) :=
  host_of W main_v4 (by decide)
theorem host_v5 : StableHlo.after hostOps0 W (Proc.devRef .tc main_v5) = W (Proc.devRef .tc main_v5) :=
  host_of W main_v5 (by decide)

end Cert.KernelIdeal.Val

end
-- ==== Proof.Ideal.KFinal.lean ====
/-
  The idealized kernel's run, read as a value: the result array ends at the specification's function `G` of the
  five argument arrays, and the arguments end unchanged.

  Region 0 is entered with `x` as launched and the four weight rows the row-major flattening of the [8, 1, 32]
  arrays; it leaves the key–value array (the eight token blocks' contributions summed, scaled by 2⁻¹⁵), which is the
  specification's `KV`. Region 1 is entered with `x` still as launched and that key–value array, and leaves
  `x + x_h · kv_h` head by head: the specification's `OUT`. Their composition is `G`.
-/
import proofs.«133594_j5471788335757_1_alg».proof.Proof.K.Run
import proofs.«133594_j5471788335757_1_alg».proof.Proof.Ideal.KVal0
import proofs.«133594_j5471788335757_1_alg».proof.Proof.Ideal.KVal1
import proofs.«133594_j5471788335757_1_alg».proof.Proof.Ideal.KHost
import proofs.«133594_j5471788335757_1_alg».proof.Proof.Ideal.Alg

noncomputable section

namespace Cert.KernelIdeal.Val

open Idealize.ShloMosaic Idealize.ShloMosaic.TcCoe Idealize.SL.Sem
open Cert.KernelIdeal Cert.KernelIdeal.Hand
open Idealize.ShloMosaic.Pipeline (Dat)

variable (m : (ℓ : Loc nD τ sig) → Buf (Elt Ideal) ℓ)

/-- Region 0 finds `x` as launched: the reshapes before it write other buffers. -/
theorem V1_arg0 (c : Dev nD) : V1 m c main_arg0 = m ((c : Thread nD τ).loc main_arg0) :=
  host_arg0 (W0 m c)

/-- Region 1 finds `x` as launched: region 0 only reads it. -/
theorem V2_arg0 (c : Dev nD) : V2 m c main_arg0 = m ((c : Thread nD τ).loc main_arg0) :=
  (W2_arr m c 0).trans ((((dat0 (V1 m) c).arrAt_in 0 rfl _).trans (A_eq0 (V1 m) c 0)).trans (V1_arg0 m c))

/-- Region 1 finds, in region 0's output array, the specification's key–value array of the launch arguments. -/
theorem V2_v4 (c : Dev nD) :
    V2 m c main_v4 = Cert.Spec.KV (m ((c : Thread nD τ).loc main_arg0)) (m ((c : Thread nD τ).loc main_arg1))
      (m ((c : Thread nD τ).loc main_arg2)) (m ((c : Thread nD τ).loc main_arg3)) (m ((c : Thread nD τ).loc main_arg4)) := by
  refine (W2_arr m c 5).trans ((final0 (V1 m) c).trans ?_)
  rw [V1_arg0 m c]
  exact Cert.Spec.KVr_eq_KV _ _ _ _ _ _ _ _ _ (host_v0 (W0 m c)) (host_v1 (W0 m c)) (host_v2 (W0 m c)) (host_v3 (W0 m c))

/-- The result array after the run. -/
theorem result (c : Dev nD) :
    W3 m c (Proc.devRef .tc main_v5) = Cert.Spec.G (m ((c : Thread nD τ).loc main_arg0)) (m ((c : Thread nD τ).loc main_arg1))
      (m ((c : Thread nD τ).loc main_arg2)) (m ((c : Thread nD τ).loc main_arg3)) (m ((c : Thread nD τ).loc main_arg4)) := by
  refine (W3_arr m c 2).trans ((final1 (V2 m) c).trans ?_)
  rw [V2_arg0 m c, V2_v4 m c]
  rfl

/-- Every weakly fair execution of the idealized kernel ends with the result at `G` of the launch arguments and
    the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v5) = Cert.Spec.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v5 (by decide))).trans (result m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩)
    (run_all m ρ)

end Cert.KernelIdeal.Val

end
-- ==== Proof.Ideal.RefTerm.lean ====
/-
  The reference's result as one pure term of its five argument arrays.

  The host program is a straight line of array operations; composing them in its own order gives the result as a
  function of the arguments.  The stages, each a named definition so that it can be read index by index:
    qT     the [4, 32768, 256] array viewed as [4, 32768, 8, 32] and transposed to [4, 8, 32768, 32] (heads outermost);
    meanT  the sum over the last axis, kept as a unit axis, divided by the splat of 32;
    varT   the outlined variance: centred squares summed over the last axis, divided by the splat of 32 − (1 : i32 → f32),
           with the selection "if 32 − 1 > 0 then the quotient else NaN" that the outlined function carries;
    stdT   its square root;
    lnT    weight · (q − mean) / (std + ε) + bias, the weight and bias rows [8, 1, 32] broadcast through [1, 8, 1, 32];
    kvT    the batched contraction of two such arrays over the 32768 tokens, divided by the splat of 32768;
    refTerm  x + (q · kv, transposed back and flattened to [4, 32768, 256]).
-/
import proofs.«133594_j5471788335757_1_alg».proof.ReferenceIdeal
import Idealize.ShloMosaic.PureOps.Ideal

noncomputable section

namespace Cert.ReferenceIdeal.Hand

open Idealize.ShloMosaic Cert.ReferenceIdeal

variable [Facts]
open Facts₀ Facts

/-- Heads outermost: reshape to [4, 32768, 8, 32], then exchange the token and head axes. -/
def qT (x : Vec Ideal S4x32768x256 .f32) : FVec Ideal S4x8x32768x32 .f32 :=
  transpose S4x8x32768x32 [0, 2, 1, 3]
    (shapeCast S4x32768x8x32 x shapeCasts_S4x32768x256_S4x32768x8x32)
    transposes_S4x32768x8x32_S4x8x32768x32_0_2_1_3

/-- The row means, as a [4, 8, 32768, 1] array: the sum over the last axis divided by 32. -/
def meanT (q : FVec Ideal S4x8x32768x32 .f32) : FVec Ideal S4x8x32768x1 .f32 :=
  Host.divf
    (broadcastInDim S4x8x32768x1 ![0, 1, 2] bcast_S4x8x32768_S4x8x32768x1_0_1_2
      (Host.reduceAdd q (constant (F := Ideal) S_ .f32 0x00000000#32) reducesTo_S4x8x32768x32_S4x8x32768_d3 h_S_))
    (broadcastInDim S4x8x32768x1 ![] bcast_S_S4x8x32768x1 (constant (F := Ideal) S_ .f32 0x42000000#32))

/-- The divisor of the variance as the program forms it: 32 minus the integer 1 converted to a float. -/
def ddofT : FVec Ideal S_ .f32 :=
  subf (constant (F := Ideal) S_ .f32 0x42000000#32) (sitofp (F := Ideal) .f32 (constantI S_ 32 1#32))

/-- The row variances, as a [4, 8, 32768, 1] array: centred squares summed over the last axis, divided by the splat of
    the divisor, where the divisor is above zero; the NaN word elsewhere. -/
def varT (q : FVec Ideal S4x8x32768x32 .f32) : FVec Ideal S4x8x32768x1 .f32 :=
  select
    (broadcastInDim S4x8x32768x1 ![] bcast_S_S4x8x32768x1
      (cmpf .ogt ddofT (constant (F := Ideal) S_ .f32 0x00000000#32)))
    (Host.divf
      (broadcastInDim S4x8x32768x1 ![0, 1, 2] bcast_S4x8x32768_S4x8x32768x1_0_1_2
        (Host.reduceAdd
          (mulf
            (subf q (broadcastInDim S4x8x32768x32 ![0, 1, 2, 3] bcast_S4x8x32768x1_S4x8x32768x32_0_1_2_3 (meanT q)))
            (subf q (broadcastInDim S4x8x32768x32 ![0, 1, 2, 3] bcast_S4x8x32768x1_S4x8x32768x32_0_1_2_3 (meanT q))))
          (constant (F := Ideal) S_ .f32 0x00000000#32) reducesTo_S4x8x32768x32_S4x8x32768_d3 h_S_))
      (broadcastInDim S4x8x32768x1 ![] bcast_S_S4x8x32768x1 ddofT))
    (broadcastInDim S4x8x32768x1 ![] bcast_S_S4x8x32768x1 (id (constant (F := Ideal) S_ .f32 0x7FC00000#32)))

/-- The row standard deviations. -/
def stdT (q : FVec Ideal S4x8x32768x32 .f32) : FVec Ideal S4x8x32768x1 .f32 :=
  Host.sqrt (varT q)

/-- The layer-normed features: weight · ((q − mean) / (std + ε)) + bias. -/
def lnT (q : FVec Ideal S4x8x32768x32 .f32) (w b : Vec Ideal S8x1x32 .f32) : FVec Ideal S4x8x32768x32 .f32 :=
  addf
    (mulf
      (broadcastInDim S4x8x32768x32 ![0, 1, 2, 3] bcast_S1x8x1x32_S4x8x32768x32_0_1_2_3
        (broadcastInDim S1x8x1x32 ![1, 2, 3] bcast_S8x1x32_S1x8x1x32_1_2_3 w))
      (Host.divf
        (subf q (broadcastInDim S4x8x32768x32 ![0, 1, 2, 3] bcast_S4x8x32768x1_S4x8x32768x32_0_1_2_3 (meanT q)))
        (broadcastInDim S4x8x32768x32 ![0, 1, 2, 3] bcast_S4x8x32768x1_S4x8x32768x32_0_1_2_3
          (addf (stdT q)
            (broadcastInDim S4x8x32768x1 ![] bcast_S_S4x8x32768x1 (constant (F := Ideal) S_ .f32 0x3727C5AC#32))))))
    (broadcastInDim S4x8x32768x32 ![0, 1, 2, 3] bcast_S1x8x1x32_S4x8x32768x32_0_1_2_3
      (broadcastInDim S1x8x1x32 ![1, 2, 3] bcast_S8x1x32_S1x8x1x32_1_2_3 b))

/-- The key–value array [4, 8, 32, 32]: the contraction over the tokens, divided by 32768. -/
def kvT (k v : FVec Ideal S4x8x32768x32 .f32) : FVec Ideal S4x8x32x32 .f32 :=
  Host.divf
    (Host.dotGeneral dot_S4x8x32768x32_S4x8x32768x32_S4x8x32x32_2_2_3_3_01_01 none k v)
    (broadcastInDim S4x8x32x32 ![] bcast_S_S4x8x32x32 (constant (F := Ideal) S_ .f32 0x47000000#32))

/-- The whole result. -/
def refTerm (x : Vec Ideal S4x32768x256 .f32) (a1 a2 a3 a4 : Vec Ideal S8x1x32 .f32) : FVec Ideal S4x32768x256 .f32 :=
  addf
    (shapeCast S4x32768x256
      (transpose S4x32768x8x32 [0, 2, 1, 3]
        (Host.dotGeneral dot_S4x8x32768x32_S4x8x32x32_S4x8x32768x32_3_2_2_3_01_01 none (qT x)
          (kvT (lnT (qT x) a1 a2) (lnT (qT x) a3 a4)))
        transposes_S4x8x32768x32_S4x32768x8x32_0_2_1_3)
      shapeCasts_S4x32768x8x32_S4x32768x256)
    x

end Cert.ReferenceIdeal.Hand

end
-- ==== Proof.Ideal.RefRun.lean ====
/-
  The reference program run: its host operations as one straight line, and what every execution leaves in memory.

  The program has no kernel launch: @main is fifty host operations and two calls of the outlined standard-deviation
  function (which calls the outlined variance, which calls the outlined selection).  A call executes the callee's body on
  the operands, each value of the body in a buffer of its own, so with both calls unfolded @main is a straight line of
  9 + 24 + 20 + 24 + 21 = 98 array operations.  Running a straight line folds the operations' results over the launch
  contents; reading that fold at the result buffer gives the composed pure term of the five arguments, and at an
  argument buffer (which no operation writes) the launch contents themselves.
-/
import proofs.«133594_j5471788335757_1_alg».proof.Proof.Gen.ReferenceIdeal
import proofs.«133594_j5471788335757_1_alg».proof.Proof.Ideal.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the two calls unfolded: nine operations up to the first row mean and the integer 1;
    the first call's twenty-four (the variance's twenty: the row sum, the mean, the centred squares, the divisor
    32 − 1, the quotient, the comparison of the divisor with zero and the NaN word; the selection's three; the square
    root) into the buffers of that call's record; twenty operations forming the key features and the second row mean;
    the second call's twenty-four; twenty-one operations forming the value features, the two contractions and the
    residual sum. -/
abbrev ops : List (HloOp τ sig (Elt F)) :=
  [ reshape main_arg0 main_v0 rfl shapeCasts_S4x32768x256_S4x32768x8x32,
    unary main_v0 main_v1 (transpose S4x8x32768x32 [0, 2, 1, 3] · transposes_S4x32768x8x32_S4x8x32768x32_0_2_1_3),
    nullary main_cst (constant S_ .f32 0x00000000#32),
    binary main_v1 main_cst main_v2 (fun x v => Host.reduceAdd x v reducesTo_S4x8x32768x32_S4x8x32768_d3 h_S_),
    unary main_v2 main_v3 (broadcastInDim S4x8x32768x1 ![0, 1, 2] bcast_S4x8x32768_S4x8x32768x1_0_1_2),
    nullary main_cst_0 (constant S_ .f32 0x42000000#32),
    unary main_cst_0 main_v4 (broadcastInDim S4x8x32768x1 ![] bcast_S_S4x8x32768x1),
    binary main_v3 main_v4 main_v5 Host.divf,
    nullary main_c (constantI S_ 32 1#32),
    TRef.nullary main_call0.call0.cst (constant S_ .f32 0x00000000#32),
    TRef.binary (.of main_v1) main_call0.call0.cst main_call0.call0.v0 (fun x v => Host.reduceAdd x v reducesTo_S4x8x32768x32_S4x8x32768_d3 h_S_),
    TRef.unary main_call0.call0.v0 main_call0.call0.v1 (broadcastInDim S4x8x32768x1 ![0, 1, 2] bcast_S4x8x32768_S4x8x32768x1_0_1_2),
    TRef.nullary main_call0.call0.cst_0 (constant S_ .f32 0x42000000#32),
    TRef.unary main_call0.call0.cst_0 main_call0.call0.v2 (broadcastInDim S4x8x32768x1 ![] bcast_S_S4x8x32768x1),
    TRef.binary main_call0.call0.v1 main_call0.call0.v2 main_call0.call0.v3 Host.divf,
    TRef.unary main_call0.call0.v3 main_call0.call0.v4 (broadcastInDim S4x8x32768x32 ![0, 1, 2, 3] bcast_S4x8x32768x1_S4x8x32768x32_0_1_2_3),
    TRef.binary (.of main_v1) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x42000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S4x8x32768x32_S4x8x32768_d3 h_S_),
    TRef.unary main_call0.call0.v9 main_call0.call0.v10 (broadcastInDim S4x8x32768x1 ![0, 1, 2] bcast_S4x8x32768_S4x8x32768x1_0_1_2),
    TRef.unary main_call0.call0.v8 main_call0.call0.v11 (broadcastInDim S4x8x32768x1 ![] bcast_S_S4x8x32768x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S4x8x32768x1 ![] bcast_S_S4x8x32768x1),
    TRef.ternary main_call0.call0.v13 main_call0.call0.v12 main_call0.call0.call0.v1 main_call0.call0.call0.v2 (fun p a b => select (broadcastInDim S4x8x32768x1 ![] bcast_S_S4x8x32768x1 p) a b),
    TRef.unary main_call0.call0.call0.v2 main_call0.v1 Host.sqrt,
    unary main_v5 main_v7 (broadcastInDim S4x8x32768x32 ![0, 1, 2, 3] bcast_S4x8x32768x1_S4x8x32768x32_0_1_2_3),
    binary main_v1 main_v7 main_v8 subf,
    nullary main_cst_1 (constant S_ .f32 0x3727C5AC#32),
    unary main_cst_1 main_v9 (broadcastInDim S4x8x32768x1 ![] bcast_S_S4x8x32768x1),
    binary main_v6 main_v9 main_v10 addf,
    unary main_v10 main_v11 (broadcastInDim S4x8x32768x32 ![0, 1, 2, 3] bcast_S4x8x32768x1_S4x8x32768x32_0_1_2_3),
    binary main_v8 main_v11 main_v12 Host.divf,
    unary main_arg1 main_v13 (broadcastInDim S1x8x1x32 ![1, 2, 3] bcast_S8x1x32_S1x8x1x32_1_2_3),
    unary main_v13 main_v14 (broadcastInDim S4x8x32768x32 ![0, 1, 2, 3] bcast_S1x8x1x32_S4x8x32768x32_0_1_2_3),
    binary main_v14 main_v12 main_v15 mulf,
    unary main_arg2 main_v16 (broadcastInDim S1x8x1x32 ![1, 2, 3] bcast_S8x1x32_S1x8x1x32_1_2_3),
    unary main_v16 main_v17 (broadcastInDim S4x8x32768x32 ![0, 1, 2, 3] bcast_S1x8x1x32_S4x8x32768x32_0_1_2_3),
    binary main_v15 main_v17 main_v18 addf,
    nullary main_cst_2 (constant S_ .f32 0x00000000#32),
    binary main_v1 main_cst_2 main_v19 (fun x v => Host.reduceAdd x v reducesTo_S4x8x32768x32_S4x8x32768_d3 h_S_),
    unary main_v19 main_v20 (broadcastInDim S4x8x32768x1 ![0, 1, 2] bcast_S4x8x32768_S4x8x32768x1_0_1_2),
    nullary main_cst_3 (constant S_ .f32 0x42000000#32),
    unary main_cst_3 main_v21 (broadcastInDim S4x8x32768x1 ![] bcast_S_S4x8x32768x1),
    binary main_v20 main_v21 main_v22 Host.divf,
    nullary main_c_4 (constantI S_ 32 1#32),
    TRef.nullary main_call1.call0.cst (constant S_ .f32 0x00000000#32),
    TRef.binary (.of main_v1) main_call1.call0.cst main_call1.call0.v0 (fun x v => Host.reduceAdd x v reducesTo_S4x8x32768x32_S4x8x32768_d3 h_S_),
    TRef.unary main_call1.call0.v0 main_call1.call0.v1 (broadcastInDim S4x8x32768x1 ![0, 1, 2] bcast_S4x8x32768_S4x8x32768x1_0_1_2),
    TRef.nullary main_call1.call0.cst_0 (constant S_ .f32 0x42000000#32),
    TRef.unary main_call1.call0.cst_0 main_call1.call0.v2 (broadcastInDim S4x8x32768x1 ![] bcast_S_S4x8x32768x1),
    TRef.binary main_call1.call0.v1 main_call1.call0.v2 main_call1.call0.v3 Host.divf,
    TRef.unary main_call1.call0.v3 main_call1.call0.v4 (broadcastInDim S4x8x32768x32 ![0, 1, 2, 3] bcast_S4x8x32768x1_S4x8x32768x32_0_1_2_3),
    TRef.binary (.of main_v1) main_call1.call0.v4 main_call1.call0.v5 subf,
    TRef.binary main_call1.call0.v5 main_call1.call0.v5 main_call1.call0.v6 mulf,
    TRef.unary (.of main_c_4) main_call1.call0.v7 (sitofp .f32),
    TRef.nullary main_call1.call0.cst_1 (constant S_ .f32 0x42000000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S4x8x32768x32_S4x8x32768_d3 h_S_),
    TRef.unary main_call1.call0.v9 main_call1.call0.v10 (broadcastInDim S4x8x32768x1 ![0, 1, 2] bcast_S4x8x32768_S4x8x32768x1_0_1_2),
    TRef.unary main_call1.call0.v8 main_call1.call0.v11 (broadcastInDim S4x8x32768x1 ![] bcast_S_S4x8x32768x1),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S4x8x32768x1 ![] bcast_S_S4x8x32768x1),
    TRef.ternary main_call1.call0.v13 main_call1.call0.v12 main_call1.call0.call0.v1 main_call1.call0.call0.v2 (fun p a b => select (broadcastInDim S4x8x32768x1 ![] bcast_S_S4x8x32768x1 p) a b),
    TRef.unary main_call1.call0.call0.v2 main_call1.v1 Host.sqrt,
    unary main_v22 main_v24 (broadcastInDim S4x8x32768x32 ![0, 1, 2, 3] bcast_S4x8x32768x1_S4x8x32768x32_0_1_2_3),
    binary main_v1 main_v24 main_v25 subf,
    nullary main_cst_5 (constant S_ .f32 0x3727C5AC#32),
    unary main_cst_5 main_v26 (broadcastInDim S4x8x32768x1 ![] bcast_S_S4x8x32768x1),
    binary main_v23 main_v26 main_v27 addf,
    unary main_v27 main_v28 (broadcastInDim S4x8x32768x32 ![0, 1, 2, 3] bcast_S4x8x32768x1_S4x8x32768x32_0_1_2_3),
    binary main_v25 main_v28 main_v29 Host.divf,
    unary main_arg3 main_v30 (broadcastInDim S1x8x1x32 ![1, 2, 3] bcast_S8x1x32_S1x8x1x32_1_2_3),
    unary main_v30 main_v31 (broadcastInDim S4x8x32768x32 ![0, 1, 2, 3] bcast_S1x8x1x32_S4x8x32768x32_0_1_2_3),
    binary main_v31 main_v29 main_v32 mulf,
    unary main_arg4 main_v33 (broadcastInDim S1x8x1x32 ![1, 2, 3] bcast_S8x1x32_S1x8x1x32_1_2_3),
    unary main_v33 main_v34 (broadcastInDim S4x8x32768x32 ![0, 1, 2, 3] bcast_S1x8x1x32_S4x8x32768x32_0_1_2_3),
    binary main_v32 main_v34 main_v35 addf,
    binary main_v18 main_v35 main_v36 (fun l r => Host.dotGeneral dot_S4x8x32768x32_S4x8x32768x32_S4x8x32x32_2_2_3_3_01_01 none l r),
    nullary main_cst_6 (constant S_ .f32 0x47000000#32),
    unary main_cst_6 main_v37 (broadcastInDim S4x8x32x32 ![] bcast_S_S4x8x32x32),
    binary main_v36 main_v37 main_v38 Host.divf,
    binary main_v1 main_v38 main_v39 (fun l r => Host.dotGeneral dot_S4x8x32768x32_S4x8x32x32_S4x8x32768x32_3_2_2_3_01_01 none l r),
    unary main_v39 main_v40 (transpose S4x32768x8x32 [0, 2, 1, 3] · transposes_S4x8x32768x32_S4x32768x8x32_0_2_1_3),
    reshape main_v40 main_v41 rfl shapeCasts_S4x32768x8x32_S4x32768x256,
    binary main_v41 main_arg0 main_v42 addf ]

/-- @main is that straight line.  A program is a finite tree of requests and sequencing grafts the continuation onto
    its leaves, so with the outlined functions unfolded at their calls and the records at their fields both sides
    compute to the same chain of ninety-eight steps ending in the return. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨reshape_bufs_sub .., unary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., binary_bufs_sub .., binary_bufs_sub .., unary_bufs_sub ..,
    reshape_bufs_sub .., binary_bufs_sub ..⟩

/-- On the device, for any float values, from any memory with zero counters: every weakly fair execution of @main
    terminates, and every final state has each buffer at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 1000000 in
/-- The fold read at the result buffer is the composed term of the five arguments: each operation's result at its own
    buffer is its function of its operands' contents, at any other buffer what was there; the typed references'
    transports are the identity at these literal buffers, and the stages of the composed term unfold to the same text. -/
theorem out_eq (V : Valuation τ sig (Elt Ideal)) :
    after (ops (F := Ideal)) V (main_v42 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes an argument buffer: the fold leaves it at the launch contents. -/
theorem arg0_eq (V : Valuation τ sig (Elt F)) :
    after ops V (main_arg0 : DevRef τ sig) = V (main_arg0 : DevRef τ sig) := by after_results_simp
theorem arg1_eq (V : Valuation τ sig (Elt F)) :
    after ops V (main_arg1 : DevRef τ sig) = V (main_arg1 : DevRef τ sig) := by after_results_simp
theorem arg2_eq (V : Valuation τ sig (Elt F)) :
    after ops V (main_arg2 : DevRef τ sig) = V (main_arg2 : DevRef τ sig) := by after_results_simp
theorem arg3_eq (V : Valuation τ sig (Elt F)) :
    after ops V (main_arg3 : DevRef τ sig) = V (main_arg3 : DevRef τ sig) := by after_results_simp
theorem arg4_eq (V : Valuation τ sig (Elt F)) :
    after ops V (main_arg4 : DevRef τ sig) = V (main_arg4 : DevRef τ sig) := by after_results_simp

/-- The reference at the ideal instance: every weakly fair execution terminates with the result buffer at the composed
    term of the arguments' launch contents and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v42) = refTerm (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run _ _ _).mono (fun _ h c => ⟨(h c main_v42).trans (out_eq _), (h c main_arg0).trans (arg0_eq _),
      (h c main_arg1).trans (arg1_eq _), (h c main_arg2).trans (arg2_eq _), (h c main_arg3).trans (arg3_eq _),
      (h c main_arg4).trans (arg4_eq _)⟩)
    (run_all m ρ)

/-- The run with the result conjunct dropped: the program terminates and leaves its arguments unchanged. -/
theorem frame (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run _ _ _).mono (fun _ h c => (h c).2) (run m ρ)

end Cert.ReferenceIdeal.Hand

end
-- ==== Proof.Ideal.RefValConsts.lean ====
/-
  The float words the reference spells, as the extended reals they denote, and the three small laws read off them:
    32 − (1 : i32 → f32) = 31 as words;   0 < 32 − 1, so the outlined variance's selection takes the quotient;
    dividing by the word 32768 is multiplying by the word 2⁻¹⁵, on every extended real.
-/
import Idealize.ShloMosaic.PureOps.Ideal
import Idealize.ShloMosaic.PureOps.Ideal.Laws

noncomputable section

namespace Cert.ReferenceIdeal.Hand

open Idealize.ShloMosaic

/-- The word 32.0 denotes 32. -/
theorem ofBits_32 : Ideal.ofBits .f32 0x42000000#32 = ((32 : ℝ) : EReal) := by
  simp [Ideal.ofBits, Ideal.ieee, -EReal.coe_mul]; norm_num

/-- The word 31.0 denotes 31. -/
theorem ofBits_31 : Ideal.ofBits .f32 0x41F80000#32 = ((31 : ℝ) : EReal) := by
  simp [Ideal.ofBits, Ideal.ieee, -EReal.coe_mul]; norm_num

/-- The word 32768.0 denotes 32768. -/
theorem ofBits_32768 : Ideal.ofBits .f32 0x47000000#32 = ((32768 : ℝ) : EReal) := by
  simp [Ideal.ofBits, Ideal.ieee, -EReal.coe_mul]; norm_num

/-- The word 2⁻¹⁵ denotes 1 / 32768. -/
theorem ofBits_invN : Ideal.ofBits .f32 0x38000000#32 = ((1 / 32768 : ℝ) : EReal) := by
  simp [Ideal.ofBits, Ideal.ieee, -EReal.coe_mul]; norm_num

/-- The integer word 1 converted to a float is the real 1. -/
theorem sitofp_one : (FloatOps.sitofp (F := Ideal) .f32 (1#32 : BitVec 32) : EReal) = ((1 : ℝ) : EReal) := by
  show (((1#32 : BitVec 32).toInt : ℝ) : EReal) = ((1 : ℝ) : EReal)
  norm_num

/-- 32 − 1 = 31, as the words denote them. -/
theorem ddof_eq :
    Ideal.ofBits .f32 0x42000000#32 - (FloatOps.sitofp (F := Ideal) .f32 (1#32 : BitVec 32) : EReal)
      = Ideal.ofBits .f32 0x41F80000#32 := by
  rw [ofBits_32, ofBits_31, sitofp_one, ← EReal.coe_sub]; norm_num

/-- 31 is above the zero word: the comparison the outlined variance makes is true. -/
theorem ddof_pos :
    FloatOps.cmpf (F := Ideal) .ogt (Ideal.ofBits .f32 0x41F80000#32 : Ideal .f32) (Ideal.ofBits .f32 0x00000000#32) = 1 := by
  rw [Ideal.cmpf_def, Ideal.ofBits_zero_f32, ofBits_31]
  show BitVec.ofBool (decide ((0 : EReal) < ((31 : ℝ) : EReal))) = 1
  rw [decide_eq_true (by exact_mod_cast (by norm_num : (0 : ℝ) < 31))]; rfl

/-- Division by the word 32768 is multiplication by the word 2⁻¹⁵, on every extended real. -/
theorem div_32768 (a : EReal) :
    Ideal.div a (Ideal.ofBits .f32 0x47000000#32) = a * Ideal.ofBits .f32 0x38000000#32 := by
  rw [ofBits_32768, ofBits_invN]
  exact Ideal.div_coe (by norm_num) a

end Cert.ReferenceIdeal.Hand

end
-- ==== Proof.Ideal.RefValLN.lean ====
/-
  The reference's stages read at an index, up to the layer-normed features.

  With q = qT x (heads outermost), every stage depends on one row (b, h, n) of q only:
    q (b, h, n, d)        = x (b, n, 32 h + d);
    meanT q (b, h, n, ·)  = (∑ d, q (b, h, n, d)) / 32;
    varT q (b, h, n, ·)   = (∑ d, (q d − mean)²) / 31      (the divisor 32 − 1 evaluated, the selection taken);
    lnT q w c (b, h, n, d) = w (h, 0, d) · ((q d − mean) / (√var + ε)) + c (h, 0, d).
-/
import proofs.«133594_j5471788335757_1_alg».proof.Proof.Ideal.RefTerm
import proofs.«133594_j5471788335757_1_alg».proof.Proof.Ideal.RefValConsts
import proofs.«133594_j5471788335757_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.Hand

open Idealize.ShloMosaic Idealize.ShloMosaic.ValueIdx Cert.ReferenceIdeal

variable [Facts]
open Facts₀ Facts

/-- Heads outermost, at an index: entry (b, h, n, d) is x at (b, n, 32 h + d). -/
theorem qT_apply (x : Vec Ideal S4x32768x256 .f32) (b : Fin 4) (h : Fin 8) (n : Fin 32768) (d : Fin 32) :
    qT x (ix4 b h n d) = x (ix3 b n (Cert.Spec.ch h d)) := by
  unfold qT
  refine (transpose_apply _ _ _ (ix4 b h n d) (ix4 b n h d) ?_).trans ?_
  · intro a
    match a with
    | ⟨0, _⟩ => rfl
    | ⟨1, _⟩ => rfl
    | ⟨2, _⟩ => rfl
    | ⟨3, _⟩ => rfl
  · refine shapeCast_apply _ _ (ix4 b n h d) (ix3 b n (Cert.Spec.ch h d)) ?_
    rw [Shape.rowMajor_val_three, Shape.rowMajor_val_four]
    show ((b.val * 32768 + n.val) * 256 + (32 * h.val + d.val)) = ((b.val * 32768 + n.val) * 8 + h.val) * 32 + d.val
    omega

/-- The sum over the last axis of a [4, 8, 32768, 32] array, kept as [4, 8, 32768], at an index. -/
theorem rowSum_apply (q : FVec Ideal S4x8x32768x32 .f32) (b : Fin 4) (h : Fin 8) (n : Fin 32768) :
    Host.reduceAdd q (constant (F := Ideal) S_ .f32 0x00000000#32) reducesTo_S4x8x32768x32_S4x8x32768_d3 h_S_ (ix3 b h n)
      = ∑ d : Fin 32, q (ix4 b h n d) := by
  have hR : S4x8x32768x32.Reduces [3] S4x8x32768 := by decide
  rw [hostReduceAdd_apply]
  refine (Ideal.hostReduceAdd_single _ hR q _ (ix3 b h n)).trans ?_
  rw [constant_apply, Ideal.ofBits_zero_f32, zero_add]
  refine Finset.sum_congr rfl fun d _ => congrArg q ?_
  funext a
  match a with
  | ⟨0, _⟩ => rfl
  | ⟨1, _⟩ => rfl
  | ⟨2, _⟩ => rfl
  | ⟨3, _⟩ => rfl

/-- A [4, 8, 32768] array given a trailing unit axis, at an index. -/
theorem keepdim_apply (v : FVec Ideal S4x8x32768 .f32) (b : Fin 4) (h : Fin 8) (n : Fin 32768) (u : Fin 1) :
    broadcastInDim S4x8x32768x1 ![0, 1, 2] bcast_S4x8x32768_S4x8x32768x1_0_1_2 v (ix4 b h n u) = v (ix3 b h n) := by
  refine broadcastInDim_apply _ _ v (ix4 b h n u) (ix3 b h n) ?_
  intro a
  match a with
  | ⟨0, _⟩ => rfl
  | ⟨1, _⟩ => rfl
  | ⟨2, _⟩ => rfl

/-- A [4, 8, 32768, 1] array broadcast along its unit axis to 32 channels, at an index. -/
theorem bcastRow_apply (v : FVec Ideal S4x8x32768x1 .f32) (b : Fin 4) (h : Fin 8) (n : Fin 32768) (d : Fin 32) :
    broadcastInDim S4x8x32768x32 ![0, 1, 2, 3] bcast_S4x8x32768x1_S4x8x32768x32_0_1_2_3 v (ix4 b h n d)
      = v (ix4 b h n (0 : Fin 1)) := by
  refine broadcastInDim_apply _ _ v (ix4 b h n d) (ix4 b h n (0 : Fin 1)) ?_
  intro a
  match a with
  | ⟨0, _⟩ => rfl
  | ⟨1, _⟩ => rfl
  | ⟨2, _⟩ => rfl
  | ⟨3, _⟩ => rfl

/-- A [8, 1, 32] weight or bias array broadcast to [4, 8, 32768, 32] through [1, 8, 1, 32], at an index. -/
theorem bcastW_apply (w : Vec Ideal S8x1x32 .f32) (b : Fin 4) (h : Fin 8) (n : Fin 32768) (d : Fin 32) :
    broadcastInDim S4x8x32768x32 ![0, 1, 2, 3] bcast_S1x8x1x32_S4x8x32768x32_0_1_2_3
        (broadcastInDim S1x8x1x32 ![1, 2, 3] bcast_S8x1x32_S1x8x1x32_1_2_3 w) (ix4 b h n d)
      = w (ix3 h (0 : Fin 1) d) := by
  refine (broadcastInDim_apply _ _ _ (ix4 b h n d) (ix4 (0 : Fin 1) h (0 : Fin 1) d) ?_).trans ?_
  · intro a
    match a with
    | ⟨0, _⟩ => rfl
    | ⟨1, _⟩ => rfl
    | ⟨2, _⟩ => rfl
    | ⟨3, _⟩ => rfl
  · refine broadcastInDim_apply _ _ w (ix4 (0 : Fin 1) h (0 : Fin 1) d) (ix3 h (0 : Fin 1) d) ?_
    intro a
    match a with
    | ⟨0, _⟩ => rfl
    | ⟨1, _⟩ => rfl
    | ⟨2, _⟩ => rfl

/-- Row (b, h, n) of a [4, 8, 32768, 32] array. -/
def qrow (q : FVec Ideal S4x8x32768x32 .f32) (b : Fin 4) (h : Fin 8) (n : Fin 32768) : Fin 32 → EReal :=
  fun d => q (ix4 b h n d)

/-- The mean stage at an index is the row's mean. -/
theorem meanT_apply (q : FVec Ideal S4x8x32768x32 .f32) (b : Fin 4) (h : Fin 8) (n : Fin 32768) (u : Fin 1) :
    meanT q (ix4 b h n u) = Cert.Spec.rowMean (qrow q b h n) := by
  unfold meanT
  rw [hostDivf_apply, keepdim_apply, rowSum_apply, broadcastInDim_scalar_apply, constant_apply]
  rfl

/-- The centred entry, at an index. -/
theorem cenT_apply (q : FVec Ideal S4x8x32768x32 .f32) (b : Fin 4) (h : Fin 8) (n : Fin 32768) (d : Fin 32) :
    subf q (broadcastInDim S4x8x32768x32 ![0, 1, 2, 3] bcast_S4x8x32768x1_S4x8x32768x32_0_1_2_3 (meanT q)) (ix4 b h n d)
      = Cert.Spec.rowCen (qrow q b h n) d := by
  rw [subf_apply, bcastRow_apply, meanT_apply]
  rfl

/-- The divisor scalar is the word 31. -/
theorem ddofT_apply : ddofT ix0 = Ideal.ofBits .f32 0x41F80000#32 := by
  unfold ddofT
  rw [subf_apply, constant_apply, sitofp_apply]
  exact ddof_eq

/-- The variance stage at an index is the row's unbiased variance: the selection takes the quotient. -/
theorem varT_apply (q : FVec Ideal S4x8x32768x32 .f32) (b : Fin 4) (h : Fin 8) (n : Fin 32768) (u : Fin 1) :
    varT q (ix4 b h n u) = Cert.Spec.rowVar (qrow q b h n) := by
  unfold varT
  rw [select_apply, broadcastInDim_scalar_apply, cmpf_apply, ddofT_apply, constant_apply, ddof_pos]
  show Host.divf _ _ (ix4 b h n u) = _
  rw [hostDivf_apply, keepdim_apply, rowSum_apply, broadcastInDim_scalar_apply, ddofT_apply]
  unfold Cert.Spec.rowVar
  refine congrArg (fun s => Ideal.div s Cert.Spec.c31) (Finset.sum_congr rfl fun d _ => ?_)
  rw [mulf_apply, cenT_apply]

/-- The standard-deviation stage at an index. -/
theorem stdT_apply (q : FVec Ideal S4x8x32768x32 .f32) (b : Fin 4) (h : Fin 8) (n : Fin 32768) (u : Fin 1) :
    stdT q (ix4 b h n u) = Ideal.sqrt (Cert.Spec.rowVar (qrow q b h n)) := by
  unfold stdT
  show FloatOps.hostUnary .sqrt (varT q (ix4 b h n u)) = _
  rw [Ideal.hostUnary_sqrt_def, varT_apply]

/-- The layer-normed feature at an index: the reference multiplies weight by normalised entry; the common
    specification writes the product the other way round. -/
theorem lnT_apply (q : FVec Ideal S4x8x32768x32 .f32) (w c : Vec Ideal S8x1x32 .f32)
    (b : Fin 4) (h : Fin 8) (n : Fin 32768) (d : Fin 32) :
    lnT q w c (ix4 b h n d) = Cert.Spec.feat (qrow q b h n) (Cert.Spec.wrow w h) (Cert.Spec.wrow c h) d := by
  unfold lnT
  rw [addf_apply, mulf_apply, bcastW_apply, bcastW_apply, hostDivf_apply, cenT_apply, bcastRow_apply, addf_apply,
    stdT_apply, broadcastInDim_scalar_apply, constant_apply]
  unfold Cert.Spec.feat Cert.Spec.rowNormed Cert.Spec.wrow
  rw [mul_comm]

end Cert.ReferenceIdeal.Hand

end
-- ==== Proof.Ideal.RefValKV.lean ====
/-
  The reference's two batched contractions read at an index.

  The key–value product contracts the token axis (axis 2 of both operands), batch axes (0, 1), free axes 3 and 3:
    its entry (b, h, d, e) is ∑ n, k (b, h, n, d) · v (b, h, n, e), and the division by 32768 is the product with 2⁻¹⁵.
  The output product contracts the channel axis of q (axis 3) with axis 2 of the key–value array:
    its entry (b, h, n, e) is ∑ d, q (b, h, n, d) · kv (b, h, d, e).
  For each operand axis the operand index's coordinate is a coordinate of the result index (batch, then free) or the
  contraction coordinate; one statement per axis, then the sum over the one-axis contraction index re-indexed by its
  coordinate.
-/
import proofs.«133594_j5471788335757_1_alg».proof.Proof.Ideal.RefTerm
import proofs.«133594_j5471788335757_1_alg».proof.Proof.Ideal.RefValConsts
import proofs.«133594_j5471788335757_1_alg».proof.Proof.Spec
import Idealize.ShloMosaic.Lib.ValueIdx
import Idealize.ShloMosaic.Lib.IdealHost
import Idealize.ShloMosaic.PureOps.Ideal.Laws

noncomputable section

namespace Cert.ReferenceIdeal.Hand

open Idealize.ShloMosaic Idealize.ShloMosaic.ValueIdx Cert.ReferenceIdeal

variable [Facts]
open Facts₀ Facts

/-! ## The key–value product's operand indices, axis by axis -/

theorem lhs_kv_0 (i : S4x8x32x32.Idx) (q : dot_S4x8x32768x32_S4x8x32768x32_S4x8x32x32_2_2_3_3_01_01.contr.Idx) :
    (dot_S4x8x32768x32_S4x8x32768x32_S4x8x32x32_2_2_3_3_01_01.lhsIdx i q 0).val = (i 0).val := by
  unfold DotDims.lhsIdx
  rw [dif_pos (show (0 : Fin S4x8x32768x32.rank) ∈ dot_S4x8x32768x32_S4x8x32768x32_S4x8x32x32_2_2_3_3_01_01.lhsBatch by
      show (0 : Fin 4) ∈ ([0, 1] : List (Fin 4)); decide)]
  rfl
theorem lhs_kv_1 (i : S4x8x32x32.Idx) (q : dot_S4x8x32768x32_S4x8x32768x32_S4x8x32x32_2_2_3_3_01_01.contr.Idx) :
    (dot_S4x8x32768x32_S4x8x32768x32_S4x8x32x32_2_2_3_3_01_01.lhsIdx i q 1).val = (i 1).val := by
  unfold DotDims.lhsIdx
  rw [dif_pos (show (1 : Fin S4x8x32768x32.rank) ∈ dot_S4x8x32768x32_S4x8x32768x32_S4x8x32x32_2_2_3_3_01_01.lhsBatch by
      show (1 : Fin 4) ∈ ([0, 1] : List (Fin 4)); decide)]
  rfl
theorem lhs_kv_2 (i : S4x8x32x32.Idx) (q : dot_S4x8x32768x32_S4x8x32768x32_S4x8x32x32_2_2_3_3_01_01.contr.Idx) :
    (dot_S4x8x32768x32_S4x8x32768x32_S4x8x32x32_2_2_3_3_01_01.lhsIdx i q 2).val = (q ⟨0, by show 0 < 1; exact Nat.one_pos⟩).val :=
  dot_S4x8x32768x32_S4x8x32768x32_S4x8x32x32_2_2_3_3_01_01.lhsIdx_val_of_single rfl i q
theorem lhs_kv_3 (i : S4x8x32x32.Idx) (q : dot_S4x8x32768x32_S4x8x32768x32_S4x8x32x32_2_2_3_3_01_01.contr.Idx) :
    (dot_S4x8x32768x32_S4x8x32768x32_S4x8x32x32_2_2_3_3_01_01.lhsIdx i q 3).val = (i 2).val := by
  unfold DotDims.lhsIdx
  rw [dif_neg (show ¬(3 : Fin S4x8x32768x32.rank) ∈ dot_S4x8x32768x32_S4x8x32768x32_S4x8x32x32_2_2_3_3_01_01.lhsBatch by
      show ¬(3 : Fin 4) ∈ ([0, 1] : List (Fin 4)); decide),
    dif_pos (show (3 : Fin S4x8x32768x32.rank) ∈ dot_S4x8x32768x32_S4x8x32768x32_S4x8x32x32_2_2_3_3_01_01.lhsNonContracting by
      show (3 : Fin 4) ∈ ([3] : List (Fin 4)); decide)]
  rfl
theorem rhs_kv_0 (i : S4x8x32x32.Idx) (q : dot_S4x8x32768x32_S4x8x32768x32_S4x8x32x32_2_2_3_3_01_01.contr.Idx) :
    (dot_S4x8x32768x32_S4x8x32768x32_S4x8x32x32_2_2_3_3_01_01.rhsIdx i q 0).val = (i 0).val := by
  unfold DotDims.rhsIdx
  rw [dif_pos (show (0 : Fin S4x8x32768x32.rank) ∈ dot_S4x8x32768x32_S4x8x32768x32_S4x8x32x32_2_2_3_3_01_01.rhsBatch by
      show (0 : Fin 4) ∈ ([0, 1] : List (Fin 4)); decide)]
  rfl
theorem rhs_kv_1 (i : S4x8x32x32.Idx) (q : dot_S4x8x32768x32_S4x8x32768x32_S4x8x32x32_2_2_3_3_01_01.contr.Idx) :
    (dot_S4x8x32768x32_S4x8x32768x32_S4x8x32x32_2_2_3_3_01_01.rhsIdx i q 1).val = (i 1).val := by
  unfold DotDims.rhsIdx
  rw [dif_pos (show (1 : Fin S4x8x32768x32.rank) ∈ dot_S4x8x32768x32_S4x8x32768x32_S4x8x32x32_2_2_3_3_01_01.rhsBatch by
      show (1 : Fin 4) ∈ ([0, 1] : List (Fin 4)); decide)]
  rfl
theorem rhs_kv_2 (i : S4x8x32x32.Idx) (q : dot_S4x8x32768x32_S4x8x32768x32_S4x8x32x32_2_2_3_3_01_01.contr.Idx) :
    (dot_S4x8x32768x32_S4x8x32768x32_S4x8x32x32_2_2_3_3_01_01.rhsIdx i q 2).val = (q ⟨0, by show 0 < 1; exact Nat.one_pos⟩).val :=
  dot_S4x8x32768x32_S4x8x32768x32_S4x8x32x32_2_2_3_3_01_01.rhsIdx_val_of_single rfl i q
theorem rhs_kv_3 (i : S4x8x32x32.Idx) (q : dot_S4x8x32768x32_S4x8x32768x32_S4x8x32x32_2_2_3_3_01_01.contr.Idx) :
    (dot_S4x8x32768x32_S4x8x32768x32_S4x8x32x32_2_2_3_3_01_01.rhsIdx i q 3).val = (i 3).val := by
  unfold DotDims.rhsIdx
  rw [dif_neg (show ¬(3 : Fin S4x8x32768x32.rank) ∈ dot_S4x8x32768x32_S4x8x32768x32_S4x8x32x32_2_2_3_3_01_01.rhsBatch by
      show ¬(3 : Fin 4) ∈ ([0, 1] : List (Fin 4)); decide),
    dif_pos (show (3 : Fin S4x8x32768x32.rank) ∈ dot_S4x8x32768x32_S4x8x32768x32_S4x8x32x32_2_2_3_3_01_01.rhsNonContracting by
      show (3 : Fin 4) ∈ ([3] : List (Fin 4)); decide)]
  rfl

/-- The key–value product at an index: the sum over the tokens. -/
theorem kvDot_apply (k v : FVec Ideal S4x8x32768x32 .f32) (b : Fin 4) (h : Fin 8) (d e : Fin 32) :
    Host.dotGeneral dot_S4x8x32768x32_S4x8x32768x32_S4x8x32x32_2_2_3_3_01_01 none k v (ix4 b h d e)
      = ∑ n : Fin 32768, k (ix4 b h n d) * v (ix4 b h n e) := by
  simp only [Host.dotGeneral]
  rw [Ideal.dotGeneral_apply,
    ← Equiv.sum_comp (contrEquiv1 dot_S4x8x32768x32_S4x8x32768x32_S4x8x32x32_2_2_3_3_01_01 32768 rfl rfl).symm]
  refine Finset.sum_congr rfl fun n _ => ?_
  have hk := contrEquiv1_symm_val dot_S4x8x32768x32_S4x8x32768x32_S4x8x32x32_2_2_3_3_01_01 32768 rfl rfl n
  have el : dot_S4x8x32768x32_S4x8x32768x32_S4x8x32x32_2_2_3_3_01_01.lhsIdx (ix4 b h d e)
      ((contrEquiv1 dot_S4x8x32768x32_S4x8x32768x32_S4x8x32x32_2_2_3_3_01_01 32768 rfl rfl).symm n) = ix4 b h n d :=
    funext fun a => Fin.ext (by
      match a with
      | ⟨0, _⟩ => exact lhs_kv_0 _ _
      | ⟨1, _⟩ => exact lhs_kv_1 _ _
      | ⟨2, _⟩ => exact (lhs_kv_2 _ _).trans hk
      | ⟨3, _⟩ => exact lhs_kv_3 _ _)
  have er : dot_S4x8x32768x32_S4x8x32768x32_S4x8x32x32_2_2_3_3_01_01.rhsIdx (ix4 b h d e)
      ((contrEquiv1 dot_S4x8x32768x32_S4x8x32768x32_S4x8x32x32_2_2_3_3_01_01 32768 rfl rfl).symm n) = ix4 b h n e :=
    funext fun a => Fin.ext (by
      match a with
      | ⟨0, _⟩ => exact rhs_kv_0 _ _
      | ⟨1, _⟩ => exact rhs_kv_1 _ _
      | ⟨2, _⟩ => exact (rhs_kv_2 _ _).trans hk
      | ⟨3, _⟩ => exact rhs_kv_3 _ _)
  rw [el, er]

/-- The key–value stage at an index: the token sum scaled by 2⁻¹⁵. -/
theorem kvT_apply (k v : FVec Ideal S4x8x32768x32 .f32) (b : Fin 4) (h : Fin 8) (d e : Fin 32) :
    kvT k v (ix4 b h d e) = (∑ n : Fin 32768, k (ix4 b h n d) * v (ix4 b h n e)) * Cert.Spec.cinvN := by
  unfold kvT
  rw [hostDivf_apply, broadcastInDim_scalar_apply, constant_apply, div_32768, kvDot_apply]

/-! ## The output product's operand indices, axis by axis -/

theorem lhs_out_0 (i : S4x8x32768x32.Idx) (q : dot_S4x8x32768x32_S4x8x32x32_S4x8x32768x32_3_2_2_3_01_01.contr.Idx) :
    (dot_S4x8x32768x32_S4x8x32x32_S4x8x32768x32_3_2_2_3_01_01.lhsIdx i q 0).val = (i 0).val := by
  unfold DotDims.lhsIdx
  rw [dif_pos (show (0 : Fin S4x8x32768x32.rank) ∈ dot_S4x8x32768x32_S4x8x32x32_S4x8x32768x32_3_2_2_3_01_01.lhsBatch by
      show (0 : Fin 4) ∈ ([0, 1] : List (Fin 4)); decide)]
  rfl
theorem lhs_out_1 (i : S4x8x32768x32.Idx) (q : dot_S4x8x32768x32_S4x8x32x32_S4x8x32768x32_3_2_2_3_01_01.contr.Idx) :
    (dot_S4x8x32768x32_S4x8x32x32_S4x8x32768x32_3_2_2_3_01_01.lhsIdx i q 1).val = (i 1).val := by
  unfold DotDims.lhsIdx
  rw [dif_pos (show (1 : Fin S4x8x32768x32.rank) ∈ dot_S4x8x32768x32_S4x8x32x32_S4x8x32768x32_3_2_2_3_01_01.lhsBatch by
      show (1 : Fin 4) ∈ ([0, 1] : List (Fin 4)); decide)]
  rfl
theorem lhs_out_2 (i : S4x8x32768x32.Idx) (q : dot_S4x8x32768x32_S4x8x32x32_S4x8x32768x32_3_2_2_3_01_01.contr.Idx) :
    (dot_S4x8x32768x32_S4x8x32x32_S4x8x32768x32_3_2_2_3_01_01.lhsIdx i q 2).val = (i 2).val := by
  unfold DotDims.lhsIdx
  rw [dif_neg (show ¬(2 : Fin S4x8x32768x32.rank) ∈ dot_S4x8x32768x32_S4x8x32x32_S4x8x32768x32_3_2_2_3_01_01.lhsBatch by
      show ¬(2 : Fin 4) ∈ ([0, 1] : List (Fin 4)); decide),
    dif_pos (show (2 : Fin S4x8x32768x32.rank) ∈ dot_S4x8x32768x32_S4x8x32x32_S4x8x32768x32_3_2_2_3_01_01.lhsNonContracting by
      show (2 : Fin 4) ∈ ([2] : List (Fin 4)); decide)]
  rfl
theorem lhs_out_3 (i : S4x8x32768x32.Idx) (q : dot_S4x8x32768x32_S4x8x32x32_S4x8x32768x32_3_2_2_3_01_01.contr.Idx) :
    (dot_S4x8x32768x32_S4x8x32x32_S4x8x32768x32_3_2_2_3_01_01.lhsIdx i q 3).val = (q ⟨0, by show 0 < 1; exact Nat.one_pos⟩).val :=
  dot_S4x8x32768x32_S4x8x32x32_S4x8x32768x32_3_2_2_3_01_01.lhsIdx_val_of_single rfl i q
theorem rhs_out_0 (i : S4x8x32768x32.Idx) (q : dot_S4x8x32768x32_S4x8x32x32_S4x8x32768x32_3_2_2_3_01_01.contr.Idx) :
    (dot_S4x8x32768x32_S4x8x32x32_S4x8x32768x32_3_2_2_3_01_01.rhsIdx i q 0).val = (i 0).val := by
  unfold DotDims.rhsIdx
  rw [dif_pos (show (0 : Fin S4x8x32x32.rank) ∈ dot_S4x8x32768x32_S4x8x32x32_S4x8x32768x32_3_2_2_3_01_01.rhsBatch by
      show (0 : Fin 4) ∈ ([0, 1] : List (Fin 4)); decide)]
  rfl
theorem rhs_out_1 (i : S4x8x32768x32.Idx) (q : dot_S4x8x32768x32_S4x8x32x32_S4x8x32768x32_3_2_2_3_01_01.contr.Idx) :
    (dot_S4x8x32768x32_S4x8x32x32_S4x8x32768x32_3_2_2_3_01_01.rhsIdx i q 1).val = (i 1).val := by
  unfold DotDims.rhsIdx
  rw [dif_pos (show (1 : Fin S4x8x32x32.rank) ∈ dot_S4x8x32768x32_S4x8x32x32_S4x8x32768x32_3_2_2_3_01_01.rhsBatch by
      show (1 : Fin 4) ∈ ([0, 1] : List (Fin 4)); decide)]
  rfl
theorem rhs_out_2 (i : S4x8x32768x32.Idx) (q : dot_S4x8x32768x32_S4x8x32x32_S4x8x32768x32_3_2_2_3_01_01.contr.Idx) :
    (dot_S4x8x32768x32_S4x8x32x32_S4x8x32768x32_3_2_2_3_01_01.rhsIdx i q 2).val = (q ⟨0, by show 0 < 1; exact Nat.one_pos⟩).val :=
  dot_S4x8x32768x32_S4x8x32x32_S4x8x32768x32_3_2_2_3_01_01.rhsIdx_val_of_single rfl i q
theorem rhs_out_3 (i : S4x8x32768x32.Idx) (q : dot_S4x8x32768x32_S4x8x32x32_S4x8x32768x32_3_2_2_3_01_01.contr.Idx) :
    (dot_S4x8x32768x32_S4x8x32x32_S4x8x32768x32_3_2_2_3_01_01.rhsIdx i q 3).val = (i 3).val := by
  unfold DotDims.rhsIdx
  rw [dif_neg (show ¬(3 : Fin S4x8x32x32.rank) ∈ dot_S4x8x32768x32_S4x8x32x32_S4x8x32768x32_3_2_2_3_01_01.rhsBatch by
      show ¬(3 : Fin 4) ∈ ([0, 1] : List (Fin 4)); decide),
    dif_pos (show (3 : Fin S4x8x32x32.rank) ∈ dot_S4x8x32768x32_S4x8x32x32_S4x8x32768x32_3_2_2_3_01_01.rhsNonContracting by
      show (3 : Fin 4) ∈ ([3] : List (Fin 4)); decide)]
  rfl

/-- The output product at an index: the sum over the head's 32 channels. -/
theorem outDot_apply (q : FVec Ideal S4x8x32768x32 .f32) (kv : FVec Ideal S4x8x32x32 .f32)
    (b : Fin 4) (h : Fin 8) (n : Fin 32768) (e : Fin 32) :
    Host.dotGeneral dot_S4x8x32768x32_S4x8x32x32_S4x8x32768x32_3_2_2_3_01_01 none q kv (ix4 b h n e)
      = ∑ d : Fin 32, q (ix4 b h n d) * kv (ix4 b h d e) := by
  simp only [Host.dotGeneral]
  rw [Ideal.dotGeneral_apply,
    ← Equiv.sum_comp (contrEquiv1 dot_S4x8x32768x32_S4x8x32x32_S4x8x32768x32_3_2_2_3_01_01 32 rfl rfl).symm]
  refine Finset.sum_congr rfl fun d _ => ?_
  have hk := contrEquiv1_symm_val dot_S4x8x32768x32_S4x8x32x32_S4x8x32768x32_3_2_2_3_01_01 32 rfl rfl d
  have el : dot_S4x8x32768x32_S4x8x32x32_S4x8x32768x32_3_2_2_3_01_01.lhsIdx (ix4 b h n e)
      ((contrEquiv1 dot_S4x8x32768x32_S4x8x32x32_S4x8x32768x32_3_2_2_3_01_01 32 rfl rfl).symm d) = ix4 b h n d :=
    funext fun a => Fin.ext (by
      match a with
      | ⟨0, _⟩ => exact lhs_out_0 _ _
      | ⟨1, _⟩ => exact lhs_out_1 _ _
      | ⟨2, _⟩ => exact lhs_out_2 _ _
      | ⟨3, _⟩ => exact (lhs_out_3 _ _).trans hk)
  have er : dot_S4x8x32768x32_S4x8x32x32_S4x8x32768x32_3_2_2_3_01_01.rhsIdx (ix4 b h n e)
      ((contrEquiv1 dot_S4x8x32768x32_S4x8x32x32_S4x8x32768x32_3_2_2_3_01_01 32 rfl rfl).symm d) = ix4 b h d e :=
    funext fun a => Fin.ext (by
      match a with
      | ⟨0, _⟩ => exact rhs_out_0 _ _
      | ⟨1, _⟩ => exact rhs_out_1 _ _
      | ⟨2, _⟩ => exact (rhs_out_2 _ _).trans hk
      | ⟨3, _⟩ => exact rhs_out_3 _ _)
  rw [el, er]

end Cert.ReferenceIdeal.Hand

end
-- ==== Proof.Ideal.RefVal.lean ====
/-
  The reference's result is the common specification's function of its arguments.

  At (b, n, c), with h = c / 32 and e = c % 32: the result is the output product at (b, h, n, e) — reached through the
  transpose back and the flattening [4, 32768, 8, 32] → [4, 32768, 256], which sends (h, e) to channel 32 h + e — plus
  x (b, n, c).  The output product is ∑ d, x (b, n, 32 h + d) · kv (b, h, d, e), the key–value entry the token sum of the
  products of the two layer-normed features scaled by 2⁻¹⁵.  The reference adds x on the right where the specification
  adds it on the left.
-/
import proofs.«133594_j5471788335757_1_alg».proof.Proof.Ideal.RefValLN
import proofs.«133594_j5471788335757_1_alg».proof.Proof.Ideal.RefValKV

noncomputable section

namespace Cert.ReferenceIdeal.Hand

open Idealize.ShloMosaic Idealize.ShloMosaic.ValueIdx Cert.ReferenceIdeal

variable [Facts]
open Facts₀ Facts

/-- A row of the heads-outermost array is the head's row of x. -/
theorem qrow_qT (x : Vec Ideal S4x32768x256 .f32) (b : Fin 4) (h : Fin 8) (n : Fin 32768) :
    qrow (qT x) b h n = Cert.Spec.xrow x b n h :=
  funext fun d => qT_apply x b h n d

/-- The key–value stage of the two layer-normed feature arrays is the specification's key–value array. -/
theorem kvT_lnT_apply (x : Vec Ideal S4x32768x256 .f32) (a1 a2 a3 a4 : Vec Ideal S8x1x32 .f32)
    (b : Fin 4) (h : Fin 8) (d e : Fin 32) :
    kvT (lnT (qT x) a1 a2) (lnT (qT x) a3 a4) (ix4 b h d e) = Cert.Spec.KV x a1 a2 a3 a4 (ix4 b h d e) := by
  rw [kvT_apply]
  show _ = Cert.Spec.kvSum x a1 a2 a3 a4 b h d e * Cert.Spec.cinvN
  unfold Cert.Spec.kvSum
  refine congrArg (· * Cert.Spec.cinvN) (Finset.sum_congr rfl fun n _ => ?_)
  rw [lnT_apply, lnT_apply, qrow_qT]

/-- The flattened, transposed-back array at (b, n, c) is the heads-outermost array at (b, c / 32, n, c % 32). -/
theorem unT_apply (o : FVec Ideal S4x8x32768x32 .f32) (b : Fin 4) (n : Fin 32768) (c : Fin 256) :
    shapeCast S4x32768x256
        (transpose S4x32768x8x32 [0, 2, 1, 3] o transposes_S4x8x32768x32_S4x32768x8x32_0_2_1_3)
        shapeCasts_S4x32768x8x32_S4x32768x256 (ix3 b n c)
      = o (ix4 b (Cert.Spec.hd c) n (Cert.Spec.ed c)) := by
  refine (shapeCast_apply _ _ (ix3 b n c) (ix4 b n (Cert.Spec.hd c) (Cert.Spec.ed c)) ?_).trans ?_
  · rw [Shape.rowMajor_val_three, Shape.rowMajor_val_four]
    show ((b.val * 32768 + n.val) * 8 + c.val / 32) * 32 + c.val % 32 = (b.val * 32768 + n.val) * 256 + c.val
    omega
  · refine transpose_apply _ _ _ (ix4 b n (Cert.Spec.hd c) (Cert.Spec.ed c)) (ix4 b (Cert.Spec.hd c) n (Cert.Spec.ed c)) ?_
    intro a
    match a with
    | ⟨0, _⟩ => rfl
    | ⟨1, _⟩ => rfl
    | ⟨2, _⟩ => rfl
    | ⟨3, _⟩ => rfl

/-- The reference's result at an index. -/
theorem refTerm_apply (x : Vec Ideal S4x32768x256 .f32) (a1 a2 a3 a4 : Vec Ideal S8x1x32 .f32)
    (b : Fin 4) (n : Fin 32768) (c : Fin 256) :
    refTerm x a1 a2 a3 a4 (ix3 b n c) = Cert.Spec.G x a1 a2 a3 a4 (ix3 b n c) := by
  unfold refTerm
  rw [addf_apply, unT_apply, outDot_apply]
  show _ = x (ix3 b n c) + ∑ d : Fin 32, Cert.Spec.xrow x b n (Cert.Spec.hd c) d
      * Cert.Spec.KV x a1 a2 a3 a4 (ix4 b (Cert.Spec.hd c) d (Cert.Spec.ed c))
  rw [add_comm]
  refine congrArg (x (ix3 b n c) + ·) (Finset.sum_congr rfl fun d _ => ?_)
  rw [qT_apply, kvT_lnT_apply]
  rfl

/-- The reference's result is the common specification's function of the five arguments. -/
theorem refTerm_eq (x : Vec Ideal S4x32768x256 .f32) (a1 a2 a3 a4 : Vec Ideal S8x1x32 .f32) :
    refTerm x a1 a2 a3 a4 = Cert.Spec.G x a1 a2 a3 a4 := by
  funext j
  have h := refTerm_apply x a1 a2 a3 a4 (j 0) (j 1) (j 2)
  exact (congrArg (refTerm x a1 a2 a3 a4) (eq_ix3 j)).trans
    (h.trans (congrArg (Cert.Spec.G x a1 a2 a3 a4) (eq_ix3 j)).symm)

end Cert.ReferenceIdeal.Hand

end
-- ==== Proof.lean ====
/-
  The certificate's claims assembled.

  Both programs compute, per batch b and head h (32 of the 256 channels), the layer-normed features
  k = normed · kw + kb and v = normed · vw + vb of every token row (mean over the 32 channels, unbiased variance,
  ε added to the standard deviation), the 32 × 32 matrix kv = (∑ over the 32768 tokens of kᵀ v) / 32768, and the
  result x + x_h · kv_h. The kernel accumulates kᵀ v over eight blocks of 4096 tokens and multiplies by the word
  2⁻¹⁵; the reference sums once and divides by the word 32768; the variance's divisor is the word 31 in the kernel
  and 32 − 1 in the reference. Over the extended reals these are the same function `Cert.Spec.G` of the five
  arguments: the sum is only regrouped (addition is associative and commutative there), 2⁻¹⁵ is exactly 1/32768,
  and 32 − 1 is 31. No finiteness of the inputs is used.

  The three frames: each kernel program's launch, region by region, over exact proof data (the word-level
  program's modules are the idealized program's text at the other instance); the reference's run with its
  result dropped. The idealization rewrote nothing, so `preserves` is `True`.
-/
import proofs.«133594_j5471788335757_1_alg».proof.Defs
import proofs.«133594_j5471788335757_1_alg».proof.Proof.Gen.Kernel
import proofs.«133594_j5471788335757_1_alg».proof.Proof.Gen.KernelIdeal
import proofs.«133594_j5471788335757_1_alg».proof.Proof.Gen.ReferenceIdeal
import proofs.«133594_j5471788335757_1_alg».proof.Proof.Gen.Pre_finite_inputs
import proofs.«133594_j5471788335757_1_alg».proof.Proof.KB.Run
import proofs.«133594_j5471788335757_1_alg».proof.Proof.Ideal.KFinal
import proofs.«133594_j5471788335757_1_alg».proof.Proof.Ideal.RefRun
import proofs.«133594_j5471788335757_1_alg».proof.Proof.Ideal.RefVal

noncomputable section

namespace Cert.Proof

open Idealize.ShloMosaic Idealize.SL.Sem

/-- The word-level kernel runs to the end and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the idealized reference. -/
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame m ρ

/-- Both idealized programs end with the result at `Cert.Spec.G` of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Val.run m ρ, ?_⟩
  refine (θ_run Cert.ReferenceIdeal.defs _ _).mono (fun r h c => ⟨(h c).1.trans ?_, (h c).2⟩)
    (Cert.ReferenceIdeal.Hand.run m' ρ')
  rw [Cert.ReferenceIdeal.Hand.refTerm_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
